-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x7 : Shape := ⟨2, ![50000, 7]⟩
abbrev S2x600000 : Shape := ⟨2, ![2, 600000]⟩
abbrev S14x128 : Shape := ⟨2, ![14, 128]⟩
abbrev S128 : Shape := ⟨1, ![128]⟩
abbrev S128x128 : Shape := ⟨2, ![128, 128]⟩
abbrev S3x256x128 : Shape := ⟨3, ![3, 256, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S_ : Shape := ⟨0, ![]⟩

class Facts : Prop where
  bcast_S_S50000x7 : S_.BroadcastsInDim S50000x7 (![] : Fin 0 → Fin S50000x7.rank)
  reducesTo_S50000x7_S_d0_1 : S50000x7.ReducesTo [0, 1] S_
  h_S_ : 0 < S_.numel
  bcast_S_S14x128 : S_.BroadcastsInDim S14x128 (![] : Fin 0 → Fin S14x128.rank)
  reducesTo_S14x128_S_d0_1 : S14x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg1 : IVec S2x600000 32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_c_20 : IVec S_ 32 := constantI S_ 32 0#32
  let main_v54 : IVec S2x600000 32 := broadcastInDim S2x600000 ![] bcast_S_S2x600000 main_c_20
  let main_v55 : IVec S2x600000 1 := cmpi .sge main_arg1 main_v54
  let main_c_21 : IVec S_ 1 := constantI S_ 1 1#1
  let main_v56 : IVec S_ 1 := (fun x v => Host.reduce IntOp.andi x v reducesTo_S2x600000_S_d0_1 h_S_) main_v55 main_c_21
  let main_v57 : IVec S_ 1 := andi main_v53 main_v56
  let main_c_22 : IVec S_ 32 := constantI S_ 32 50000#32
  let main_v58 : IVec S2x600000 32 := broadcastInDim S2x600000 ![] bcast_S_S2x600000 main_c_22
  let main_v59 : IVec S2x600000 1 := cmpi .slt main_arg1 main_v58
  let main_c_23 : IVec S_ 1 := constantI S_ 1 1#1
  let main_v60 : IVec S_ 1 := (fun x v => Host.reduce IntOp.andi x v reducesTo_S2x600000_S_d0_1 h_S_) main_v59 main_c_23
  let main_v61 : IVec S_ 1 := andi main_v57 main_v60
  main_v61

def fn_part2 {F : FTy → Type} [FloatOps F] (main_arg1 : IVec S2x600000 32) (main_arg8 : FVec F S3x128x128 .f32) (main_arg9 : FVec F S3x128 .f32) (main_arg10 : FVec F S128x3 .f32) (main_arg11 : FVec F S3 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x3 .f32 := Host.absf main_arg10
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_arg1 main_v48 main_v49 main_v50

def fn_part1 {F : FTy → Type} [FloatOps F] (main_arg1 : IVec S2x600000 32) (main_arg5 : FVec F S128 .f32) (main_arg6 : FVec F S3x256x128 .f32) (main_arg7 : FVec F S3x128 .f32) (main_arg8 : FVec F S3x128x128 .f32) (main_arg9 : FVec F S3x128 .f32) (main_arg10 : FVec F S128x3 .f32) (main_arg11 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x256x128 .f32 := Host.absf main_arg6
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S50000x7 .f32) (main_arg1 : IVec S2x600000 32) (main_arg2 : FVec F S14x128 .f32) (main_arg3 : FVec F S128 .f32) (main_arg4 : FVec F S128x128 .f32) (main_arg5 : FVec F S128 .f32) (main_arg6 : FVec F S3x256x128 .f32) (main_arg7 : FVec F S3x128 .f32) (main_arg8 : FVec F S3x128x128 .f32) (main_arg9 : FVec F S3x128 .f32) (main_arg10 : FVec F S128x3 .f32) (main_arg11 : FVec F S3 .f32) : IVec S_ 1 :=
  let main_v0 : FVec F S50000x7 .f32 := Host.absf main_arg0
  let main_cst : FVec F S_ .f32 := constant S_ .f32 0x7F800000#32
  let main_v1 : FVec F S50000x7 .f32 := broadcastInDim S50000x7 ![] bcast_S_S50000x7 main_cst
  let main_v2 : IVec S50000x7 1 := cmpf .olt main_v0 main_v1
  let main_c : IVec S_ 1 := constantI S_ 1 1#1
  let main_v3 : IVec S_ 1 := (fun x v => Host.reduce IntOp.andi x v reducesTo_S50000x7_S_d0_1 h_S_) main_v2 main_c
  let main_v4 : FVec F S14x128 .f32 := Host.absf main_arg2
  let main_cst_0 : FVec F S_ .f32 := constant S_ .f32 0x7F800000#32
  let main_v5 : FVec F S14x128 .f32 := broadcastInDim S14x128 ![] bcast_S_S14x128 main_cst_0
  let main_v6 : IVec S14x128 1 := cmpf .olt main_v4 main_v5
  let main_c_1 : IVec S_ 1 := constantI S_ 1 1#1
  let main_v7 : IVec S_ 1 := (fun x v => Host.reduce IntOp.andi x v reducesTo_S14x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_arg11 main_v13 main_v16
-- ==== Kernel.lean ====
abbrev S50000x7 : Shape := ⟨2, ![50000, 7]⟩
abbrev S2x600000 : Shape := ⟨2, ![2, 600000]⟩
abbrev S14x128 : Shape := ⟨2, ![14, 128]⟩
abbrev S128 : Shape := ⟨1, ![128]⟩
abbrev S128x128 : Shape := ⟨2, ![128, 128]⟩
abbrev S3x256x128 : Shape := ⟨3, ![3, 256, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x7 : Shape := ⟨2, ![600000, 7]⟩
abbrev S7x128 : Shape := ⟨2, ![7, 128]⟩
abbrev S1x128 : Shape := ⟨2, ![1, 128]⟩
abbrev S600000x128 : Shape := ⟨2, ![600000, 128]⟩
abbrev S4000x7 : Shape := ⟨2, ![4000, 7]⟩
abbrev S4000x128 : Shape := ⟨2, ![4000, 128]⟩
abbrev S50000x128 : Shape := ⟨2, ![50000, 128]⟩
abbrev S1x256x128 : Shape := ⟨3, ![1, 256, 128]⟩
abbrev S256x128 : Shape := ⟨2, ![256, 128]⟩
abbrev S1x128x128 : Shape := ⟨3, ![1, 128, 128]⟩
abbrev S1x3 : Shape := ⟨2, ![1, 3]⟩
abbrev S50000x3 : Shape := ⟨2, ![50000, 3]⟩
abbrev S5000x128 : Shape := ⟨2, ![5000, 128]⟩
abbrev S5000x3 : Shape := ⟨2, ![5000, 3]⟩

abbrev nBuf : Space → Nat
  | .hbm => 262
  | .vmem => 50
  | .smem => 0
  | _ => 0

abbrev hbmTy0_0 (i : Nat) : BufTy := match i % 128 with
  | 0 => ⟨S50000x7, .f32⟩
  | 1 => ⟨S2x600000, .i32⟩
  | 2 => ⟨S14x128, .f32⟩
  | 3 => ⟨S128, .f32⟩
  | 4 => ⟨S128x128, .f32⟩
  | 5 => ⟨S128, .f32⟩
  | 6 => ⟨S3x256x128, .f32⟩
  | 7 => ⟨S3x128, .f32⟩
  | 8 => ⟨S3x128x128, .f32⟩
  | 9 => ⟨S3x128, .f32⟩
  | 10 => ⟨S128x3, .f32⟩
  | 11 => ⟨S3, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S1, .i32⟩
  | 25 => ⟨S_, .i32⟩
  | 26 => ⟨S600000x1, .i32⟩
  | 27 => ⟨S600000x1, .i1⟩
  | 28 => ⟨S1x1, .i32⟩
  | 29 => ⟨S600000x1, .i32⟩
  | 30 => ⟨S600000x1, .i1⟩
  | 31 => ⟨S600000x1, .i1⟩
  | 32 => ⟨S_, .i1⟩
  | 33 => ⟨S600000, .i1⟩
  | 34 => ⟨S600000x7, .f32⟩
  | 35 => ⟨S600000x7, .i1⟩
  | 36 => ⟨S_, .f32⟩
  | 37 => ⟨S600000x7, .f32⟩
  | 38 => ⟨S600000x7, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S1, .i32⟩
  | 48 => ⟨S_, .i32⟩
  | 49 => ⟨S600000x1, .i32⟩
  | 50 => ⟨S600000x1, .i1⟩
  | 51 => ⟨S1x1, .i32⟩
  | 52 => ⟨S600000x1, .i32⟩
  | 53 => ⟨S600000x1, .i1⟩
  | 54 => ⟨S600000x1, .i1⟩
  | 55 => ⟨S_, .i1⟩
  | 56 => ⟨S600000, .i1⟩
  | 57 => ⟨S600000x7, .f32⟩
  | 58 => ⟨S600000x7, .i1⟩
  | 59 => ⟨S_, .f32⟩
  | 60 => ⟨S600000x7, .f32⟩
  | 61 => ⟨S600000x7, .f32⟩
  | 62 => ⟨S7x128, .f32⟩
  | 63 => ⟨S7x128, .f32⟩
  | 64 => ⟨S1x128, .f32⟩
  | 65 => ⟨S1x128, .f32⟩
  | 66 => ⟨S600000x128, .f32⟩
  | 67 => ⟨S_, .f32⟩
  | 68 => ⟨S50000x128, .f32⟩
  | 69 => ⟨S600000x1, .i32⟩
  | 70 => ⟨S50000x128, .f32⟩
  | 71 => ⟨S1x256x128, .f32⟩
  | 72 => ⟨S256x128, .f32⟩
  | 73 => ⟨S1x128, .f32⟩
  | 74 => ⟨S128, .f32⟩
  | 75 => ⟨S1x128x128, .f32⟩
  | 76 => ⟨S128x128, .f32⟩
  | 77 => ⟨S1x128, .f32⟩
  | 78 => ⟨S128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S1, .i32⟩
  | 88 => ⟨S_, .i32⟩
  | 89 => ⟨S600000x1, .i32⟩
  | 90 => ⟨S600000x1, .i1⟩
  | 91 => ⟨S1x1, .i32⟩
  | 92 => ⟨S600000x1, .i32⟩
  | 93 => ⟨S600000x1, .i1⟩
  | 94 => ⟨S600000x1, .i1⟩
  | 95 => ⟨S_, .i1⟩
  | 96 => ⟨S600000, .i1⟩
  | 97 => ⟨S600000x128, .f32⟩
  | 98 => ⟨S600000x128, .i1⟩
  | 99 => ⟨S_, .f32⟩
  | 100 => ⟨S600000x128, .f32⟩
  | 101 => ⟨S600000x128, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S1, .i32⟩
  | 111 => ⟨S_, .i32⟩
  | 112 => ⟨S600000x1, .i32⟩
  | 113 => ⟨S600000x1, .i1⟩
  | 114 => ⟨S1x1, .i32⟩
  | 115 => ⟨S600000x1, .i32⟩
  | 116 => ⟨S600000x1, .i1⟩
  | 117 => ⟨S600000x1, .i1⟩
  | 118 => ⟨S_, .i1⟩
  | 119 => ⟨S600000, .i1⟩
  | 120 => ⟨S600000x128, .f32⟩
  | 121 => ⟨S600000x128, .i1⟩
  | 122 => ⟨S_, .f32⟩
  | 123 => ⟨S600000x128, .f32⟩
  | 124 => ⟨S600000x128, .f32⟩
  | 125 => ⟨S128x128, .f32⟩
  | 126 => ⟨S128x128, .f32⟩
  | 127 => ⟨S1x128, .f32⟩
  | _ => ⟨S50000x7, .f32⟩

abbrev hbmTy0_1 (i : Nat) : BufTy := match i % 128 with
  | 0 => ⟨S1x128, .f32⟩
  | 1 => ⟨S600000x128, .f32⟩
  | 2 => ⟨S_, .f32⟩
  | 3 => ⟨S50000x128, .f32⟩
  | 4 => ⟨S600000x1, .i32⟩
  | 5 => ⟨S50000x128, .f32⟩
  | 6 => ⟨S1x256x128, .f32⟩
  | 7 => ⟨S256x128, .f32⟩
  | 8 => ⟨S1x128, .f32⟩
  | 9 => ⟨S128, .f32⟩
  | 10 => ⟨S1x128x128, .f32⟩
  | 11 => ⟨S128x128, .f32⟩
  | 12 => ⟨S1x128, .f32⟩
  | 13 => ⟨S128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S1, .i32⟩
  | 23 => ⟨S_, .i32⟩
  | 24 => ⟨S600000x1, .i32⟩
  | 25 => ⟨S600000x1, .i1⟩
  | 26 => ⟨S1x1, .i32⟩
  | 27 => ⟨S600000x1, .i32⟩
  | 28 => ⟨S600000x1, .i1⟩
  | 29 => ⟨S600000x1, .i1⟩
  | 30 => ⟨S_, .i1⟩
  | 31 => ⟨S600000, .i1⟩
  | 32 => ⟨S600000x128, .f32⟩
  | 33 => ⟨S600000x128, .i1⟩
  | 34 => ⟨S_, .f32⟩
  | 35 => ⟨S600000x128, .f32⟩
  | 36 => ⟨S600000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S1, .i32⟩
  | 46 => ⟨S_, .i32⟩
  | 47 => ⟨S600000x1, .i32⟩
  | 48 => ⟨S600000x1, .i1⟩
  | 49 => ⟨S1x1, .i32⟩
  | 50 => ⟨S600000x1, .i32⟩
  | 51 => ⟨S600000x1, .i1⟩
  | 52 => ⟨S600000x1, .i1⟩
  | 53 => ⟨S_, .i1⟩
  | 54 => ⟨S600000, .i1⟩
  | 55 => ⟨S600000x128, .f32⟩
  | 56 => ⟨S600000x128, .i1⟩
  | 57 => ⟨S_, .f32⟩
  | 58 => ⟨S600000x128, .f32⟩
  | 59 => ⟨S600000x128, .f32⟩
  | 60 => ⟨S128x128, .f32⟩
  | 61 => ⟨S128x128, .f32⟩
  | 62 => ⟨S1x128, .f32⟩
  | 63 => ⟨S1x128, .f32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S1x256x128, .f32⟩
  | 70 => ⟨S256x128, .f32⟩
  | 71 => ⟨S1x128, .f32⟩
  | 72 => ⟨S128, .f32⟩
  | 73 => ⟨S1x128x128, .f32⟩
  | 74 => ⟨S128x128, .f32⟩
  | 75 => ⟨S1x128, .f32⟩
  | 76 => ⟨S128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S1, .i32⟩
  | 86 => ⟨S_, .i32⟩
  | 87 => ⟨S600000x1, .i32⟩
  | 88 => ⟨S600000x1, .i1⟩
  | 89 => ⟨S1x1, .i32⟩
  | 90 => ⟨S600000x1, .i32⟩
  | 91 => ⟨S600000x1, .i1⟩
  | 92 => ⟨S600000x1, .i1⟩
  | 93 => ⟨S_, .i1⟩
  | 94 => ⟨S600000, .i1⟩
  | 95 => ⟨S600000x128, .f32⟩
  | 96 => ⟨S600000x128, .i1⟩
  | 97 => ⟨S_, .f32⟩
  | 98 => ⟨S600000x128, .f32⟩
  | 99 => ⟨S600000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S1, .i32⟩
  | 109 => ⟨S_, .i32⟩
  | 110 => ⟨S600000x1, .i32⟩
  | 111 => ⟨S600000x1, .i1⟩
  | 112 => ⟨S1x1, .i32⟩
  | 113 => ⟨S600000x1, .i32⟩
  | 114 => ⟨S600000x1, .i1⟩
  | 115 => ⟨S600000x1, .i1⟩
  | 116 => ⟨S_, .i1⟩
  | 117 => ⟨S600000, .i1⟩
  | 118 => ⟨S600000x128, .f32⟩
  | 119 => ⟨S600000x128, .i1⟩
  | 120 => ⟨S_, .f32⟩
  | 121 => ⟨S600000x128, .f32⟩
  | 122 => ⟨S600000x128, .f32⟩
  | 123 => ⟨S128x128, .f32⟩
  | 124 => ⟨S128x128, .f32⟩
  | 125 => ⟨S1x128, .f32⟩
  | 126 => ⟨S1x128, .f32⟩
  | 127 => ⟨S600000x128, .f32⟩
  | _ => ⟨S50000x7, .f32⟩

abbrev hbmTy0_2 (i : Nat) : BufTy := match i % 128 with
  | 0 => ⟨S_, .f32⟩
  | 1 => ⟨S50000x128, .f32⟩
  | 2 => ⟨S600000x1, .i32⟩
  | 3 => ⟨S50000x128, .f32⟩
  | 4 => ⟨S1x3, .f32⟩
  | 5 => ⟨S50000x3, .f32⟩
  | _ => ⟨S50000x7, .f32⟩

abbrev hbmTy (i : Nat) : BufTy := match i / 128 with
  | 0 => hbmTy0_0 i
  | 1 => hbmTy0_1 i
  | 2 => hbmTy0_2 i
  | _ => ⟨S50000x7, .f32⟩

abbrev bufTy : (tb : Table) → Fin (tcTables nBuf tb) → BufTy
  | .hbm, ⟨i, _⟩ => hbmTy i
  | .local _ .vmem, ⟨0, _⟩ => ⟨S4000x7, .f32⟩
  | .local _ .vmem, ⟨1, _⟩ => ⟨S4000x7, .f32⟩
  | .local _ .vmem, ⟨2, _⟩ => ⟨S4000x7, .f32⟩
  | .local _ .vmem, ⟨3, _⟩ => ⟨S4000x7, .f32⟩
  | .local _ .vmem, ⟨4, _⟩ => ⟨S7x128, .f32⟩
  | .local _ .vmem, ⟨5, _⟩ => ⟨S7x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S5000x128, .f32⟩
  | .local _ .vmem, ⟨45, _⟩ => ⟨S5000x128, .f32⟩
  | .local _ .vmem, ⟨46, _⟩ => ⟨S128x3, .f32⟩
  | .local _ .vmem, ⟨47, _⟩ => ⟨S1x3, .f32⟩
  | .local _ .vmem, ⟨48, _⟩ => ⟨S5000x3, .f32⟩
  | .local _ .vmem, ⟨49, _⟩ => ⟨S5000x3, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_cst : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v22 : Ref sig .tc := ⟨.hbm, 101, rfl⟩
abbrev main_call3_c : Ref sig .tc := ⟨.hbm, 102, rfl⟩
abbrev main_call3_v0 : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_c_1 : Ref sig .tc := ⟨.hbm, 110, rfl⟩
abbrev main_call3_c_2 : Ref sig .tc := ⟨.hbm, 111, rfl⟩
abbrev main_call3_v6 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_3 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_call3_cst : Ref sig .tc := ⟨.hbm, 122, rfl⟩
abbrev main_call3_v15 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_v28 : Ref sig .tc := ⟨.hbm, 129, rfl⟩
abbrev main_cst_0 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_call4_c : Ref sig .tc := ⟨.hbm, 142, rfl⟩
abbrev main_call4_v0 : Ref sig .tc := ⟨.hbm, 143, rfl⟩
abbrev main_call4_v1 : Ref sig .tc := ⟨.hbm, 144, rfl⟩
abbrev main_call4_c_0 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_c_1 : Ref sig .tc := ⟨.hbm, 150, rfl⟩
abbrev main_call4_c_2 : Ref sig .tc := ⟨.hbm, 151, rfl⟩
abbrev main_call4_v6 : Ref sig .tc := ⟨.hbm, 152, rfl⟩
abbrev main_call4_v7 : Ref sig .tc := ⟨.hbm, 153, rfl⟩
abbrev main_call4_v8 : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_c_3 : Ref sig .tc := ⟨.hbm, 158, rfl⟩
abbrev main_call4_v12 : Ref sig .tc := ⟨.hbm, 159, rfl⟩
abbrev main_call4_v13 : Ref sig .tc := ⟨.hbm, 160, rfl⟩
abbrev main_call4_v14 : Ref sig .tc := ⟨.hbm, 161, rfl⟩
abbrev main_call4_cst : Ref sig .tc := ⟨.hbm, 162, rfl⟩
abbrev main_call4_v15 : Ref sig .tc := ⟨.hbm, 163, rfl⟩
abbrev main_v40 : Ref sig .tc := ⟨.hbm, 164, rfl⟩
abbrev main_call5_c : Ref sig .tc := ⟨.hbm, 165, rfl⟩
abbrev main_call5_v0 : Ref sig .tc := ⟨.hbm, 166, rfl⟩
abbrev main_call5_v1 : Ref sig .tc := ⟨.hbm, 167, rfl⟩
abbrev main_call5_c_0 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_c_1 : Ref sig .tc := ⟨.hbm, 173, rfl⟩
abbrev main_call5_c_2 : Ref sig .tc := ⟨.hbm, 174, rfl⟩
abbrev main_call5_v6 : Ref sig .tc := ⟨.hbm, 175, rfl⟩
abbrev main_call5_v7 : Ref sig .tc := ⟨.hbm, 176, rfl⟩
abbrev main_call5_v8 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_c_3 : Ref sig .tc := ⟨.hbm, 181, rfl⟩
abbrev main_call5_v12 : Ref sig .tc := ⟨.hbm, 182, rfl⟩
abbrev main_call5_v13 : Ref sig .tc := ⟨.hbm, 183, rfl⟩
abbrev main_call5_v14 : Ref sig .tc := ⟨.hbm, 184, rfl⟩
abbrev main_call5_cst : Ref sig .tc := ⟨.hbm, 185, rfl⟩
abbrev main_call5_v15 : Ref sig .tc := ⟨.hbm, 186, rfl⟩
abbrev main_v41 : Ref sig .tc := ⟨.hbm, 187, rfl⟩
abbrev main_v42 : Ref sig .tc := ⟨.hbm, 188, rfl⟩
abbrev main_v43 : Ref sig .tc := ⟨.hbm, 189, rfl⟩
abbrev main_v44 : Ref sig .tc := ⟨.hbm, 190, rfl⟩
abbrev main_v45 : Ref sig .tc := ⟨.hbm, 191, rfl⟩
abbrev main_v46 : Ref sig .tc := ⟨.hbm, 192, rfl⟩
abbrev main_cst_1 : Ref sig .tc := ⟨.hbm, 193, rfl⟩
abbrev main_v47 : Ref sig .tc := ⟨.hbm, 194, rfl⟩
abbrev main_v48 : Ref sig .tc := ⟨.hbm, 195, rfl⟩
abbrev main_v49 : Ref sig .tc := ⟨.hbm, 196, rfl⟩
abbrev main_v50 : Ref sig .tc := ⟨.hbm, 197, rfl⟩
abbrev main_v51 : Ref sig .tc := ⟨.hbm, 198, rfl⟩
abbrev main_v52 : Ref sig .tc := ⟨.hbm, 199, rfl⟩
abbrev main_v53 : Ref sig .tc := ⟨.hbm, 200, rfl⟩
abbrev main_v54 : Ref sig .tc := ⟨.hbm, 201, rfl⟩
abbrev main_v55 : Ref sig .tc := ⟨.hbm, 202, rfl⟩
abbrev main_v56 : Ref sig .tc := ⟨.hbm, 203, rfl⟩
abbrev main_v57 : Ref sig .tc := ⟨.hbm, 204, rfl⟩
abbrev main_call6_c : Ref sig .tc := ⟨.hbm, 205, rfl⟩
abbrev main_call6_v0 : Ref sig .tc := ⟨.hbm, 206, rfl⟩
abbrev main_call6_v1 : Ref sig .tc := ⟨.hbm, 207, rfl⟩
abbrev main_call6_c_0 : Ref sig .tc := ⟨.hbm, 208, rfl⟩
abbrev main_call6_v2 : Ref sig .tc := ⟨.hbm, 209, rfl⟩
abbrev main_call6_v3 : Ref sig .tc := ⟨.hbm, 210, rfl⟩
abbrev main_call6_v4 : Ref sig .tc := ⟨.hbm, 211, rfl⟩
abbrev main_call6_v5 : Ref sig .tc := ⟨.hbm, 212, rfl⟩
abbrev main_call6_c_1 : Ref sig .tc := ⟨.hbm, 213, rfl⟩
abbrev main_call6_c_2 : Ref sig .tc := ⟨.hbm, 214, rfl⟩
abbrev main_call6_v6 : Ref sig .tc := ⟨.hbm, 215, rfl⟩
abbrev main_call6_v7 : Ref sig .tc := ⟨.hbm, 216, rfl⟩
abbrev main_call6_v8 : Ref sig .tc := ⟨.hbm, 217, rfl⟩
abbrev main_call6_v9 : Ref sig .tc := ⟨.hbm, 218, rfl⟩
abbrev main_call6_v10 : Ref sig .tc := ⟨.hbm, 219, rfl⟩
abbrev main_call6_v11 : Ref sig .tc := ⟨.hbm, 220, rfl⟩
abbrev main_call6_c_3 : Ref sig .tc := ⟨.hbm, 221, rfl⟩
abbrev main_call6_v12 : Ref sig .tc := ⟨.hbm, 222, rfl⟩
abbrev main_call6_v13 : Ref sig .tc := ⟨.hbm, 223, rfl⟩
abbrev main_call6_v14 : Ref sig .tc := ⟨.hbm, 224, rfl⟩
abbrev main_call6_cst : Ref sig .tc := ⟨.hbm, 225, rfl⟩
abbrev main_call6_v15 : Ref sig .tc := ⟨.hbm, 226, rfl⟩
abbrev main_v58 : Ref sig .tc := ⟨.hbm, 227, rfl⟩
abbrev main_call7_c : Ref sig .tc := ⟨.hbm, 228, rfl⟩
abbrev main_call7_v0 : Ref sig .tc := ⟨.hbm, 229, rfl⟩
abbrev main_call7_v1 : Ref sig .tc := ⟨.hbm, 230, rfl⟩
abbrev main_call7_c_0 : Ref sig .tc := ⟨.hbm, 231, rfl⟩
abbrev main_call7_v2 : Ref sig .tc := ⟨.hbm, 232, rfl⟩
abbrev main_call7_v3 : Ref sig .tc := ⟨.hbm, 233, rfl⟩
abbrev main_call7_v4 : Ref sig .tc := ⟨.hbm, 234, rfl⟩
abbrev main_call7_v5 : Ref sig .tc := ⟨.hbm, 235, rfl⟩
abbrev main_call7_c_1 : Ref sig .tc := ⟨.hbm, 236, rfl⟩
abbrev main_call7_c_2 : Ref sig .tc := ⟨.hbm, 237, rfl⟩
abbrev main_call7_v6 : Ref sig .tc := ⟨.hbm, 238, rfl⟩
abbrev main_call7_v7 : Ref sig .tc := ⟨.hbm, 239, rfl⟩
abbrev main_call7_v8 : Ref sig .tc := ⟨.hbm, 240, rfl⟩
abbrev main_call7_v9 : Ref sig .tc := ⟨.hbm, 241, rfl⟩
abbrev main_call7_v10 : Ref sig .tc := ⟨.hbm, 242, rfl⟩
abbrev main_call7_v11 : Ref sig .tc := ⟨.hbm, 243, rfl⟩
abbrev main_call7_c_3 : Ref sig .tc := ⟨.hbm, 244, rfl⟩
abbrev main_call7_v12 : Ref sig .tc := ⟨.hbm, 245, rfl⟩
abbrev main_call7_v13 : Ref sig .tc := ⟨.hbm, 246, rfl⟩
abbrev main_call7_v14 : Ref sig .tc := ⟨.hbm, 247, rfl⟩
abbrev main_call7_cst : Ref sig .tc := ⟨.hbm, 248, rfl⟩
abbrev main_call7_v15 : Ref sig .tc := ⟨.hbm, 249, rfl⟩
abbrev main_v59 : Ref sig .tc := ⟨.hbm, 250, rfl⟩
abbrev main_v60 : Ref sig .tc := ⟨.hbm, 251, rfl⟩
abbrev main_v61 : Ref sig .tc := ⟨.hbm, 252, rfl⟩
abbrev main_v62 : Ref sig .tc := ⟨.hbm, 253, rfl⟩
abbrev main_v63 : Ref sig .tc := ⟨.hbm, 254, rfl⟩
abbrev main_v64 : Ref sig .tc := ⟨.hbm, 255, rfl⟩
abbrev main_cst_2 : Ref sig .tc := ⟨.hbm, 256, rfl⟩
abbrev main_v65 : Ref sig .tc := ⟨.hbm, 257, rfl⟩
abbrev main_v66 : Ref sig .tc := ⟨.hbm, 258, rfl⟩
abbrev main_v67 : Ref sig .tc := ⟨.hbm, 259, rfl⟩
abbrev main_v68 : Ref sig .tc := ⟨.hbm, 260, rfl⟩
abbrev main_v69 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg2_0 : Ref sig .tc := ⟨.vmem, 47, rfl⟩
abbrev cc4_stg3_0 : Ref sig .tc := ⟨.vmem, 48, rfl⟩
abbrev cc4_stg3_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem2_0 : DmaSem sig := 47
abbrev cc4_sem3_0 : DmaSem sig := 48
abbrev cc4_sem3_1 : DmaSem sig := 49

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![150], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![150], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x3 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x3 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x3 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x7_0 : S600000.BroadcastsInDim S600000x7 (![0] : Fin 1 → Fin S600000x7.rank)
  bcast_S_S600000x7 : S_.BroadcastsInDim S600000x7 (![] : Fin 0 → Fin S600000x7.rank)
  slices_S14x128_S7x128_0_0 : S14x128.Slices ![0, 0] S7x128
  slices_S14x128_S7x128_7_0 : S14x128.Slices ![7, 0] S7x128
  shapeCasts_S128_S1x128 : S128.ShapeCasts S1x128
  inb_S4000x7_S4000x7_0_0 : ∀ a, (![0, 0] : Fin 2 → Nat) a + S4000x7.size a ≤ S4000x7.size a
  h_S4000x7 : 0 < S4000x7.numel
  shapeCasts_S4000x7_S4000x7 : S4000x7.ShapeCasts S4000x7
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  shapeCasts_S7x128_S7x128 : S7x128.ShapeCasts S7x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  bcast_S_S50000x128 : S_.BroadcastsInDim S50000x128 (![] : Fin 0 → Fin S50000x128.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  bcast_S600000_S600000x128_0 : S600000.BroadcastsInDim S600000x128 (![0] : Fin 1 → Fin S600000x128.rank)
  bcast_S_S600000x128 : S_.BroadcastsInDim S600000x128 (![] : Fin 0 → Fin S600000x128.rank)
  slices_S256x128_S128x128_0_0 : S256x128.Slices ![0, 0] S128x128
  slices_S256x128_S128x128_128_0 : S256x128.Slices ![128, 0] S128x128
  shapeCasts_S4000x128_S4000x128 : S4000x128.ShapeCasts S4000x128
  shapeCasts_S128x128_S128x128 : S128x128.ShapeCasts S128x128
  slices_S3x256x128_S1x256x128_1_0_0 : S3x256x128.Slices ![1, 0, 0] S1x256x128
  slices_S3x128_S1x128_1_0 : S3x128.Slices ![1, 0] S1x128
  slices_S3x128x128_S1x128x128_1_0_0 : S3x128x128.Slices ![1, 0, 0] S1x128x128
  slices_S3x256x128_S1x256x128_2_0_0 : S3x256x128.Slices ![2, 0, 0] S1x256x128
  slices_S3x128_S1x128_2_0 : S3x128.Slices ![2, 0] S1x128
  slices_S3x128x128_S1x128x128_2_0_0 : S3x128x128.Slices ![2, 0, 0] S1x128x128
  shapeCasts_S3_S1x3 : S3.ShapeCasts S1x3
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  gather_S50000x7_S600000x1_S600000x7_1_0_n_n_0_1_17_wf : GatherDims.WF S50000x7 S600000x1 S600000x7 [1] [0] [] [0] [] 1 ![1, 7]
  dot_S4000x7_S7x128_S4000x128_1_0_0_1_n_n_wf : DotDims.WF S4000x7 S7x128 S4000x128 [1] [0] [0] [1] [] []
  dot_S4000x128_S128x128_S4000x128_1_0_0_1_n_n_wf : DotDims.WF S4000x128 S128x128 S4000x128 [1] [0] [0] [1] [] []
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x7.size a ≤ S600000x7.size a
  hwx0_0 : ∀ i : grid0.Coords, EltTy.bits .f32 = 32 ∨ (Rect.block (s := S600000x7) S4000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x7.size a ≤ S600000x7.size a
  hwx0_1 : ∀ i : grid0.Coords, EltTy.bits .f32 = 32 ∨ (Rect.block (s := S600000x7) S4000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x128.size a ≤ S7x128.size a
  hwx0_2 : ∀ i : grid0.Coords, EltTy.bits .f32 = 32 ∨ (Rect.block (s := S7x128) S7x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x128.size a ≤ S7x128.size a
  hwx0_3 : ∀ i : grid0.Coords, EltTy.bits .f32 = 32 ∨ (Rect.block (s := S7x128) S7x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S600000x128.size a
  hwx0_7 : ∀ i : grid0.Coords, EltTy.bits .f32 = 32 ∨ (Rect.block (s := S600000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S600000x128.size a
  hwx1_0 : ∀ i : grid1.Coords, EltTy.bits .f32 = 32 ∨ (Rect.block (s := S600000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S600000x128.size a
  hwx1_1 : ∀ i : grid1.Coords, EltTy.bits .f32 = 32 ∨ (Rect.block (s := S600000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S600000x128.size a
  hwx1_7 : ∀ i : grid1.Coords, EltTy.bits .f32 = 32 ∨ (Rect.block (s := S600000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S600000x128.size a
  hwx2_0 : ∀ i : grid2.Coords, EltTy.bits .f32 = 32 ∨ (Rect.block (s := S600000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S600000x128.size a
  hwx2_1 : ∀ i : grid2.Coords, EltTy.bits .f32 = 32 ∨ (Rect.block (s := S600000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S600000x128.size a
  hwx2_7 : ∀ i : grid2.Coords, EltTy.bits .f32 = 32 ∨ (Rect.block (s := S600000x128) S4000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S600000x128.size a
  hwx3_0 : ∀ i : grid3.Coords, EltTy.bits .f32 = 32 ∨ (Rect.block (s := S600000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S600000x128.size a
  hwx3_1 : ∀ i : grid3.Coords, EltTy.bits .f32 = 32 ∨ (Rect.block (s := S600000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x128.size a ≤ S600000x128.size a
  hwx3_7 : ∀ i : grid3.Coords, EltTy.bits .f32 = 32 ∨ (Rect.block (s := S600000x128) S4000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x3.size a ≤ S128x3.size a
  hwx4_1 : ∀ i : grid4.Coords, EltTy.bits .f32 = 32 ∨ (Rect.block (s := S128x3) S128x3.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x3.size a ≤ S1x3.size a
  hwx4_2 : ∀ i : grid4.Coords, EltTy.bits .f32 = 32 ∨ (Rect.block (s := S1x3) S1x3.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x3.size a ≤ S50000x3.size a
  hwx4_3 : ∀ i : grid4.Coords, EltTy.bits .f32 = 32 ∨ (Rect.block (s := S50000x3) S5000x3.size (cc4_transform_3 i) (hinb4_3 i)).WholeWords (EltTy.packing .f32)

variable [Facts₀]

def gather_S50000x7_S600000x1_S600000x7_1_0_n_n_0_1_17 : GatherDims S50000x7 S600000x1 S600000x7 where
  offsetDims := [1]
  collapsedSliceDims := [0]
  operandBatchingDims := []
  startIndicesBatchingDims := []
  startIndexMap := [0]
  indexVectorDim := 1
  sliceSizes := ![1, 7]
  wf := gather_S50000x7_S600000x1_S600000x7_1_0_n_n_0_1_17_wf
def dot_S4000x7_S7x128_S4000x128_1_0_0_1_n_n : DotDims S4000x7 S7x128 S4000x128 where
  lhsContracting := [1]
  rhsContracting := [0]
  lhsNonContracting := [0]
  rhsNonContracting := [1]
  lhsBatch := []
  rhsBatch := []
  wf := dot_S4000x7_S7x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_v4) S4000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S7x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S7x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v40) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46) S4000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v58) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v63) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v64) S4000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v67) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x3.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x3.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S5000x3.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x7 : Shape := ⟨2, ![50000, 7]⟩
abbrev S2x600000 : Shape := ⟨2, ![2, 600000]⟩
abbrev S14x128 : Shape := ⟨2, ![14, 128]⟩
abbrev S128 : Shape := ⟨1, ![128]⟩
abbrev S128x128 : Shape := ⟨2, ![128, 128]⟩
abbrev S3x256x128 : Shape := ⟨3, ![3, 256, 128]⟩
abbrev S3x128 : Shape := ⟨2, ![3, 128]⟩
abbrev S3x128x128 : Shape := ⟨3, ![3, 128, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x7 : Shape := ⟨2, ![600000, 7]⟩
abbrev S600000x14 : Shape := ⟨2, ![600000, 14]⟩
abbrev S600000x128 : Shape := ⟨2, ![600000, 128]⟩
abbrev S1x128 : Shape := ⟨2, ![1, 128]⟩
abbrev S50000x128 : Shape := ⟨2, ![50000, 128]⟩
abbrev S1x256x128 : Shape := ⟨3, ![1, 256, 128]⟩
abbrev S256x128 : Shape := ⟨2, ![256, 128]⟩
abbrev S1x128x128 : Shape := ⟨3, ![1, 128, 128]⟩
abbrev S600000x256 : Shape := ⟨2, ![600000, 256]⟩
abbrev S50000x3 : Shape := ⟨2, ![50000, 3]⟩
abbrev S1x3 : Shape := ⟨2, ![1, 3]⟩

abbrev nBuf : Space → Nat
  | .hbm => 176
  | .vmem => 0
  | .smem => 0
  | _ => 0

abbrev hbmTy0_0 (i : Nat) : BufTy := match i % 128 with
  | 0 => ⟨S50000x7, .f32⟩
  | 1 => ⟨S2x600000, .i32⟩
  | 2 => ⟨S14x128, .f32⟩
  | 3 => ⟨S128, .f32⟩
  | 4 => ⟨S128x128, .f32⟩
  | 5 => ⟨S128, .f32⟩
  | 6 => ⟨S3x256x128, .f32⟩
  | 7 => ⟨S3x128, .f32⟩
  | 8 => ⟨S3x128x128, .f32⟩
  | 9 => ⟨S3x128, .f32⟩
  | 10 => ⟨S128x3, .f32⟩
  | 11 => ⟨S3, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x7, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x7, .f32⟩
  | 34 => ⟨S600000x7, .f32⟩
  | 35 => ⟨S600000x14, .f32⟩
  | 36 => ⟨S600000x128, .f32⟩
  | 37 => ⟨S1x128, .f32⟩
  | 38 => ⟨S600000x128, .f32⟩
  | 39 => ⟨S600000x128, .f32⟩
  | 40 => ⟨S600000x128, .f32⟩
  | 41 => ⟨S600000x128, .f32⟩
  | 42 => ⟨S1x128, .f32⟩
  | 43 => ⟨S600000x128, .f32⟩
  | 44 => ⟨S600000x128, .f32⟩
  | 45 => ⟨S_, .f32⟩
  | 46 => ⟨S50000x128, .f32⟩
  | 47 => ⟨S600000x1, .i32⟩
  | 48 => ⟨S50000x128, .f32⟩
  | 49 => ⟨S1x256x128, .f32⟩
  | 50 => ⟨S256x128, .f32⟩
  | 51 => ⟨S1x128, .f32⟩
  | 52 => ⟨S128, .f32⟩
  | 53 => ⟨S1x128x128, .f32⟩
  | 54 => ⟨S128x128, .f32⟩
  | 55 => ⟨S1x128, .f32⟩
  | 56 => ⟨S128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x128, .f32⟩
  | 75 => ⟨S600000x128, .f32⟩
  | 76 => ⟨S600000x256, .f32⟩
  | 77 => ⟨S600000x128, .f32⟩
  | 78 => ⟨S1x128, .f32⟩
  | 79 => ⟨S600000x128, .f32⟩
  | 80 => ⟨S600000x128, .f32⟩
  | 81 => ⟨S600000x128, .f32⟩
  | 82 => ⟨S600000x128, .f32⟩
  | 83 => ⟨S1x128, .f32⟩
  | 84 => ⟨S600000x128, .f32⟩
  | 85 => ⟨S600000x128, .f32⟩
  | 86 => ⟨S_, .f32⟩
  | 87 => ⟨S50000x128, .f32⟩
  | 88 => ⟨S600000x1, .i32⟩
  | 89 => ⟨S50000x128, .f32⟩
  | 90 => ⟨S1x256x128, .f32⟩
  | 91 => ⟨S256x128, .f32⟩
  | 92 => ⟨S1x128, .f32⟩
  | 93 => ⟨S128, .f32⟩
  | 94 => ⟨S1x128x128, .f32⟩
  | 95 => ⟨S128x128, .f32⟩
  | 96 => ⟨S1x128, .f32⟩
  | 97 => ⟨S128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S600000x128, .f32⟩
  | 117 => ⟨S600000x256, .f32⟩
  | 118 => ⟨S600000x128, .f32⟩
  | 119 => ⟨S1x128, .f32⟩
  | 120 => ⟨S600000x128, .f32⟩
  | 121 => ⟨S600000x128, .f32⟩
  | 122 => ⟨S600000x128, .f32⟩
  | 123 => ⟨S600000x128, .f32⟩
  | 124 => ⟨S1x128, .f32⟩
  | 125 => ⟨S600000x128, .f32⟩
  | 126 => ⟨S600000x128, .f32⟩
  | 127 => ⟨S_, .f32⟩
  | _ => ⟨S50000x7, .f32⟩

abbrev hbmTy0_1 (i : Nat) : BufTy := match i % 128 with
  | 0 => ⟨S50000x128, .f32⟩
  | 1 => ⟨S600000x1, .i32⟩
  | 2 => ⟨S50000x128, .f32⟩
  | 3 => ⟨S1x256x128, .f32⟩
  | 4 => ⟨S256x128, .f32⟩
  | 5 => ⟨S1x128, .f32⟩
  | 6 => ⟨S128, .f32⟩
  | 7 => ⟨S1x128x128, .f32⟩
  | 8 => ⟨S128x128, .f32⟩
  | 9 => ⟨S1x128, .f32⟩
  | 10 => ⟨S128, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S600000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S600000x128, .f32⟩
  | 30 => ⟨S600000x256, .f32⟩
  | 31 => ⟨S600000x128, .f32⟩
  | 32 => ⟨S1x128, .f32⟩
  | 33 => ⟨S600000x128, .f32⟩
  | 34 => ⟨S600000x128, .f32⟩
  | 35 => ⟨S600000x128, .f32⟩
  | 36 => ⟨S600000x128, .f32⟩
  | 37 => ⟨S1x128, .f32⟩
  | 38 => ⟨S600000x128, .f32⟩
  | 39 => ⟨S600000x128, .f32⟩
  | 40 => ⟨S_, .f32⟩
  | 41 => ⟨S50000x128, .f32⟩
  | 42 => ⟨S600000x1, .i32⟩
  | 43 => ⟨S50000x128, .f32⟩
  | 44 => ⟨S50000x3, .f32⟩
  | 45 => ⟨S1x3, .f32⟩
  | 46 => ⟨S50000x3, .f32⟩
  | 47 => ⟨S50000x3, .f32⟩
  | _ => ⟨S50000x7, .f32⟩

abbrev hbmTy (i : Nat) : BufTy := match i / 128 with
  | 0 => hbmTy0_0 i
  | 1 => hbmTy0_1 i
  | _ => ⟨S50000x7, .f32⟩

abbrev bufTy : (tb : Table) → Fin (tcTables nBuf tb) → BufTy
  | .hbm, ⟨i, _⟩ => hbmTy i
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_3 : Ref sig .tc := ⟨.hbm, 57, rfl⟩
abbrev main_v40 : Ref sig .tc := ⟨.hbm, 58, rfl⟩
abbrev main_v41 : Ref sig .tc := ⟨.hbm, 59, rfl⟩
abbrev main_c_4 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c_8 : Ref sig .tc := ⟨.hbm, 98, rfl⟩
abbrev main_v76 : Ref sig .tc := ⟨.hbm, 99, rfl⟩
abbrev main_v77 : Ref sig .tc := ⟨.hbm, 100, rfl⟩
abbrev main_c_9 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_10 : Ref sig .tc := ⟨.hbm, 107, rfl⟩
abbrev main_v83 : Ref sig .tc := ⟨.hbm, 108, rfl⟩
abbrev main_v84 : Ref sig .tc := ⟨.hbm, 109, rfl⟩
abbrev main_c_11 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_12 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_c_13 : Ref sig .tc := ⟨.hbm, 139, rfl⟩
abbrev main_v112 : Ref sig .tc := ⟨.hbm, 140, rfl⟩
abbrev main_v113 : Ref sig .tc := ⟨.hbm, 141, rfl⟩
abbrev main_c_14 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_c_15 : Ref sig .tc := ⟨.hbm, 148, rfl⟩
abbrev main_v119 : Ref sig .tc := ⟨.hbm, 149, rfl⟩
abbrev main_v120 : Ref sig .tc := ⟨.hbm, 150, rfl⟩
abbrev main_c_16 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_cst_17 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x7_S600000x7_S600000x14_d1 : Shape.Concatenates [S600000x7, S600000x7] S600000x14 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  slices_S3x256x128_S1x256x128_0_0_0 : S3x256x128.Slices ![0, 0, 0] S1x256x128
  shapeCasts_S1x256x128_S256x128 : S1x256x128.ShapeCasts S256x128
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  concatenates_S600000x128_S600000x128_S600000x256_d1 : Shape.Concatenates [S600000x128, S600000x128] S600000x256 1
  slices_S3x256x128_S1x256x128_1_0_0 : S3x256x128.Slices ![1, 0, 0] S1x256x128
  slices_S3x128_S1x128_1_0 : S3x128.Slices ![1, 0] S1x128
  slices_S3x128x128_S1x128x128_1_0_0 : S3x128x128.Slices ![1, 0, 0] S1x128x128
  slices_S3x256x128_S1x256x128_2_0_0 : S3x256x128.Slices ![2, 0, 0] S1x256x128
  slices_S3x128_S1x128_2_0 : S3x128.Slices ![2, 0] S1x128
  slices_S3x128x128_S1x128x128_2_0_0 : S3x128x128.Slices ![2, 0, 0] S1x128x128
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  gather_S50000x7_S600000x1_S600000x7_1_0_n_n_0_1_17_wf : GatherDims.WF S50000x7 S600000x1 S600000x7 [1] [0] [] [0] [] 1 ![1, 7]
  dot_S600000x14_S14x128_S600000x128_1_0_0_1_n_n_wf : DotDims.WF S600000x14 S14x128 S600000x128 [1] [0] [0] [1] [] []
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  dot_S600000x256_S256x128_S600000x128_1_0_0_1_n_n_wf : DotDims.WF S600000x256 S256x128 S600000x128 [1] [0] [0] [1] [] []
  dot_S50000x128_S128x3_S50000x3_1_0_0_1_n_n_wf : DotDims.WF S50000x128 S128x3 S50000x3 [1] [0] [0] [1] [] []

variable [Facts₀]

def gather_S50000x7_S600000x1_S600000x7_1_0_n_n_0_1_17 : GatherDims S50000x7 S600000x1 S600000x7 where
  offsetDims := [1]
  collapsedSliceDims := [0]
  operandBatchingDims := []
  startIndicesBatchingDims := []
  startIndexMap := [0]
  indexVectorDim := 1
  sliceSizes := ![1, 7]
  wf := gather_S50000x7_S600000x1_S600000x7_1_0_n_n_0_1_17_wf
def dot_S600000x14_S14x128_S600000x128_1_0_0_1_n_n : DotDims S600000x14 S14x128 S600000x128 where
  lhsContracting := [1]
  rhsContracting := [0]
  lhsNonContracting := [0]
  rhsNonContracting := [1]
  lhsBatch := []
  rhsBatch := []
  wf := dot_S600000x14_S14x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.LibPlainDot.lean ====
/-
  A plain matrix product `[M, K] × [K, N]` — dimension numbers `<[1], [0], [0], [1]>`, no batch axis — read at one entry
  on the extended reals. The matrix unit's product into a zero accumulator and the host's `dot_general` are the same
  sum: entry `(i, j)` is `∑ k : Fin K, l (i, k) · r (k, j)`. The contraction index of `DotDims.plain` is a one-axis
  index, re-indexed by `Fin K` through `ValueIdx.contrEquiv1`; the operand indices at `(i, j)` and `k` are `(i, k)` and
  `(k, j)`, coordinate by coordinate.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand's index at output `(i, j)` and contraction coordinate `k` is `(i, k)`. -/
theorem lhsIdx_plain (i : Fin M) (j : Fin N) (k : Fin K) :
    (DotDims.plain M K N).lhsIdx (ix2 i j) ((contrEquiv1 (DotDims.plain M K N) K rfl rfl).symm k) = ix2 i k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem rhsIdx_plain (i : Fin M) (j : Fin N) (k : Fin K) :
    (DotDims.plain M K N).rhsIdx (ix2 i j) ((contrEquiv1 (DotDims.plain M K N) K rfl rfl).symm k) = ix2 k j := by
  have hk := contrEquiv1_symm_val (DotDims.plain M K N) K rfl rfl k
  funext a
  apply Fin.ext
  match a with
  | ⟨0, _⟩ => exact ((DotDims.plain M K N).rhsIdx_val_of_single rfl (ix2 i j) _).trans hk
  | ⟨1, _⟩ => rfl

/-- The sum over the contraction index of a plain product is the sum over `k : Fin K` of the operands at `(i, k)`, `(k, j)`. -/
theorem sum_contr_plain (l : (⟨2, ![M, K]⟩ : Shape).Idx → EReal) (r : (⟨2, ![K, N]⟩ : Shape).Idx → EReal) (i : Fin M) (j : Fin N) :
    (∑ q : (DotDims.plain M K N).contr.Idx, l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- A `tpu.matmul` into a zero accumulator, plain dimension numbers, at entry `(i, j)`. -/
theorem matmul_zero_apply {φ₁ φ₂ : FTy} (prec : Option ContractPrecision) (l : FVec Ideal ⟨2, ![M, K]⟩ φ₁) (r : FVec Ideal ⟨2, ![K, N]⟩ φ₂)
    (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply]
  exact sum_contr_plain l r i j

/-- The host's `dot_general`, plain dimension numbers, at entry `(i, j)`. -/
theorem dotGeneral_apply {φ₁ φ₂ : FTy} (prec : Option ContractPrecision) (sched : HostSchedule) (l : FVec Ideal ⟨2, ![M, K]⟩ φ₁)
    (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply]
  exact sum_contr_plain l r i j

end Idealize.ShloMosaic.PlainDot

end
-- ==== Proof.Spec.lean ====
/-
  What one edge's message and one node's output are, as functions of ROWS, on the extended reals.

  An EdgeConv message for an edge with target features `hi` and source features `hj` (both of width `d`) is
  `tanh ([hi ‖ hj - hi] · W1 + b1) · W2 + b2`. With `W1`'s first `d` rows called `A` and its last `d` rows `B`, entry `q` is
    `(∑ k, tanh ((∑ a, hi a · A a k) + (∑ a, (hj a - hi a) · B a k) + b1 k) · W2 k q) + b2 q`.
  The contraction of the concatenated row with `W1` is the sum of the two half contractions: a sum over `Fin (d + d)`
  splits into its first `d` and its last `d` terms, which holds in any commutative monoid — no finiteness is needed.
  The output head is `h · Wo + bo`.
-/
import Idealize.ShloMosaic.PureOps.Ideal
import Idealize.ShloMosaic.Lib.ValueIdx
import Mathlib.Algebra.BigOperators.Fin

noncomputable section

namespace Cert.EdgeConv

open Idealize.ShloMosaic Idealize.ShloMosaic.ValueIdx

/-- One edge's message, entry `q`: the two half contractions, the bias, `tanh`, the second layer. -/
def rowMlp {d : Nat} (hi hj : Fin d → EReal) (A B : Fin d → Fin 128 → EReal) (b1 : Fin 128 → EReal)
    (W2 : Fin 128 → Fin 128 → EReal) (b2 : Fin 128 → EReal) (q : Fin 128) : EReal :=
  (∑ k : Fin 128, Ideal.tanh ((∑ a : Fin d, hi a * A a k) + (∑ a : Fin d, (hj a - hi a) * B a k) + b1 k) * W2 k q) + b2 q

/-- One node's output, entry `q`. -/
def rowHead (h : Fin 128 → EReal) (Wo : Fin 128 → Fin 3 → EReal) (bo : Fin 3 → EReal) (q : Fin 3) : EReal :=
  (∑ k : Fin 128, h k * Wo k q) + bo q

/-- A contraction over the concatenated row `[u ‖ v]` against the stacked matrix `[A ; B]` is the sum of the two half
    contractions. `f` is the summand over `Fin (d + d)`; its first `d` terms are `u a · A a`, its last `d` are `v a · B a`. -/
theorem sum_concat {d : Nat} (f : Fin (d + d) → EReal) (g h : Fin d → EReal)
    (hl : ∀ a : Fin d, f (Fin.castAdd d a) = g a) (hr : ∀ a : Fin d, f (Fin.natAdd d a) = h a) :
    ∑ k : Fin (d + d), f k = (∑ a : Fin d, g a) + ∑ a : Fin d, h a := by
  rw [Fin.sum_univ_add]
  simp only [hl, hr]

/-- The message array of `E` edges with features of width `d`: row `r` is `rowMlp` of row `r` of the target features `hi` and
    the source features `hj`; `A`, `B` the two halves of the first weight matrix, `b1`, `b2` the biases as one-row arrays. -/
def edgeArr {E d : Nat} (hi hj : (⟨2, ![E, d]⟩ : Shape).Idx → EReal) (A B : (⟨2, ![d, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) : (⟨2, ![E, 128]⟩ : Shape).Idx → EReal := fun i =>
  rowMlp (fun a => hi (ix2 (i 0) a)) (fun a => hj (ix2 (i 0) a)) (fun a k => A (ix2 a k)) (fun a k => B (ix2 a k))
    (fun k => b1 (ix2 (0 : Fin 1) k)) (fun k j => W2 (ix2 k j)) (fun k => b2 (ix2 (0 : Fin 1) k)) (i 1)

/-- The output array of `n` nodes: row `r` is `rowHead` of row `r` of the node features; `bo` a one-row array. -/
def headArr {n : Nat} (h : (⟨2, ![n, 128]⟩ : Shape).Idx → EReal) (Wo : (⟨2, ![128, 3]⟩ : Shape).Idx → EReal)
    (bo : (⟨2, ![1, 3]⟩ : Shape).Idx → EReal) : (⟨2, ![n, 3]⟩ : Shape).Idx → EReal := fun i =>
  rowHead (fun k => h (ix2 (i 0) k)) (fun k j => Wo (ix2 k j)) (fun j => bo (ix2 (0 : Fin 1) j)) (i 1)

/-- The top `d` rows and the bottom `d` rows of a `(d + d) × 128` matrix, as arrays: the two halves of a layer's first weight
    matrix, the one the target features meet and the one the difference meets. -/
def topRows {d : Nat} (W : (⟨2, ![d + d, 128]⟩ : Shape).Idx → EReal) : (⟨2, ![d, 128]⟩ : Shape).Idx → EReal :=
  fun i => W (ix2 (Fin.castAdd d (i 0)) (i 1))
def botRows {d : Nat} (W : (⟨2, ![d + d, 128]⟩ : Shape).Idx → EReal) : (⟨2, ![d, 128]⟩ : Shape).Idx → EReal :=
  fun i => W (ix2 (Fin.natAdd d (i 0)) (i 1))

theorem edgeArr_apply {E d : Nat} (hi hj : (⟨2, ![E, d]⟩ : Shape).Idx → EReal) (A B : (⟨2, ![d, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (r : Fin E) (q : Fin 128) :
    edgeArr hi hj A B b1 W2 b2 (ix2 r q)
      = rowMlp (fun a => hi (ix2 r a)) (fun a => hj (ix2 r a)) (fun a k => A (ix2 a k)) (fun a k => B (ix2 a k))
          (fun k => b1 (ix2 (0 : Fin 1) k)) (fun k j => W2 (ix2 k j)) (fun k => b2 (ix2 (0 : Fin 1) k)) q := rfl

theorem headArr_apply {n : Nat} (h : (⟨2, ![n, 128]⟩ : Shape).Idx → EReal) (Wo : (⟨2, ![128, 3]⟩ : Shape).Idx → EReal)
    (bo : (⟨2, ![1, 3]⟩ : Shape).Idx → EReal) (r : Fin n) (q : Fin 3) :
    headArr h Wo bo (ix2 r q) = rowHead (fun k => h (ix2 r k)) (fun k j => Wo (ix2 k j)) (fun j => bo (ix2 (0 : Fin 1) j)) q := rfl

end Cert.EdgeConv

end
-- ==== Proof.Payload.lean ====
/-
  The three kernel bodies' arithmetic, read at one entry of the output block, on the extended reals.

  Row `p` of an edge block's output depends only on row `p` of the two feature blocks: the two matrix products into zero
  accumulators are sums over the feature axis, the biases are one row broadcast over the block, `tanh` is pointwise, and
  the changes of float format on the way into the matrix unit are the identity on the extended reals. So entry `(p, q)` is
  `rowMlp` of the two feature rows. The output head's entry `(p, q)` is `rowHead` of the node's row.
  The kernels of the three later layers print the same arithmetic at the same shapes, so their payloads are one term.
-/
import proofs.«428389_j4277787426824_1_alg».proof.Proof.Gen.KernelIdeal.Skeleton
import proofs.«428389_j4277787426824_1_alg».proof.Proof.LibPlainDot
import proofs.«428389_j4277787426824_1_alg».proof.Proof.Spec
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen Cert.EdgeConv

/-- The printed dimension numbers are the plain `M×K` by `K×N` ones. -/
theorem dot7 : dot_S4000x7_S7x128_S4000x128_1_0_0_1_n_n = DotDims.plain 4000 7 128 := rfl
theorem dot128 : dot_S4000x128_S128x128_S4000x128_1_0_0_1_n_n = DotDims.plain 4000 128 128 := rfl
theorem dotHead : dot_S5000x128_S128x3_S5000x3_1_0_0_1_n_n = DotDims.plain 5000 128 3 := rfl

/-- The first layer's body (feature width 7) at entry `(p, q)`. -/
theorem edge7_apply (x0 x1 : FVec Ideal S4000x7 .f32) (x2 x3 : FVec Ideal S7x128 .f32) (x4 : FVec Ideal S1x128 .f32)
    (x5 : FVec Ideal S128x128 .f32) (x6 : FVec Ideal S1x128 .f32) (p : Fin 4000) (q : Fin 128) :
    k0_pay1 (F := Ideal) x0 x1 x2 x3 x4 x5 x6 (ix2 p q)
      = rowMlp (fun a => x0 (ix2 p a)) (fun a => x1 (ix2 p a)) (fun a k => x2 (ix2 a k)) (fun a k => x3 (ix2 a k))
          (fun k => x4 (ix2 (0 : Fin 1) k)) (fun k j => x5 (ix2 k j)) (fun k => x6 (ix2 (0 : Fin 1) k)) q := by
  unfold k0_pay1 rowMlp
  simp only [shapeCast_self, matmul]
  rw [addf_apply, dot128, PlainDot.matmul_zero_apply, broadcastTo_1b_ab_apply]
  refine congrArg (· + x6 (ix2 (0 : Fin 1) q)) (Finset.sum_congr rfl fun k _ => ?_)
  rw [truncf_apply, truncf_apply]
  refine congrArg (· * x5 (ix2 k q)) ?_
  show Ideal.tanh _ = Ideal.tanh _
  refine congrArg Ideal.tanh ?_
  rw [addf_apply, addf_apply, dot7, PlainDot.matmul_zero_apply, PlainDot.matmul_zero_apply, broadcastTo_1b_ab_apply]
  rfl

/-- A later layer's body (feature width 128) at entry `(p, q)`. -/
theorem edge128_apply (x0 x1 : FVec Ideal S4000x128 .f32) (x2 x3 : FVec Ideal S128x128 .f32) (x4 : FVec Ideal S1x128 .f32)
    (x5 : FVec Ideal S128x128 .f32) (x6 : FVec Ideal S1x128 .f32) (p : Fin 4000) (q : Fin 128) :
    k1_pay1 (F := Ideal) x0 x1 x2 x3 x4 x5 x6 (ix2 p q)
      = rowMlp (fun a => x0 (ix2 p a)) (fun a => x1 (ix2 p a)) (fun a k => x2 (ix2 a k)) (fun a k => x3 (ix2 a k))
          (fun k => x4 (ix2 (0 : Fin 1) k)) (fun k j => x5 (ix2 k j)) (fun k => x6 (ix2 (0 : Fin 1) k)) q := by
  unfold k1_pay1 rowMlp
  simp only [shapeCast_self, matmul]
  rw [addf_apply, dot128, PlainDot.matmul_zero_apply, broadcastTo_1b_ab_apply]
  refine congrArg (· + x6 (ix2 (0 : Fin 1) q)) (Finset.sum_congr rfl fun k _ => ?_)
  rw [truncf_apply, truncf_apply]
  refine congrArg (· * x5 (ix2 k q)) ?_
  show Ideal.tanh _ = Ideal.tanh _
  refine congrArg Ideal.tanh ?_
  rw [addf_apply, addf_apply, PlainDot.matmul_zero_apply, PlainDot.matmul_zero_apply, broadcastTo_1b_ab_apply]
  rfl

/-- The three later layers' bodies are one term. -/
theorem k2_eq_k1 : @k2_pay1 = @k1_pay1 := rfl
theorem k3_eq_k1 : @k3_pay1 = @k1_pay1 := rfl

/-- The output head's body at entry `(p, q)`. -/
theorem head_apply (x0 : FVec Ideal S5000x128 .f32) (x1 : FVec Ideal S128x3 .f32) (x2 : FVec Ideal S1x3 .f32) (p : Fin 5000) (q : Fin 3) :
    k4_pay1 (F := Ideal) x0 x1 x2 (ix2 p q)
      = rowHead (fun k => x0 (ix2 p k)) (fun k j => x1 (ix2 k j)) (fun j => x2 (ix2 (0 : Fin 1) j)) q := by
  unfold k4_pay1 rowHead
  simp only [shapeCast_self, matmul]
  rw [addf_apply, dotHead, PlainDot.matmul_zero_apply, broadcastTo_1b_ab_apply]
  rfl

end Cert.KernelIdeal.Payload

end
-- ==== Proof.Region0.lean ====
/-
  Region 0 — the first layer's per-edge MLP over 150 blocks of 4000 edges — as ONE array: whatever the region finds in its
  seven input arrays, its output array ends holding `edgeArr` of them.

  Point `t` of the grid stages rows `4000·t … 4000·t + 3999` of the two gathered feature arrays and the whole of each weight
  and bias array, and writes back rows `4000·t …` of the result. Entry `(p, q)` of what it writes is `rowMlp` of row `p` of
  the two staged feature blocks, that is of row `4000·t + p` of the arrays: block `t` of `edgeArr`. The 150 blocks tile the
  600000 rows (row `r` lies in block `r / 4000`), so the array ends at `edgeArr` everywhere.
-/
import proofs.«428389_j4277787426824_1_alg».proof.Proof.Gen.KernelIdeal.Frame
import proofs.«428389_j4277787426824_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.EdgeConv
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: `edgeArr` of the seven input arrays as the region finds them. -/
abbrev result (c : Dev nD) : FVec Ideal S600000x128 .f32 :=
  edgeArr (V c main_v4) (V c main_v5) (V c main_v6) (V c main_v7) (V c main_v8) (V c main_arg4) (V c main_v9)

/-- The printed index maps, decided over the grid: the two feature windows and the output window move down the rows
    together, one block a point; every weight and bias window stays at block `(0, 0)`. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- A feature window's staged row `p` at point `t` is row `4000·t + p` of its array, the output block's row. -/
theorem feat0 (c : Dev nD) (t : Fin cfg0.N) (p : Fin 4000) (q : Fin 128) (a : Fin 7) :
    iblk0 V c 0 t (ix2 p a) = V c main_v4 (ix2 ((((cfg0.win 7).blk t).view.emb (ix2 p q)) 0) a) := by
  obtain ⟨e70, e71, e00, e01, -⟩ := idx_facts t
  show V c main_v4 (((cfg0.win 0).blk t).view.emb (ix2 p a)) = _
  refine congrArg (V c main_v4) (funext fun ax => Fin.ext ?_)
  match ax with
  | ⟨0, _⟩ => show win0_0.index t (0 : Fin 2) * 4000 + 1 * p.val = win0_7.index t (0 : Fin 2) * 4000 + 1 * p.val; omega
  | ⟨1, _⟩ => show win0_0.index t (1 : Fin 2) * 7 + 1 * a.val = a.val; omega

theorem feat1 (c : Dev nD) (t : Fin cfg0.N) (p : Fin 4000) (q : Fin 128) (a : Fin 7) :
    iblk0 V c 1 t (ix2 p a) = V c main_v5 (ix2 ((((cfg0.win 7).blk t).view.emb (ix2 p q)) 0) a) := by
  obtain ⟨e70, e71, -, -, e10, e11, -⟩ := idx_facts t
  show V c main_v5 (((cfg0.win 1).blk t).view.emb (ix2 p a)) = _
  refine congrArg (V c main_v5) (funext fun ax => Fin.ext ?_)
  match ax with
  | ⟨0, _⟩ => show win0_1.index t (0 : Fin 2) * 4000 + 1 * p.val = win0_7.index t (0 : Fin 2) * 4000 + 1 * p.val; omega
  | ⟨1, _⟩ => show win0_1.index t (1 : Fin 2) * 7 + 1 * a.val = a.val; omega

/-- A weight or bias window stages its whole array at every point. -/
theorem whole2 (c : Dev nD) (t : Fin cfg0.N) (y : S7x128.Idx) : iblk0 V c 2 t y = V c main_v6 y := by
  obtain ⟨-, -, -, -, -, -, e0, e1, -⟩ := idx_facts t
  show V c main_v6 (((cfg0.win 2).blk t).view.emb y) = _
  refine congrArg (V c main_v6) (funext fun ax => Fin.ext ?_)
  match ax with
  | ⟨0, _⟩ => show win0_2.index t (0 : Fin 2) * 7 + 1 * (y 0).val = (y 0).val; omega
  | ⟨1, _⟩ => show win0_2.index t (1 : Fin 2) * 128 + 1 * (y 1).val = (y 1).val; omega

theorem whole3 (c : Dev nD) (t : Fin cfg0.N) (y : S7x128.Idx) : iblk0 V c 3 t y = V c main_v7 y := by
  obtain ⟨-, -, -, -, -, -, -, -, e0, e1, -⟩ := idx_facts t
  show V c main_v7 (((cfg0.win 3).blk t).view.emb y) = _
  refine congrArg (V c main_v7) (funext fun ax => Fin.ext ?_)
  match ax with
  | ⟨0, _⟩ => show win0_3.index t (0 : Fin 2) * 7 + 1 * (y 0).val = (y 0).val; omega
  | ⟨1, _⟩ => show win0_3.index t (1 : Fin 2) * 128 + 1 * (y 1).val = (y 1).val; omega

theorem whole4 (c : Dev nD) (t : Fin cfg0.N) (y : S1x128.Idx) : iblk0 V c 4 t y = V c main_v8 y := by
  obtain ⟨-, -, -, -, -, -, -, -, -, -, e0, e1, -⟩ := idx_facts t
  show V c main_v8 (((cfg0.win 4).blk t).view.emb y) = _
  refine congrArg (V c main_v8) (funext fun ax => Fin.ext ?_)
  match ax with
  | ⟨0, _⟩ => show win0_4.index t (0 : Fin 2) * 1 + 1 * (y 0).val = (y 0).val; omega
  | ⟨1, _⟩ => show win0_4.index t (1 : Fin 2) * 128 + 1 * (y 1).val = (y 1).val; omega

theorem whole5 (c : Dev nD) (t : Fin cfg0.N) (y : S128x128.Idx) : iblk0 V c 5 t y = V c main_arg4 y := by
  obtain ⟨-, -, -, -, -, -, -, -, -, -, -, -, e0, e1, -⟩ := idx_facts t
  show V c main_arg4 (((cfg0.win 5).blk t).view.emb y) = _
  refine congrArg (V c main_arg4) (funext fun ax => Fin.ext ?_)
  match ax with
  | ⟨0, _⟩ => show win0_5.index t (0 : Fin 2) * 128 + 1 * (y 0).val = (y 0).val; omega
  | ⟨1, _⟩ => show win0_5.index t (1 : Fin 2) * 128 + 1 * (y 1).val = (y 1).val; omega

theorem whole6 (c : Dev nD) (t : Fin cfg0.N) (y : S1x128.Idx) : iblk0 V c 6 t y = V c main_v9 y := by
  obtain ⟨-, -, -, -, -, -, -, -, -, -, -, -, -, -, e0, e1⟩ := idx_facts t
  show V c main_v9 (((cfg0.win 6).blk t).view.emb y) = _
  refine congrArg (V c main_v9) (funext fun ax => Fin.ext ?_)
  match ax with
  | ⟨0, _⟩ => show win0_6.index t (0 : Fin 2) * 1 + 1 * (y 0).val = (y 0).val; omega
  | ⟨1, _⟩ => show win0_6.index t (1 : Fin 2) * 128 + 1 * (y 1).val = (y 1).val; omega

/-- WHAT POINT `t` WRITES BACK is block `t` of `result`. -/
theorem flushed_eq (c : Dev nD) (t : Fin cfg0.N) :
    (dat0 V c).flushed 7 t = ((cfg0.win 7).blk t).view.read (Elt Ideal) (result V c) := by
  show (cfg0.win 7).cut (grid0.coords t) ((dat0 V c).after 7 t) = _
  rw [after0_7]
  unfold out0_7
  rw [View.canon_unit_zero hz]
  simp only [View.ld_unit_zero (S := S4000x7) hz, View.ld_unit_zero (S := S7x128) hz, View.ld_unit_zero (S := S1x128) hz,
    View.ld_unit_zero (S := S128x128) hz]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t)
      (iblk0 V c 6 t) (ix2 p q) = result V c (((cfg0.win 7).blk t).view.emb (ix2 p q))
  rw [Payload.edge7_apply]
  obtain ⟨e70, e71, -⟩ := idx_facts t
  have hq : ((((cfg0.win 7).blk t).view.emb (ix2 p q)) 1 : Fin 128) = q := Fin.ext (by
    show win0_7.index t (1 : Fin 2) * 128 + 1 * q.val = q.val; omega)
  show _ = rowMlp _ _ _ _ _ _ _ ((((cfg0.win 7).blk t).view.emb (ix2 p q)) 1)
  rw [hq]
  simp only [feat0 V c t p q, feat1 V c t p q, whole2, whole3, whole4, whole5, whole6]

/-- An index of the array is in point `t`'s block iff each coordinate is in the block's range on its axis. -/
theorem mem_blk (t : Fin cfg0.N) (i : S600000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v10).slice (win0_7.rect t)).set ↔ _
  rw [View.set_slice_whole, Rect.mem_set_unit]
  exact Iff.rfl

/-- Every row lies in the block of the point `row / 4000`. -/
theorem cover (i : S600000x128.Idx) : ∃ t : Fin cfg0.N, (cfg0.win 7).flush t = true ∧ i ∈ ((cfg0.win 7).blk t).view.set := by
  have hi0 : (i 0).val < 600000 := (i 0).isLt
  have hi1 : (i 1).val < 128 := (i 1).isLt
  have hN : cfg0.N = 150 := N_0
  refine ⟨⟨(i 0).val / 4000, by rw [hN]; omega⟩, flush0_7 _, ?_⟩
  rw [mem_blk]
  obtain ⟨e70, e71, -⟩ := idx_facts ⟨(i 0).val / 4000, by rw [hN]; omega⟩
  intro a
  match a with
  | ⟨0, _⟩ =>
    show win0_7.index _ (0 : Fin 2) * 4000 ≤ (i 0).val ∧ (i 0).val < win0_7.index _ (0 : Fin 2) * 4000 + 4000
    rw [e70]; show (i 0).val / 4000 * 4000 ≤ (i 0).val ∧ (i 0).val < (i 0).val / 4000 * 4000 + 4000; omega
  | ⟨1, _⟩ =>
    show win0_7.index _ (1 : Fin 2) * 128 ≤ (i 1).val ∧ (i 1).val < win0_7.index _ (1 : Fin 2) * 128 + 128
    rw [e71]; omega

/-- THE ARRAY after the region: `edgeArr` of the input arrays as the region found them. -/
theorem final (c : Dev nD) : (dat0 V c).arrAt 7 cfg0.N = result V c :=
  (dat0 V c).arrAt_eq_of_cover 7 (result V c) (fun t _ => flushed_eq V c t) cover

end Cert.KernelIdeal.Region0

end
-- ==== Proof.Region1.lean ====
/- Region 1 — layer 1's per-edge MLP (feature width 128) over 150 blocks of 4000 edges — as ONE array: whatever the region finds in its
  seven input arrays, its output array ends holding `edgeArr` of them.

  Point `t` of the grid stages rows `4000·t … 4000·t + 3999` of the two gathered feature arrays and the whole of each weight
  and bias array, and writes back rows `4000·t …` of the result. Entry `(p, q)` of what it writes is `rowMlp` of row `p` of
  the two staged feature blocks, that is of row `4000·t + p` of the arrays: block `t` of `edgeArr`. The 150 blocks tile the
  600000 rows (row `r` lies in block `r / 4000`), so the array ends at `edgeArr` everywhere.
-/
import proofs.«428389_j4277787426824_1_alg».proof.Proof.Gen.KernelIdeal.Frame
import proofs.«428389_j4277787426824_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.EdgeConv
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: `edgeArr` of the seven input arrays as the region finds them. -/
abbrev result (c : Dev nD) : FVec Ideal S600000x128 .f32 :=
  edgeArr (V c main_v22) (V c main_v23) (V c main_v24) (V c main_v25) (V c main_v26) (V c main_v19) (V c main_v27)

/-- The printed index maps, decided over the grid: the two feature windows and the output window move down the rows
    together, one block a point; every weight and bias window stays at block `(0, 0)`. -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- A feature window's staged row `p` at point `t` is row `4000·t + p` of its array, the output block's row. -/
theorem feat0 (c : Dev nD) (t : Fin cfg1.N) (p : Fin 4000) (q : Fin 128) (a : Fin 128) :
    iblk1 V c 0 t (ix2 p a) = V c main_v22 (ix2 ((((cfg1.win 7).blk t).view.emb (ix2 p q)) 0) a) := by
  obtain ⟨e70, e71, e00, e01, -⟩ := idx_facts t
  show V c main_v22 (((cfg1.win 0).blk t).view.emb (ix2 p a)) = _
  refine congrArg (V c main_v22) (funext fun ax => Fin.ext ?_)
  match ax with
  | ⟨0, _⟩ => show win1_0.index t (0 : Fin 2) * 4000 + 1 * p.val = win1_7.index t (0 : Fin 2) * 4000 + 1 * p.val; omega
  | ⟨1, _⟩ => show win1_0.index t (1 : Fin 2) * 128 + 1 * a.val = a.val; omega

theorem feat1 (c : Dev nD) (t : Fin cfg1.N) (p : Fin 4000) (q : Fin 128) (a : Fin 128) :
    iblk1 V c 1 t (ix2 p a) = V c main_v23 (ix2 ((((cfg1.win 7).blk t).view.emb (ix2 p q)) 0) a) := by
  obtain ⟨e70, e71, -, -, e10, e11, -⟩ := idx_facts t
  show V c main_v23 (((cfg1.win 1).blk t).view.emb (ix2 p a)) = _
  refine congrArg (V c main_v23) (funext fun ax => Fin.ext ?_)
  match ax with
  | ⟨0, _⟩ => show win1_1.index t (0 : Fin 2) * 4000 + 1 * p.val = win1_7.index t (0 : Fin 2) * 4000 + 1 * p.val; omega
  | ⟨1, _⟩ => show win1_1.index t (1 : Fin 2) * 128 + 1 * a.val = a.val; omega

/-- A weight or bias window stages its whole array at every point. -/
theorem whole2 (c : Dev nD) (t : Fin cfg1.N) (y : S128x128.Idx) : iblk1 V c 2 t y = V c main_v24 y := by
  obtain ⟨-, -, -, -, -, -, e0, e1, -⟩ := idx_facts t
  show V c main_v24 (((cfg1.win 2).blk t).view.emb y) = _
  refine congrArg (V c main_v24) (funext fun ax => Fin.ext ?_)
  match ax with
  | ⟨0, _⟩ => show win1_2.index t (0 : Fin 2) * 128 + 1 * (y 0).val = (y 0).val; omega
  | ⟨1, _⟩ => show win1_2.index t (1 : Fin 2) * 128 + 1 * (y 1).val = (y 1).val; omega

theorem whole3 (c : Dev nD) (t : Fin cfg1.N) (y : S128x128.Idx) : iblk1 V c 3 t y = V c main_v25 y := by
  obtain ⟨-, -, -, -, -, -, -, -, e0, e1, -⟩ := idx_facts t
  show V c main_v25 (((cfg1.win 3).blk t).view.emb y) = _
  refine congrArg (V c main_v25) (funext fun ax => Fin.ext ?_)
  match ax with
  | ⟨0, _⟩ => show win1_3.index t (0 : Fin 2) * 128 + 1 * (y 0).val = (y 0).val; omega
  | ⟨1, _⟩ => show win1_3.index t (1 : Fin 2) * 128 + 1 * (y 1).val = (y 1).val; omega

theorem whole4 (c : Dev nD) (t : Fin cfg1.N) (y : S1x128.Idx) : iblk1 V c 4 t y = V c main_v26 y := by
  obtain ⟨-, -, -, -, -, -, -, -, -, -, e0, e1, -⟩ := idx_facts t
  show V c main_v26 (((cfg1.win 4).blk t).view.emb y) = _
  refine congrArg (V c main_v26) (funext fun ax => Fin.ext ?_)
  match ax with
  | ⟨0, _⟩ => show win1_4.index t (0 : Fin 2) * 1 + 1 * (y 0).val = (y 0).val; omega
  | ⟨1, _⟩ => show win1_4.index t (1 : Fin 2) * 128 + 1 * (y 1).val = (y 1).val; omega

theorem whole5 (c : Dev nD) (t : Fin cfg1.N) (y : S128x128.Idx) : iblk1 V c 5 t y = V c main_v19 y := by
  obtain ⟨-, -, -, -, -, -, -, -, -, -, -, -, e0, e1, -⟩ := idx_facts t
  show V c main_v19 (((cfg1.win 5).blk t).view.emb y) = _
  refine congrArg (V c main_v19) (funext fun ax => Fin.ext ?_)
  match ax with
  | ⟨0, _⟩ => show win1_5.index t (0 : Fin 2) * 128 + 1 * (y 0).val = (y 0).val; omega
  | ⟨1, _⟩ => show win1_5.index t (1 : Fin 2) * 128 + 1 * (y 1).val = (y 1).val; omega

theorem whole6 (c : Dev nD) (t : Fin cfg1.N) (y : S1x128.Idx) : iblk1 V c 6 t y = V c main_v27 y := by
  obtain ⟨-, -, -, -, -, -, -, -, -, -, -, -, -, -, e0, e1⟩ := idx_facts t
  show V c main_v27 (((cfg1.win 6).blk t).view.emb y) = _
  refine congrArg (V c main_v27) (funext fun ax => Fin.ext ?_)
  match ax with
  | ⟨0, _⟩ => show win1_6.index t (0 : Fin 2) * 1 + 1 * (y 0).val = (y 0).val; omega
  | ⟨1, _⟩ => show win1_6.index t (1 : Fin 2) * 128 + 1 * (y 1).val = (y 1).val; omega

/-- WHAT POINT `t` WRITES BACK is block `t` of `result`. -/
theorem flushed_eq (c : Dev nD) (t : Fin cfg1.N) :
    (dat1 V c).flushed 7 t = ((cfg1.win 7).blk t).view.read (Elt Ideal) (result V c) := by
  show (cfg1.win 7).cut (grid1.coords t) ((dat1 V c).after 7 t) = _
  rw [after1_7]
  unfold out1_7
  rw [View.canon_unit_zero hz]
  simp only [View.ld_unit_zero (S := S4000x128) hz, View.ld_unit_zero (S := S128x128) hz, View.ld_unit_zero (S := S1x128) hz,
    View.ld_unit_zero (S := S128x128) hz]
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t)
      (iblk1 V c 6 t) (ix2 p q) = result V c (((cfg1.win 7).blk t).view.emb (ix2 p q))
  rw [Payload.edge128_apply]
  obtain ⟨e70, e71, -⟩ := idx_facts t
  have hq : ((((cfg1.win 7).blk t).view.emb (ix2 p q)) 1 : Fin 128) = q := Fin.ext (by
    show win1_7.index t (1 : Fin 2) * 128 + 1 * q.val = q.val; omega)
  show _ = rowMlp _ _ _ _ _ _ _ ((((cfg1.win 7).blk t).view.emb (ix2 p q)) 1)
  rw [hq]
  simp only [feat0 V c t p q, feat1 V c t p q, whole2, whole3, whole4, whole5, whole6]

/-- An index of the array is in point `t`'s block iff each coordinate is in the block's range on its axis. -/
theorem mem_blk (t : Fin cfg1.N) (i : S600000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v28).slice (win1_7.rect t)).set ↔ _
  rw [View.set_slice_whole, Rect.mem_set_unit]
  exact Iff.rfl

/-- Every row lies in the block of the point `row / 4000`. -/
theorem cover (i : S600000x128.Idx) : ∃ t : Fin cfg1.N, (cfg1.win 7).flush t = true ∧ i ∈ ((cfg1.win 7).blk t).view.set := by
  have hi0 : (i 0).val < 600000 := (i 0).isLt
  have hi1 : (i 1).val < 128 := (i 1).isLt
  have hN : cfg1.N = 150 := N_1
  refine ⟨⟨(i 0).val / 4000, by rw [hN]; omega⟩, flush1_7 _, ?_⟩
  rw [mem_blk]
  obtain ⟨e70, e71, -⟩ := idx_facts ⟨(i 0).val / 4000, by rw [hN]; omega⟩
  intro a
  match a with
  | ⟨0, _⟩ =>
    show win1_7.index _ (0 : Fin 2) * 4000 ≤ (i 0).val ∧ (i 0).val < win1_7.index _ (0 : Fin 2) * 4000 + 4000
    rw [e70]; show (i 0).val / 4000 * 4000 ≤ (i 0).val ∧ (i 0).val < (i 0).val / 4000 * 4000 + 4000; omega
  | ⟨1, _⟩ =>
    show win1_7.index _ (1 : Fin 2) * 128 ≤ (i 1).val ∧ (i 1).val < win1_7.index _ (1 : Fin 2) * 128 + 128
    rw [e71]; omega

/-- THE ARRAY after the region: `edgeArr` of the input arrays as the region found them. -/
theorem final (c : Dev nD) : (dat1 V c).arrAt 7 cfg1.N = result V c :=
  (dat1 V c).arrAt_eq_of_cover 7 (result V c) (fun t _ => flushed_eq V c t) cover

end Cert.KernelIdeal.Region1

end
-- ==== Proof.Region2.lean ====
/- Region 2 — layer 2's per-edge MLP (feature width 128) over 150 blocks of 4000 edges — as ONE array: whatever the region finds in its
  seven input arrays, its output array ends holding `edgeArr` of them.

  Point `t` of the grid stages rows `4000·t … 4000·t + 3999` of the two gathered feature arrays and the whole of each weight
  and bias array, and writes back rows `4000·t …` of the result. Entry `(p, q)` of what it writes is `rowMlp` of row `p` of
  the two staged feature blocks, that is of row `4000·t + p` of the arrays: block `t` of `edgeArr`. The 150 blocks tile the
  600000 rows (row `r` lies in block `r / 4000`), so the array ends at `edgeArr` everywhere.
-/
import proofs.«428389_j4277787426824_1_alg».proof.Proof.Gen.KernelIdeal.Frame
import proofs.«428389_j4277787426824_1_alg».proof.Proof.Payload
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.EdgeConv
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: `edgeArr` of the seven input arrays as the region finds them. -/
abbrev result (c : Dev nD) : FVec Ideal S600000x128 .f32 :=
  edgeArr (V c main_v40) (V c main_v41) (V c main_v42) (V c main_v43) (V c main_v44) (V c main_v37) (V c main_v45)

/-- The printed index maps, decided over the grid: the two feature windows and the output window move down the rows
    together, one block a point; every weight and bias window stays at block `(0, 0)`. -/
theorem idx_facts : ∀ t : Fin cfg2.N,
    win2_7.index t (0 : Fin 2) = t.val ∧ win2_7.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- A feature window's staged row `p` at point `t` is row `4000·t + p` of its array, the output block's row. -/
theorem feat0 (c : Dev nD) (t : Fin cfg2.N) (p : Fin 4000) (q : Fin 128) (a : Fin 128) :
    iblk2 V c 0 t (ix2 p a) = V c main_v40 (ix2 ((((cfg2.win 7).blk t).view.emb (ix2 p q)) 0) a) := by
  obtain ⟨e70, e71, e00, e01, -⟩ := idx_facts t
  show V c main_v40 (((cfg2.win 0).blk t).view.emb (ix2 p a)) = _
  refine congrArg (V c main_v40) (funext fun ax => Fin.ext ?_)
  match ax with
  | ⟨0, _⟩ => show win2_0.index t (0 : Fin 2) * 4000 + 1 * p.val = win2_7.index t (0 : Fin 2) * 4000 + 1 * p.val; omega
  | ⟨1, _⟩ => show win2_0.index t (1 : Fin 2) * 128 + 1 * a.val = a.val; omega

theorem feat1 (c : Dev nD) (t : Fin cfg2.N) (p : Fin 4000) (q : Fin 128) (a : Fin 128) :
    iblk2 V c 1 t (ix2 p a) = V c main_v41 (ix2 ((((cfg2.win 7).blk t).view.emb (ix2 p q)) 0) a) := by
  obtain ⟨e70, e71, -, -, e10, e11, -⟩ := idx_facts t
  show V c main_v41 (((cfg2.win 1).blk t).view.emb (ix2 p a)) = _
  refine congrArg (V c main_v41) (funext fun ax => Fin.ext ?_)
  match ax with
  | ⟨0, _⟩ => show win2_1.index t (0 : Fin 2) * 4000 + 1 * p.val = win2_7.index t (0 : Fin 2) * 4000 + 1 * p.val; omega
  | ⟨1, _⟩ => show win2_1.index t (1 : Fin 2) * 128 + 1 * a.val = a.val; omega

/-- A weight or bias window stages its whole array at every point. -/
theorem whole2 (c : Dev nD) (t : Fin cfg2.N) (y : S128x128.Idx) : iblk2 V c 2 t y = V c main_v42 y := by
  obtain ⟨-, -, -, -, -, -, e0, e1, -⟩ := idx_facts t
  show V c main_v42 (((cfg2.win 2).blk t).view.emb y) = _
  refine congrArg (V c main_v42) (funext fun ax => Fin.ext ?_)
  match ax with
  | ⟨0, _⟩ => show win2_2.index t (0 : Fin 2) * 128 + 1 * (y 0).val = (y 0).val; omega
  | ⟨1, _⟩ => show win2_2.index t (1 : Fin 2) * 128 + 1 * (y 1).val = (y 1).val; omega

theorem whole3 (c : Dev nD) (t : Fin cfg2.N) (y : S128x128.Idx) : iblk2 V c 3 t y = V c main_v43 y := by
  obtain ⟨-, -, -, -, -, -, -, -, e0, e1, -⟩ := idx_facts t
  show V c main_v43 (((cfg2.win 3).blk t).view.emb y) = _
  refine congrArg (V c main_v43) (funext fun ax => Fin.ext ?_)
  match ax with
  | ⟨0, _⟩ => show win2_3.index t (0 : Fin 2) * 128 + 1 * (y 0).val = (y 0).val; omega
  | ⟨1, _⟩ => show win2_3.index t (1 : Fin 2) * 128 + 1 * (y 1).val = (y 1).val; omega

theorem whole4 (c : Dev nD) (t : Fin cfg2.N) (y : S1x128.Idx) : iblk2 V c 4 t y = V c main_v44 y := by
  obtain ⟨-, -, -, -, -, -, -, -, -, -, e0, e1, -⟩ := idx_facts t
  show V c main_v44 (((cfg2.win 4).blk t).view.emb y) = _
  refine congrArg (V c main_v44) (funext fun ax => Fin.ext ?_)
  match ax with
  | ⟨0, _⟩ => show win2_4.index t (0 : Fin 2) * 1 + 1 * (y 0).val = (y 0).val; omega
  | ⟨1, _⟩ => show win2_4.index t (1 : Fin 2) * 128 + 1 * (y 1).val = (y 1).val; omega

theorem whole5 (c : Dev nD) (t : Fin cfg2.N) (y : S128x128.Idx) : iblk2 V c 5 t y = V c main_v37 y := by
  obtain ⟨-, -, -, -, -, -, -, -, -, -, -, -, e0, e1, -⟩ := idx_facts t
  show V c main_v37 (((cfg2.win 5).blk t).view.emb y) = _
  refine congrArg (V c main_v37) (funext fun ax => Fin.ext ?_)
  match ax with
  | ⟨0, _⟩ => show win2_5.index t (0 : Fin 2) * 128 + 1 * (y 0).val = (y 0).val; omega
  | ⟨1, _⟩ => show win2_5.index t (1 : Fin 2) * 128 + 1 * (y 1).val = (y 1).val; omega

theorem whole6 (c : Dev nD) (t : Fin cfg2.N) (y : S1x128.Idx) : iblk2 V c 6 t y = V c main_v45 y := by
  obtain ⟨-, -, -, -, -, -, -, -, -, -, -, -, -, -, e0, e1⟩ := idx_facts t
  show V c main_v45 (((cfg2.win 6).blk t).view.emb y) = _
  refine congrArg (V c main_v45) (funext fun ax => Fin.ext ?_)
  match ax with
  | ⟨0, _⟩ => show win2_6.index t (0 : Fin 2) * 1 + 1 * (y 0).val = (y 0).val; omega
  | ⟨1, _⟩ => show win2_6.index t (1 : Fin 2) * 128 + 1 * (y 1).val = (y 1).val; omega

/-- WHAT POINT `t` WRITES BACK is block `t` of `result`. -/
theorem flushed_eq (c : Dev nD) (t : Fin cfg2.N) :
    (dat2 V c).flushed 7 t = ((cfg2.win 7).blk t).view.read (Elt Ideal) (result V c) := by
  show (cfg2.win 7).cut (grid2.coords t) ((dat2 V c).after 7 t) = _
  rw [after2_7]
  unfold out2_7
  rw [View.canon_unit_zero hz]
  simp only [View.ld_unit_zero (S := S4000x128) hz, View.ld_unit_zero (S := S128x128) hz, View.ld_unit_zero (S := S1x128) hz,
    View.ld_unit_zero (S := S128x128) hz]
  funext j
  obtain ⟨p, q, rfl⟩ : ∃ (p : Fin 4000) (q : Fin 128), j = ix2 p q := ⟨j 0, j 1, eq_ix2 j⟩
  show k1_pay1 (F := Ideal) (iblk2 V c 0 t) (iblk2 V c 1 t) (iblk2 V c 2 t) (iblk2 V c 3 t) (iblk2 V c 4 t) (iblk2 V c 5 t)
      (iblk2 V c 6 t) (ix2 p q) = result V c (((cfg2.win 7).blk t).view.emb (ix2 p q))
  rw [Payload.edge128_apply]
  obtain ⟨e70, e71, -⟩ := idx_facts t
  have hq : ((((cfg2.win 7).blk t).view.emb (ix2 p q)) 1 : Fin 128) = q := Fin.ext (by
    show win2_7.index t (1 : Fin 2) * 128 + 1 * q.val = q.val; omega)
  show _ = rowMlp _ _ _ _ _ _ _ ((((cfg2.win 7).blk t).view.emb (ix2 p q)) 1)
  rw [hq]
  simp only [feat0 V c t p q, feat1 V c t p q, whole2, whole3, whole4, whole5, whole6]

/-- An index of the array is in point `t`'s block iff each coordinate is in the block's range on its axis. -/
theorem mem_blk (t : Fin cfg2.N) (i : S600000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v46).slice (win2_7.rect t)).set ↔ _
  rw [View.set_slice_whole, Rect.mem_set_unit]
  exact Iff.rfl

/-- Every row lies in the block of the point `row / 4000`. -/
theorem cover (i : S600000x128.Idx) : ∃ t : Fin cfg2.N, (cfg2.win 7).flush t = true ∧ i ∈ ((cfg2.win 7).blk t).view.set := by
  have hi0 : (i 0).val < 600000 := (i 0).isLt
  have hi1 : (i 1).val < 128 := (i 1).isLt
  have hN : cfg2.N = 150 := N_2
  refine ⟨⟨(i 0).val / 4000, by rw [hN]; omega⟩, flush2_7 _, ?_⟩
  rw [mem_blk]
  obtain ⟨e70, e71, -⟩ := idx_facts ⟨(i 0).val / 4000, by rw [hN]; omega⟩
  intro a
  match a with
  | ⟨0, _⟩ =>
    show win2_7.index _ (0 : Fin 2) * 4000 ≤ (i 0).val ∧ (i 0).val < win2_7.index _ (0 : Fin 2) * 4000 + 4000
    rw [e70]; show (i 0).val / 4000 * 4000 ≤ (i 0).val ∧ (i 0).val < (i 0).val / 4000 * 4000 + 4000; omega
  | ⟨1, _⟩ =>
    show win2_7.index _ (1 : Fin 2) * 128 ≤ (i 1).val ∧ (i 1).val < win2_7.index _ (1 : Fin 2) * 128 + 128
    rw [e71]; omega

/-- THE ARRAY after the region: `edgeArr` of the input arrays as the region found them. -/
theorem final (c : Dev nD) : (dat2 V c).arrAt 7 cfg2.N = result V c :=
  (dat2 V c).arrAt_eq_of_cover 7 (result V c) (fun t _ => flushed_eq V c t) cover

end Cert.KernelIdeal.Region2

end
-- ==== Proof.Region3.lean ====
/- Region 3 — layer 3's per-edge MLP (feature width 128) over 150 blocks of 4000 edges — as ONE array: whatever the region finds in its
  seven input arrays, its output array ends holding `edgeArr` of them.

  Point `t` of the grid stages rows `4000·t … 4000·t + 3999` of the two gathered feature arrays and the whole of each weight
  and bias array, and writes back rows `4000·t …` of the result. Entry `(p, q)` of what it writes is `rowMlp` of row `p` of
  the two staged feature blocks, that is of row `4000·t + p` of the arrays: block `t` of `edgeArr`. The 150 blocks tile the
  600000 rows (row `r` lies in block `r / 4000`), so the array ends at `edgeArr` everywhere.
-/
import proofs.«428389_j4277787426824_1_alg».proof.Proof.Gen.KernelIdeal.Frame
import proofs.«428389_j4277787426824_1_alg».proof.Proof.Payload
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.EdgeConv
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: `edgeArr` of the seven input arrays as the region finds them. -/
abbrev result (c : Dev nD) : FVec Ideal S600000x128 .f32 :=
  edgeArr (V c main_v58) (V c main_v59) (V c main_v60) (V c main_v61) (V c main_v62) (V c main_v55) (V c main_v63)

/-- The printed index maps, decided over the grid: the two feature windows and the output window move down the rows
    together, one block a point; every weight and bias window stays at block `(0, 0)`. -/
theorem idx_facts : ∀ t : Fin cfg3.N,
    win3_7.index t (0 : Fin 2) = t.val ∧ win3_7.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- A feature window's staged row `p` at point `t` is row `4000·t + p` of its array, the output block's row. -/
theorem feat0 (c : Dev nD) (t : Fin cfg3.N) (p : Fin 4000) (q : Fin 128) (a : Fin 128) :
    iblk3 V c 0 t (ix2 p a) = V c main_v58 (ix2 ((((cfg3.win 7).blk t).view.emb (ix2 p q)) 0) a) := by
  obtain ⟨e70, e71, e00, e01, -⟩ := idx_facts t
  show V c main_v58 (((cfg3.win 0).blk t).view.emb (ix2 p a)) = _
  refine congrArg (V c main_v58) (funext fun ax => Fin.ext ?_)
  match ax with
  | ⟨0, _⟩ => show win3_0.index t (0 : Fin 2) * 4000 + 1 * p.val = win3_7.index t (0 : Fin 2) * 4000 + 1 * p.val; omega
  | ⟨1, _⟩ => show win3_0.index t (1 : Fin 2) * 128 + 1 * a.val = a.val; omega

theorem feat1 (c : Dev nD) (t : Fin cfg3.N) (p : Fin 4000) (q : Fin 128) (a : Fin 128) :
    iblk3 V c 1 t (ix2 p a) = V c main_v59 (ix2 ((((cfg3.win 7).blk t).view.emb (ix2 p q)) 0) a) := by
  obtain ⟨e70, e71, -, -, e10, e11, -⟩ := idx_facts t
  show V c main_v59 (((cfg3.win 1).blk t).view.emb (ix2 p a)) = _
  refine congrArg (V c main_v59) (funext fun ax => Fin.ext ?_)
  match ax with
  | ⟨0, _⟩ => show win3_1.index t (0 : Fin 2) * 4000 + 1 * p.val = win3_7.index t (0 : Fin 2) * 4000 + 1 * p.val; omega
  | ⟨1, _⟩ => show win3_1.index t (1 : Fin 2) * 128 + 1 * a.val = a.val; omega

/-- A weight or bias window stages its whole array at every point. -/
theorem whole2 (c : Dev nD) (t : Fin cfg3.N) (y : S128x128.Idx) : iblk3 V c 2 t y = V c main_v60 y := by
  obtain ⟨-, -, -, -, -, -, e0, e1, -⟩ := idx_facts t
  show V c main_v60 (((cfg3.win 2).blk t).view.emb y) = _
  refine congrArg (V c main_v60) (funext fun ax => Fin.ext ?_)
  match ax with
  | ⟨0, _⟩ => show win3_2.index t (0 : Fin 2) * 128 + 1 * (y 0).val = (y 0).val; omega
  | ⟨1, _⟩ => show win3_2.index t (1 : Fin 2) * 128 + 1 * (y 1).val = (y 1).val; omega

theorem whole3 (c : Dev nD) (t : Fin cfg3.N) (y : S128x128.Idx) : iblk3 V c 3 t y = V c main_v61 y := by
  obtain ⟨-, -, -, -, -, -, -, -, e0, e1, -⟩ := idx_facts t
  show V c main_v61 (((cfg3.win 3).blk t).view.emb y) = _
  refine congrArg (V c main_v61) (funext fun ax => Fin.ext ?_)
  match ax with
  | ⟨0, _⟩ => show win3_3.index t (0 : Fin 2) * 128 + 1 * (y 0).val = (y 0).val; omega
  | ⟨1, _⟩ => show win3_3.index t (1 : Fin 2) * 128 + 1 * (y 1).val = (y 1).val; omega

theorem whole4 (c : Dev nD) (t : Fin cfg3.N) (y : S1x128.Idx) : iblk3 V c 4 t y = V c main_v62 y := by
  obtain ⟨-, -, -, -, -, -, -, -, -, -, e0, e1, -⟩ := idx_facts t
  show V c main_v62 (((cfg3.win 4).blk t).view.emb y) = _
  refine congrArg (V c main_v62) (funext fun ax => Fin.ext ?_)
  match ax with
  | ⟨0, _⟩ => show win3_4.index t (0 : Fin 2) * 1 + 1 * (y 0).val = (y 0).val; omega
  | ⟨1, _⟩ => show win3_4.index t (1 : Fin 2) * 128 + 1 * (y 1).val = (y 1).val; omega

theorem whole5 (c : Dev nD) (t : Fin cfg3.N) (y : S128x128.Idx) : iblk3 V c 5 t y = V c main_v55 y := by
  obtain ⟨-, -, -, -, -, -, -, -, -, -, -, -, e0, e1, -⟩ := idx_facts t
  show V c main_v55 (((cfg3.win 5).blk t).view.emb y) = _
  refine congrArg (V c main_v55) (funext fun ax => Fin.ext ?_)
  match ax with
  | ⟨0, _⟩ => show win3_5.index t (0 : Fin 2) * 128 + 1 * (y 0).val = (y 0).val; omega
  | ⟨1, _⟩ => show win3_5.index t (1 : Fin 2) * 128 + 1 * (y 1).val = (y 1).val; omega

theorem whole6 (c : Dev nD) (t : Fin cfg3.N) (y : S1x128.Idx) : iblk3 V c 6 t y = V c main_v63 y := by
  obtain ⟨-, -, -, -, -, -, -, -, -, -, -, -, -, -, e0, e1⟩ := idx_facts t
  show V c main_v63 (((cfg3.win 6).blk t).view.emb y) = _
  refine congrArg (V c main_v63) (funext fun ax => Fin.ext ?_)
  match ax with
  | ⟨0, _⟩ => show win3_6.index t (0 : Fin 2) * 1 + 1 * (y 0).val = (y 0).val; omega
  | ⟨1, _⟩ => show win3_6.index t (1 : Fin 2) * 128 + 1 * (y 1).val = (y 1).val; omega

/-- WHAT POINT `t` WRITES BACK is block `t` of `result`. -/
theorem flushed_eq (c : Dev nD) (t : Fin cfg3.N) :
    (dat3 V c).flushed 7 t = ((cfg3.win 7).blk t).view.read (Elt Ideal) (result V c) := by
  show (cfg3.win 7).cut (grid3.coords t) ((dat3 V c).after 7 t) = _
  rw [after3_7]
  unfold out3_7
  rw [View.canon_unit_zero hz]
  simp only [View.ld_unit_zero (S := S4000x128) hz, View.ld_unit_zero (S := S128x128) hz, View.ld_unit_zero (S := S1x128) hz,
    View.ld_unit_zero (S := S128x128) hz]
  funext j
  obtain ⟨p, q, rfl⟩ : ∃ (p : Fin 4000) (q : Fin 128), j = ix2 p q := ⟨j 0, j 1, eq_ix2 j⟩
  show k1_pay1 (F := Ideal) (iblk3 V c 0 t) (iblk3 V c 1 t) (iblk3 V c 2 t) (iblk3 V c 3 t) (iblk3 V c 4 t) (iblk3 V c 5 t)
      (iblk3 V c 6 t) (ix2 p q) = result V c (((cfg3.win 7).blk t).view.emb (ix2 p q))
  rw [Payload.edge128_apply]
  obtain ⟨e70, e71, -⟩ := idx_facts t
  have hq : ((((cfg3.win 7).blk t).view.emb (ix2 p q)) 1 : Fin 128) = q := Fin.ext (by
    show win3_7.index t (1 : Fin 2) * 128 + 1 * q.val = q.val; omega)
  show _ = rowMlp _ _ _ _ _ _ _ ((((cfg3.win 7).blk t).view.emb (ix2 p q)) 1)
  rw [hq]
  simp only [feat0 V c t p q, feat1 V c t p q, whole2, whole3, whole4, whole5, whole6]

/-- An index of the array is in point `t`'s block iff each coordinate is in the block's range on its axis. -/
theorem mem_blk (t : Fin cfg3.N) (i : S600000x128.Idx) :
    i ∈ ((cfg3.win 7).blk t).view.set ↔ ∀ a : Fin 2, win3_7.index t a * S4000x128.size a ≤ (i a).val ∧ (i a).val < win3_7.index t a * S4000x128.size a + S4000x128.size a := by
  show i ∈ ((View.whole main_v64).slice (win3_7.rect t)).set ↔ _
  rw [View.set_slice_whole, Rect.mem_set_unit]
  exact Iff.rfl

/-- Every row lies in the block of the point `row / 4000`. -/
theorem cover (i : S600000x128.Idx) : ∃ t : Fin cfg3.N, (cfg3.win 7).flush t = true ∧ i ∈ ((cfg3.win 7).blk t).view.set := by
  have hi0 : (i 0).val < 600000 := (i 0).isLt
  have hi1 : (i 1).val < 128 := (i 1).isLt
  have hN : cfg3.N = 150 := N_3
  refine ⟨⟨(i 0).val / 4000, by rw [hN]; omega⟩, flush3_7 _, ?_⟩
  rw [mem_blk]
  obtain ⟨e70, e71, -⟩ := idx_facts ⟨(i 0).val / 4000, by rw [hN]; omega⟩
  intro a
  match a with
  | ⟨0, _⟩ =>
    show win3_7.index _ (0 : Fin 2) * 4000 ≤ (i 0).val ∧ (i 0).val < win3_7.index _ (0 : Fin 2) * 4000 + 4000
    rw [e70]; show (i 0).val / 4000 * 4000 ≤ (i 0).val ∧ (i 0).val < (i 0).val / 4000 * 4000 + 4000; omega
  | ⟨1, _⟩ =>
    show win3_7.index _ (1 : Fin 2) * 128 ≤ (i 1).val ∧ (i 1).val < win3_7.index _ (1 : Fin 2) * 128 + 128
    rw [e71]; omega

/-- THE ARRAY after the region: `edgeArr` of the input arrays as the region found them. -/
theorem final (c : Dev nD) : (dat3 V c).arrAt 7 cfg3.N = result V c :=
  (dat3 V c).arrAt_eq_of_cover 7 (result V c) (fun t _ => flushed_eq V c t) cover

end Cert.KernelIdeal.Region3

end
-- ==== Proof.Region4.lean ====
/-
  Region 4 — the output head over 10 blocks of 5000 nodes — as ONE array: whatever the region finds in its three input
  arrays, its output array ends holding `headArr` of them.

  Point `t` stages rows `5000·t … 5000·t + 4999` of the node features and the whole of the weight matrix and of the bias
  row, and writes back rows `5000·t …` of the result; entry `(p, q)` of what it writes is `rowHead` of row `p` of the staged
  block, that is of row `5000·t + p` of the feature array. The 10 blocks tile the 50000 rows (row `r` lies in block
  `r / 5000`).
-/
import proofs.«428389_j4277787426824_1_alg».proof.Proof.Gen.KernelIdeal.Frame
import proofs.«428389_j4277787426824_1_alg».proof.Proof.Payload
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.EdgeConv
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- What the output array ends holding: `headArr` of the three input arrays as the region finds them. -/
abbrev result (c : Dev nD) : FVec Ideal S50000x3 .f32 :=
  headArr (V c main_v67) (V c main_arg10) (V c main_v68)

/-- The printed index maps, decided over the grid: the feature window and the output window move down the rows together,
    one block a point; the weight and the bias windows stay at block `(0, 0)`. -/
theorem idx_facts : ∀ t : Fin cfg4.N,
    win4_3.index t (0 : Fin 2) = t.val ∧ win4_3.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- The feature window's staged row `p` at point `t` is row `5000·t + p` of its array, the output block's row. -/
theorem feat0 (c : Dev nD) (t : Fin cfg4.N) (p : Fin 5000) (q : Fin 3) (k : Fin 128) :
    iblk4 V c 0 t (ix2 p k) = V c main_v67 (ix2 ((((cfg4.win 3).blk t).view.emb (ix2 p q)) 0) k) := by
  obtain ⟨e30, e31, e00, e01, -⟩ := idx_facts t
  show V c main_v67 (((cfg4.win 0).blk t).view.emb (ix2 p k)) = _
  refine congrArg (V c main_v67) (funext fun ax => Fin.ext ?_)
  match ax with
  | ⟨0, _⟩ => show win4_0.index t (0 : Fin 2) * 5000 + 1 * p.val = win4_3.index t (0 : Fin 2) * 5000 + 1 * p.val; omega
  | ⟨1, _⟩ => show win4_0.index t (1 : Fin 2) * 128 + 1 * k.val = k.val; omega

/-- The weight and the bias windows stage their whole arrays at every point. -/
theorem whole1 (c : Dev nD) (t : Fin cfg4.N) (y : S128x3.Idx) : iblk4 V c 1 t y = V c main_arg10 y := by
  obtain ⟨-, -, -, -, e0, e1, -⟩ := idx_facts t
  show V c main_arg10 (((cfg4.win 1).blk t).view.emb y) = _
  refine congrArg (V c main_arg10) (funext fun ax => Fin.ext ?_)
  match ax with
  | ⟨0, _⟩ => show win4_1.index t (0 : Fin 2) * 128 + 1 * (y 0).val = (y 0).val; omega
  | ⟨1, _⟩ => show win4_1.index t (1 : Fin 2) * 3 + 1 * (y 1).val = (y 1).val; omega

theorem whole2 (c : Dev nD) (t : Fin cfg4.N) (y : S1x3.Idx) : iblk4 V c 2 t y = V c main_v68 y := by
  obtain ⟨-, -, -, -, -, -, e0, e1⟩ := idx_facts t
  show V c main_v68 (((cfg4.win 2).blk t).view.emb y) = _
  refine congrArg (V c main_v68) (funext fun ax => Fin.ext ?_)
  match ax with
  | ⟨0, _⟩ => show win4_2.index t (0 : Fin 2) * 1 + 1 * (y 0).val = (y 0).val; omega
  | ⟨1, _⟩ => show win4_2.index t (1 : Fin 2) * 3 + 1 * (y 1).val = (y 1).val; omega

/-- WHAT POINT `t` WRITES BACK is block `t` of `result`. -/
theorem flushed_eq (c : Dev nD) (t : Fin cfg4.N) :
    (dat4 V c).flushed 3 t = ((cfg4.win 3).blk t).view.read (Elt Ideal) (result V c) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x3) hz, View.ld_unit_zero (S := S1x3) hz]
  funext j
  obtain ⟨p, q, rfl⟩ : ∃ (p : Fin 5000) (q : Fin 3), j = ix2 p q := ⟨j 0, j 1, eq_ix2 j⟩
  show k4_pay1 (F := Ideal) (iblk4 V c 0 t) (iblk4 V c 1 t) (iblk4 V c 2 t) (ix2 p q)
      = result V c (((cfg4.win 3).blk t).view.emb (ix2 p q))
  rw [Payload.head_apply]
  obtain ⟨e30, e31, -⟩ := idx_facts t
  have hq : ((((cfg4.win 3).blk t).view.emb (ix2 p q)) 1 : Fin 3) = q := Fin.ext (by
    show win4_3.index t (1 : Fin 2) * 3 + 1 * q.val = q.val; omega)
  show _ = rowHead _ _ _ ((((cfg4.win 3).blk t).view.emb (ix2 p q)) 1)
  rw [hq]
  simp only [feat0 V c t p q, whole1, whole2]

/-- An index of the array is in point `t`'s block iff each coordinate is in the block's range on its axis. -/
theorem mem_blk (t : Fin cfg4.N) (i : S50000x3.Idx) :
    i ∈ ((cfg4.win 3).blk t).view.set ↔ ∀ a : Fin 2, win4_3.index t a * S5000x3.size a ≤ (i a).val ∧ (i a).val < win4_3.index t a * S5000x3.size a + S5000x3.size a := by
  show i ∈ ((View.whole main_v69).slice (win4_3.rect t)).set ↔ _
  rw [View.set_slice_whole, Rect.mem_set_unit]
  exact Iff.rfl

/-- Every row lies in the block of the point `row / 5000`. -/
theorem cover (i : S50000x3.Idx) : ∃ t : Fin cfg4.N, (cfg4.win 3).flush t = true ∧ i ∈ ((cfg4.win 3).blk t).view.set := by
  have hi0 : (i 0).val < 50000 := (i 0).isLt
  have hi1 : (i 1).val < 3 := (i 1).isLt
  have hN : cfg4.N = 10 := N_4
  refine ⟨⟨(i 0).val / 5000, by rw [hN]; omega⟩, flush4_3 _, ?_⟩
  rw [mem_blk]
  obtain ⟨e30, e31, -⟩ := idx_facts ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 3 ≤ (i 1).val ∧ (i 1).val < win4_3.index _ (1 : Fin 2) * 3 + 3
    rw [e31]; omega

/-- THE ARRAY after the region: `headArr` of the input arrays as the region found them. -/
theorem final (c : Dev nD) : (dat4 V c).arrAt 3 cfg4.N = result V c :=
  (dat4 V c).arrAt_eq_of_cover 3 (result V c) (fun t _ => flushed_eq V c t) cover

end Cert.KernelIdeal.Region4

end
-- ==== Proof.KernelHost.lean ====
/-
  The host operations the kernel's program applies between its five pallas_calls, named.

  `srcIdx` / `dstIdx`: the two rows of the edge list. `idxCol`: an index vector with its negative entries wrapped by the
  node count, as a column. `inRange`: the per-edge test `0 ≤ wrapped index ≤ 49999`. `take7` / `take128`: the gather of the
  node features at the wrapped indices, with the rows whose index fails the test REPLACED by the not-a-number word — this
  is what `jnp.take` at its default mode prints, and where the kernel's program differs from the reference's plain gather.
  `segSum`: the scatter-add of the per-edge messages into a zero array of node rows, by the raw target indices.
-/
import proofs.«428389_j4277787426824_1_alg».proof.KernelIdeal

noncomputable section

namespace Cert.KernelIdeal.HostFns

open Idealize.ShloMosaic Cert.KernelIdeal
open Cert.KernelIdeal.Facts₀

variable [Cert.KernelIdeal.Facts₀]
variable {F : FTy → Type} [FloatOps F]

/-- Row 0 of the edge list: the source node of each edge. -/
def srcIdx (ei : IVec S2x600000 32) : IVec S600000 32 :=
  shapeCast S600000 (extractStridedSlice S1x600000 ![0, 0] ei slices_S2x600000_S1x600000_0_0) shapeCasts_S1x600000_S600000

/-- Row 1 of the edge list: the target node of each edge. -/
def dstIdx (ei : IVec S2x600000 32) : IVec S600000 32 :=
  shapeCast S600000 (extractStridedSlice S1x600000 ![1, 0] ei slices_S2x600000_S1x600000_1_0) shapeCasts_S1x600000_S600000

/-- An index vector with negative entries wrapped by the node count 50000, as a `[600000, 1]` column. -/
def idxCol (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

/-- Per edge: is the wrapped index inside `[0, 49999]`? -/
def inRange (idx : IVec S600000 32) : IVec S600000 1 :=
  Host.reduce IntOp.andi
    (andi (cmpi .sge (idxCol idx) (broadcastInDim S600000x1 ![] bcast_S_S600000x1 (constantI S_ 32 0#32)))
      (cmpi .sle (idxCol idx) (broadcastInDim S600000x1 ![0, 1] bcast_S1x1_S600000x1_0_1
        (broadcastInDim S1x1 ![1] bcast_S1_S1x1_1 (constantI S1 32 49999#32)))))
    (constantI S_ 1 1#1) reducesTo_S600000x1_S600000_d1 h_S_

/-- `jnp.take(x, idx, axis=0)` on features of width 7: the gathered rows, not-a-number where the index is out of range. -/
def take7 (x : FVec F S50000x7 .f32) (idx : IVec S600000 32) : FVec F S600000x7 .f32 :=
  select (broadcastInDim S600000x7 ![0] bcast_S600000_S600000x7_0 (inRange idx))
    (Host.gather gather_S50000x7_S600000x1_S600000x7_1_0_n_n_0_1_17 x (idxCol idx))
    (broadcastInDim S600000x7 ![] bcast_S_S600000x7 (constant S_ .f32 0x7FC00000#32))

/-- The same on features of width 128. -/
def take128 (h : FVec F S50000x128 .f32) (idx : IVec S600000 32) : FVec F S600000x128 .f32 :=
  select (broadcastInDim S600000x128 ![0] bcast_S600000_S600000x128_0 (inRange idx))
    (Host.gather gather_S50000x128_S600000x1_S600000x128_1_0_n_n_0_1_1128 h (idxCol idx))
    (broadcastInDim S600000x128 ![] bcast_S_S600000x128 (constant S_ .f32 0x7FC00000#32))

/-- `jax.ops.segment_sum(msg, dst, 50000)`: the messages added into a zero array at their target rows. -/
def segSum (dst : IVec S600000 32) (msg : FVec F S600000x128 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) msg

end Cert.KernelIdeal.HostFns

end
-- ==== Proof.Gap0.lean ====
/-
  What the first layer's per-edge kernel finds in its seven input arrays, read back from the launch memory through the host
  operations that precede it.

  The two rows of the edge list are sliced out and flattened (source row, target row). Each gathered feature array is the
  node features taken at one of those rows: negative indices wrapped by the node count, the rows whose wrapped index falls
  outside the node range replaced by the not-a-number word. The first weight matrix is cut into its upper and lower seven
  rows, and the two bias vectors become one-row arrays. The second weight matrix is passed as launched. Every buffer is
  written by exactly one operation, so each array is its operation's function of the arrays before it, down to the launch.
-/
import proofs.«428389_j4277787426824_1_alg».proof.Proof.Gen.KernelIdeal.Frame
import proofs.«428389_j4277787426824_1_alg».proof.Proof.KernelHost
import Idealize.ShloMosaic.Lib.StableHlo.Run

set_option maxRecDepth 16384

noncomputable section

namespace Cert.KernelIdeal.Gap

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The gathered TARGET features: the node features taken at row 1 of the edge list. -/
theorem gap0_v4 (c : Dev nD) :
    V4 m ρ c main_v4 = take7 (m ((c : Thread nD τ).loc main_arg0)) (dstIdx (m ((c : Thread nD τ).loc main_arg1))) := by
  show W4 m ρ c (Proc.devRef .tc main_v4) = _
  unfold take7 inRange idxCol dstIdx
  dsimp only [W4, W3, W2, W1]
  simp only [hostOps0_1, TRef.unary, TRef.binary, TRef.ternary, TRef.nullary, TRef.ofBuf, TRef.toBuf, cast_eq]
  after_results_simp <;> rfl

/-- The gathered SOURCE features: the node features taken at row 0 of the edge list. -/
theorem gap0_v5 (c : Dev nD) :
    V4 m ρ c main_v5 = take7 (m ((c : Thread nD τ).loc main_arg0)) (srcIdx (m ((c : Thread nD τ).loc main_arg1))) := by
  show W4 m ρ c (Proc.devRef .tc main_v5) = _
  unfold take7 inRange idxCol srcIdx
  dsimp only [W4, W3, W2, W1]
  simp only [hostOps0_2, TRef.unary, TRef.binary, TRef.ternary, TRef.nullary, TRef.ofBuf, TRef.toBuf, cast_eq]
  after_results_simp <;> rfl

/-- Rows 0 … 6 of the first weight matrix. -/
theorem gap0_v6 (c : Dev nD) :
    V4 m ρ c main_v6 = extractStridedSlice S7x128 ![0, 0] (m ((c : Thread nD τ).loc main_arg2)) Gen.slices_S14x128_S7x128_0_0 := by
  show W4 m ρ c (Proc.devRef .tc main_v6) = _
  dsimp only [W4, W3, W2, W1]
  after_results_simp <;> rfl

/-- Rows 7 … 13 of the first weight matrix. -/
theorem gap0_v7 (c : Dev nD) :
    V4 m ρ c main_v7 = extractStridedSlice S7x128 ![7, 0] (m ((c : Thread nD τ).loc main_arg2)) Gen.slices_S14x128_S7x128_7_0 := by
  show W4 m ρ c (Proc.devRef .tc main_v7) = _
  dsimp only [W4, W3, W2, W1]
  after_results_simp <;> rfl

/-- The first bias as a one-row array. -/
theorem gap0_v8 (c : Dev nD) :
    V4 m ρ c main_v8 = shapeCast S1x128 (m ((c : Thread nD τ).loc main_arg3)) Gen.shapeCasts_S128_S1x128 := by
  show W4 m ρ c (Proc.devRef .tc main_v8) = _
  dsimp only [W4, W3, W2, W1]
  after_results_simp <;> rfl

/-- The second weight matrix, as launched. -/
theorem gap0_arg4 (c : Dev nD) : V4 m ρ c main_arg4 = m ((c : Thread nD τ).loc main_arg4) := by
  show W4 m ρ c (Proc.devRef .tc main_arg4) = _
  dsimp only [W4, W3, W2, W1]
  after_results_simp <;> rfl

/-- The second bias as a one-row array. -/
theorem gap0_v9 (c : Dev nD) :
    V4 m ρ c main_v9 = shapeCast S1x128 (m ((c : Thread nD τ).loc main_arg5)) Gen.shapeCasts_S128_S1x128 := by
  show W4 m ρ c (Proc.devRef .tc main_v9) = _
  dsimp only [W4, W3, W2, W1]
  after_results_simp <;> rfl

end Cert.KernelIdeal.Gap

end
-- ==== Proof.GapBase.lean ====
/-
  The buffers every later stretch of host operations reads again, at the four places where a layer's kernel has just
  finished: the two rows of the edge list (written once, before the first layer) and the weight arguments.

  A layer's kernel writes only its own output array, and a stretch of host operations writes only its own result buffers,
  each a fresh one. So a buffer written before, or never written, still holds at each of those places what it held before:
  the edge-list rows their slices of the launched edge list, an argument its launched contents. Each statement walks one
  layer back — past the kernel by the frame's "every other buffer as entered", past the host operations one by one — to
  the same statement one layer earlier, and the first to the launch memory.
-/
import proofs.«428389_j4277787426824_1_alg».proof.Proof.Gen.KernelIdeal.Frame
import proofs.«428389_j4277787426824_1_alg».proof.Proof.KernelHost
import Idealize.ShloMosaic.Lib.StableHlo.Run

set_option maxRecDepth 16384

noncomputable section

namespace Cert.KernelIdeal.Gap

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first layer's kernel -/

theorem W5_v1 (c : Dev nD) : W5 m ρ c (Proc.devRef .tc main_v1) = srcIdx (m ((c : Thread nD τ).loc main_arg1)) := by
  rw [W5_of_ne m ρ c main_v1 (by decide)]
  unfold srcIdx
  dsimp only [W4, W3, W2, W1]
  after_results_simp <;> rfl

theorem W5_v3 (c : Dev nD) : W5 m ρ c (Proc.devRef .tc main_v3) = dstIdx (m ((c : Thread nD τ).loc main_arg1)) := by
  rw [W5_of_ne m ρ c main_v3 (by decide)]
  unfold dstIdx
  dsimp only [W4, W3, W2, W1]
  after_results_simp <;> rfl

theorem W5_arg6 (c : Dev nD) : W5 m ρ c (Proc.devRef .tc main_arg6) = m ((c : Thread nD τ).loc main_arg6) := by
  rw [W5_of_ne m ρ c main_arg6 (by decide)]
  dsimp only [W4, W3, W2, W1]
  after_results_simp <;> rfl

theorem W5_arg7 (c : Dev nD) : W5 m ρ c (Proc.devRef .tc main_arg7) = m ((c : Thread nD τ).loc main_arg7) := by
  rw [W5_of_ne m ρ c main_arg7 (by decide)]
  dsimp only [W4, W3, W2, W1]
  after_results_simp <;> rfl

theorem W5_arg8 (c : Dev nD) : W5 m ρ c (Proc.devRef .tc main_arg8) = m ((c : Thread nD τ).loc main_arg8) := by
  rw [W5_of_ne m ρ c main_arg8 (by decide)]
  dsimp only [W4, W3, W2, W1]
  after_results_simp <;> rfl

theorem W5_arg9 (c : Dev nD) : W5 m ρ c (Proc.devRef .tc main_arg9) = m ((c : Thread nD τ).loc main_arg9) := by
  rw [W5_of_ne m ρ c main_arg9 (by decide)]
  dsimp only [W4, W3, W2, W1]
  after_results_simp <;> rfl

theorem W5_arg10 (c : Dev nD) : W5 m ρ c (Proc.devRef .tc main_arg10) = m ((c : Thread nD τ).loc main_arg10) := by
  rw [W5_of_ne m ρ c main_arg10 (by decide)]
  dsimp only [W4, W3, W2, W1]
  after_results_simp <;> rfl

theorem W5_arg11 (c : Dev nD) : W5 m ρ c (Proc.devRef .tc main_arg11) = m ((c : Thread nD τ).loc main_arg11) := by
  rw [W5_of_ne m ρ c main_arg11 (by decide)]
  dsimp only [W4, W3, W2, W1]
  after_results_simp <;> rfl

/-! ## After the second layer's kernel -/

theorem W10_v1 (c : Dev nD) : W10 m ρ c (Proc.devRef .tc main_v1) = srcIdx (m ((c : Thread nD τ).loc main_arg1)) := by
  rw [W10_of_ne m ρ c main_v1 (by decide)]
  dsimp only [W9, W8, W7, W6]
  after_results_simp
  exact W5_v1 m ρ c

theorem W10_v3 (c : Dev nD) : W10 m ρ c (Proc.devRef .tc main_v3) = dstIdx (m ((c : Thread nD τ).loc main_arg1)) := by
  rw [W10_of_ne m ρ c main_v3 (by decide)]
  dsimp only [W9, W8, W7, W6]
  after_results_simp
  exact W5_v3 m ρ c

theorem W10_arg6 (c : Dev nD) : W10 m ρ c (Proc.devRef .tc main_arg6) = m ((c : Thread nD τ).loc main_arg6) := by
  rw [W10_of_ne m ρ c main_arg6 (by decide)]
  dsimp only [W9, W8, W7, W6]
  after_results_simp
  exact W5_arg6 m ρ c

theorem W10_arg7 (c : Dev nD) : W10 m ρ c (Proc.devRef .tc main_arg7) = m ((c : Thread nD τ).loc main_arg7) := by
  rw [W10_of_ne m ρ c main_arg7 (by decide)]
  dsimp only [W9, W8, W7, W6]
  after_results_simp
  exact W5_arg7 m ρ c

theorem W10_arg8 (c : Dev nD) : W10 m ρ c (Proc.devRef .tc main_arg8) = m ((c : Thread nD τ).loc main_arg8) := by
  rw [W10_of_ne m ρ c main_arg8 (by decide)]
  dsimp only [W9, W8, W7, W6]
  after_results_simp
  exact W5_arg8 m ρ c

theorem W10_arg9 (c : Dev nD) : W10 m ρ c (Proc.devRef .tc main_arg9) = m ((c : Thread nD τ).loc main_arg9) := by
  rw [W10_of_ne m ρ c main_arg9 (by decide)]
  dsimp only [W9, W8, W7, W6]
  after_results_simp
  exact W5_arg9 m ρ c

theorem W10_arg10 (c : Dev nD) : W10 m ρ c (Proc.devRef .tc main_arg10) = m ((c : Thread nD τ).loc main_arg10) := by
  rw [W10_of_ne m ρ c main_arg10 (by decide)]
  dsimp only [W9, W8, W7, W6]
  after_results_simp
  exact W5_arg10 m ρ c

theorem W10_arg11 (c : Dev nD) : W10 m ρ c (Proc.devRef .tc main_arg11) = m ((c : Thread nD τ).loc main_arg11) := by
  rw [W10_of_ne m ρ c main_arg11 (by decide)]
  dsimp only [W9, W8, W7, W6]
  after_results_simp
  exact W5_arg11 m ρ c

/-! ## After the third layer's kernel -/

theorem W15_v1 (c : Dev nD) : W15 m ρ c (Proc.devRef .tc main_v1) = srcIdx (m ((c : Thread nD τ).loc main_arg1)) := by
  rw [W15_of_ne m ρ c main_v1 (by decide)]
  dsimp only [W14, W13, W12, W11]
  after_results_simp
  exact W10_v1 m ρ c

theorem W15_v3 (c : Dev nD) : W15 m ρ c (Proc.devRef .tc main_v3) = dstIdx (m ((c : Thread nD τ).loc main_arg1)) := by
  rw [W15_of_ne m ρ c main_v3 (by decide)]
  dsimp only [W14, W13, W12, W11]
  after_results_simp
  exact W10_v3 m ρ c

theorem W15_arg6 (c : Dev nD) : W15 m ρ c (Proc.devRef .tc main_arg6) = m ((c : Thread nD τ).loc main_arg6) := by
  rw [W15_of_ne m ρ c main_arg6 (by decide)]
  dsimp only [W14, W13, W12, W11]
  after_results_simp
  exact W10_arg6 m ρ c

theorem W15_arg7 (c : Dev nD) : W15 m ρ c (Proc.devRef .tc main_arg7) = m ((c : Thread nD τ).loc main_arg7) := by
  rw [W15_of_ne m ρ c main_arg7 (by decide)]
  dsimp only [W14, W13, W12, W11]
  after_results_simp
  exact W10_arg7 m ρ c

theorem W15_arg8 (c : Dev nD) : W15 m ρ c (Proc.devRef .tc main_arg8) = m ((c : Thread nD τ).loc main_arg8) := by
  rw [W15_of_ne m ρ c main_arg8 (by decide)]
  dsimp only [W14, W13, W12, W11]
  after_results_simp
  exact W10_arg8 m ρ c

theorem W15_arg9 (c : Dev nD) : W15 m ρ c (Proc.devRef .tc main_arg9) = m ((c : Thread nD τ).loc main_arg9) := by
  rw [W15_of_ne m ρ c main_arg9 (by decide)]
  dsimp only [W14, W13, W12, W11]
  after_results_simp
  exact W10_arg9 m ρ c

theorem W15_arg10 (c : Dev nD) : W15 m ρ c (Proc.devRef .tc main_arg10) = m ((c : Thread nD τ).loc main_arg10) := by
  rw [W15_of_ne m ρ c main_arg10 (by decide)]
  dsimp only [W14, W13, W12, W11]
  after_results_simp
  exact W10_arg10 m ρ c

theorem W15_arg11 (c : Dev nD) : W15 m ρ c (Proc.devRef .tc main_arg11) = m ((c : Thread nD τ).loc main_arg11) := by
  rw [W15_of_ne m ρ c main_arg11 (by decide)]
  dsimp only [W14, W13, W12, W11]
  after_results_simp
  exact W10_arg11 m ρ c

/-! ## After the fourth layer's kernel -/

theorem W20_v3 (c : Dev nD) : W20 m ρ c (Proc.devRef .tc main_v3) = dstIdx (m ((c : Thread nD τ).loc main_arg1)) := by
  rw [W20_of_ne m ρ c main_v3 (by decide)]
  dsimp only [W19, W18, W17, W16]
  after_results_simp
  exact W15_v3 m ρ c

theorem W20_arg10 (c : Dev nD) : W20 m ρ c (Proc.devRef .tc main_arg10) = m ((c : Thread nD τ).loc main_arg10) := by
  rw [W20_of_ne m ρ c main_arg10 (by decide)]
  dsimp only [W19, W18, W17, W16]
  after_results_simp
  exact W15_arg10 m ρ c

theorem W20_arg11 (c : Dev nD) : W20 m ρ c (Proc.devRef .tc main_arg11) = m ((c : Thread nD τ).loc main_arg11) := by
  rw [W20_of_ne m ρ c main_arg11 (by decide)]
  dsimp only [W19, W18, W17, W16]
  after_results_simp
  exact W15_arg11 m ρ c

end Cert.KernelIdeal.Gap

end
-- ==== Proof.Gap1.lean ====
/-
  What the second layer's per-edge kernel finds in its seven input arrays, in terms of the first layer's output array
  and the launched arguments.

  The node features entering the layer are the first layer's messages summed into their target nodes: a scatter-add into a
  zero array by the raw target row of the edge list. The two gathered feature arrays are those node features taken at the
  target row and at the source row (negative indices wrapped, out-of-range rows replaced by the not-a-number word). The
  weights are slice 0 of the stacked per-layer arrays: the first matrix's upper and lower 128 rows, the second matrix, and
  the two biases as one-row arrays (sliced to one row, flattened, and given their row axis back).
-/
import proofs.«428389_j4277787426824_1_alg».proof.Proof.Gen.KernelIdeal.Frame
import proofs.«428389_j4277787426824_1_alg».proof.Proof.KernelHost
import Idealize.ShloMosaic.Lib.StableHlo.Run
import proofs.«428389_j4277787426824_1_alg».proof.Proof.GapBase

set_option maxRecDepth 16384

noncomputable section

namespace Cert.KernelIdeal.Gap

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The node features gathered at the TARGET row of the edge list. -/
theorem gap1_v22 (c : Dev nD) :
    V9 m ρ c main_v22
      = take128 (segSum (dstIdx (m ((c : Thread nD τ).loc main_arg1))) (W5 m ρ c (Proc.devRef .tc main_v10))) (dstIdx (m ((c : Thread nD τ).loc main_arg1))) := by
  show W9 m ρ c (Proc.devRef .tc main_v22) = _
  unfold take128 inRange idxCol segSum
  dsimp only [W9, W8, W7, W6]
  simp only [hostOps1_1, TRef.unary, TRef.binary, TRef.ternary, TRef.nullary, TRef.ofBuf, TRef.toBuf, cast_eq]
  after_results_simp
  rw [W5_v3 m ρ c] <;> rfl

/-- The node features gathered at the SOURCE row of the edge list. -/
theorem gap1_v23 (c : Dev nD) :
    V9 m ρ c main_v23
      = take128 (segSum (dstIdx (m ((c : Thread nD τ).loc main_arg1))) (W5 m ρ c (Proc.devRef .tc main_v10))) (srcIdx (m ((c : Thread nD τ).loc main_arg1))) := by
  show W9 m ρ c (Proc.devRef .tc main_v23) = _
  unfold take128 inRange idxCol segSum
  dsimp only [W9, W8, W7, W6]
  simp only [hostOps1_2, TRef.unary, TRef.binary, TRef.ternary, TRef.nullary, TRef.ofBuf, TRef.toBuf, cast_eq]
  after_results_simp
  rw [W5_v3 m ρ c, W5_v1 m ρ c] <;> rfl

/-- Rows 0 … 127 of slice 0 of the stacked first weight matrices. -/
theorem gap1_v24 (c : Dev nD) :
    V9 m ρ c main_v24
      = extractStridedSlice S128x128 ![0, 0]
          (shapeCast S256x128 (extractStridedSlice S1x256x128 ![0, 0, 0] (m ((c : Thread nD τ).loc main_arg6)) Gen.slices_S3x256x128_S1x256x128_0_0_0)
            Gen.shapeCasts_S1x256x128_S256x128)
          Gen.slices_S256x128_S128x128_0_0 := by
  show W9 m ρ c (Proc.devRef .tc main_v24) = _
  dsimp only [W9, W8, W7, W6]
  after_results_simp
  rw [W5_arg6 m ρ c] <;> rfl

/-- Rows 128 … 255 of slice 0 of the stacked first weight matrices. -/
theorem gap1_v25 (c : Dev nD) :
    V9 m ρ c main_v25
      = extractStridedSlice S128x128 ![128, 0]
          (shapeCast S256x128 (extractStridedSlice S1x256x128 ![0, 0, 0] (m ((c : Thread nD τ).loc main_arg6)) Gen.slices_S3x256x128_S1x256x128_0_0_0)
            Gen.shapeCasts_S1x256x128_S256x128)
          Gen.slices_S256x128_S128x128_128_0 := by
  show W9 m ρ c (Proc.devRef .tc main_v25) = _
  dsimp only [W9, W8, W7, W6]
  after_results_simp
  rw [W5_arg6 m ρ c] <;> rfl

/-- Row 0 of the stacked first biases, as a one-row array. -/
theorem gap1_v26 (c : Dev nD) :
    V9 m ρ c main_v26
      = shapeCast S1x128
          (shapeCast S128 (extractStridedSlice S1x128 ![0, 0] (m ((c : Thread nD τ).loc main_arg7)) Gen.slices_S3x128_S1x128_0_0) Gen.shapeCasts_S1x128_S128)
          Gen.shapeCasts_S128_S1x128 := by
  show W9 m ρ c (Proc.devRef .tc main_v26) = _
  dsimp only [W9, W8, W7, W6]
  after_results_simp
  rw [W5_arg7 m ρ c] <;> rfl

/-- Slice 0 of the stacked second weight matrices. -/
theorem gap1_v19 (c : Dev nD) :
    V9 m ρ c main_v19
      = shapeCast S128x128 (extractStridedSlice S1x128x128 ![0, 0, 0] (m ((c : Thread nD τ).loc main_arg8)) Gen.slices_S3x128x128_S1x128x128_0_0_0)
          Gen.shapeCasts_S1x128x128_S128x128 := by
  show W9 m ρ c (Proc.devRef .tc main_v19) = _
  dsimp only [W9, W8, W7, W6]
  after_results_simp
  rw [W5_arg8 m ρ c] <;> rfl

/-- Row 0 of the stacked second biases, as a one-row array. -/
theorem gap1_v27 (c : Dev nD) :
    V9 m ρ c main_v27
      = shapeCast S1x128
          (shapeCast S128 (extractStridedSlice S1x128 ![0, 0] (m ((c : Thread nD τ).loc main_arg9)) Gen.slices_S3x128_S1x128_0_0) Gen.shapeCasts_S1x128_S128)
          Gen.shapeCasts_S128_S1x128 := by
  show W9 m ρ c (Proc.devRef .tc main_v27) = _
  dsimp only [W9, W8, W7, W6]
  after_results_simp
  rw [W5_arg9 m ρ c] <;> rfl

end Cert.KernelIdeal.Gap

end
-- ==== Proof.Gap2.lean ====
/-
  What the third layer's per-edge kernel finds in its seven input arrays, in terms of the second layer's output array
  and the launched arguments.

  The node features entering the layer are the second layer's messages summed into their target nodes: a scatter-add into
  a zero array by the raw target row of the edge list. The two gathered feature arrays are those node features taken at
  the target row and at the source row (negative indices wrapped, out-of-range rows replaced by the not-a-number word). The
  weights are slice 1 of the stacked per-layer arrays: the first matrix's upper and lower 128 rows, the second matrix, and
  the two biases as one-row arrays (sliced to one row, flattened, and given their row axis back).
-/
import proofs.«428389_j4277787426824_1_alg».proof.Proof.Gen.KernelIdeal.Frame
import proofs.«428389_j4277787426824_1_alg».proof.Proof.KernelHost
import Idealize.ShloMosaic.Lib.StableHlo.Run
import proofs.«428389_j4277787426824_1_alg».proof.Proof.GapBase

set_option maxRecDepth 16384

noncomputable section

namespace Cert.KernelIdeal.Gap

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The node features gathered at the TARGET row of the edge list. -/
theorem gap2_v40 (c : Dev nD) :
    V14 m ρ c main_v40
      = take128 (segSum (dstIdx (m ((c : Thread nD τ).loc main_arg1))) (W10 m ρ c (Proc.devRef .tc main_v28))) (dstIdx (m ((c : Thread nD τ).loc main_arg1))) := by
  show W14 m ρ c (Proc.devRef .tc main_v40) = _
  unfold take128 inRange idxCol segSum
  dsimp only [W14, W13, W12, W11]
  simp only [hostOps2_1, TRef.unary, TRef.binary, TRef.ternary, TRef.nullary, TRef.ofBuf, TRef.toBuf, cast_eq]
  after_results_simp
  rw [W10_v3 m ρ c] <;> rfl

/-- The node features gathered at the SOURCE row of the edge list. -/
theorem gap2_v41 (c : Dev nD) :
    V14 m ρ c main_v41
      = take128 (segSum (dstIdx (m ((c : Thread nD τ).loc main_arg1))) (W10 m ρ c (Proc.devRef .tc main_v28))) (srcIdx (m ((c : Thread nD τ).loc main_arg1))) := by
  show W14 m ρ c (Proc.devRef .tc main_v41) = _
  unfold take128 inRange idxCol segSum
  dsimp only [W14, W13, W12, W11]
  simp only [hostOps2_2, TRef.unary, TRef.binary, TRef.ternary, TRef.nullary, TRef.ofBuf, TRef.toBuf, cast_eq]
  after_results_simp
  rw [W10_v3 m ρ c, W10_v1 m ρ c] <;> rfl

/-- Rows 0 … 127 of slice 1 of the stacked first weight matrices. -/
theorem gap2_v42 (c : Dev nD) :
    V14 m ρ c main_v42
      = extractStridedSlice S128x128 ![0, 0]
          (shapeCast S256x128 (extractStridedSlice S1x256x128 ![1, 0, 0] (m ((c : Thread nD τ).loc main_arg6)) Gen.slices_S3x256x128_S1x256x128_1_0_0)
            Gen.shapeCasts_S1x256x128_S256x128)
          Gen.slices_S256x128_S128x128_0_0 := by
  show W14 m ρ c (Proc.devRef .tc main_v42) = _
  dsimp only [W14, W13, W12, W11]
  after_results_simp
  rw [W10_arg6 m ρ c] <;> rfl

/-- Rows 128 … 255 of slice 1 of the stacked first weight matrices. -/
theorem gap2_v43 (c : Dev nD) :
    V14 m ρ c main_v43
      = extractStridedSlice S128x128 ![128, 0]
          (shapeCast S256x128 (extractStridedSlice S1x256x128 ![1, 0, 0] (m ((c : Thread nD τ).loc main_arg6)) Gen.slices_S3x256x128_S1x256x128_1_0_0)
            Gen.shapeCasts_S1x256x128_S256x128)
          Gen.slices_S256x128_S128x128_128_0 := by
  show W14 m ρ c (Proc.devRef .tc main_v43) = _
  dsimp only [W14, W13, W12, W11]
  after_results_simp
  rw [W10_arg6 m ρ c] <;> rfl

/-- Row 1 of the stacked first biases, as a one-row array. -/
theorem gap2_v44 (c : Dev nD) :
    V14 m ρ c main_v44
      = shapeCast S1x128
          (shapeCast S128 (extractStridedSlice S1x128 ![1, 0] (m ((c : Thread nD τ).loc main_arg7)) Gen.slices_S3x128_S1x128_1_0) Gen.shapeCasts_S1x128_S128)
          Gen.shapeCasts_S128_S1x128 := by
  show W14 m ρ c (Proc.devRef .tc main_v44) = _
  dsimp only [W14, W13, W12, W11]
  after_results_simp
  rw [W10_arg7 m ρ c] <;> rfl

/-- Slice 1 of the stacked second weight matrices. -/
theorem gap2_v37 (c : Dev nD) :
    V14 m ρ c main_v37
      = shapeCast S128x128 (extractStridedSlice S1x128x128 ![1, 0, 0] (m ((c : Thread nD τ).loc main_arg8)) Gen.slices_S3x128x128_S1x128x128_1_0_0)
          Gen.shapeCasts_S1x128x128_S128x128 := by
  show W14 m ρ c (Proc.devRef .tc main_v37) = _
  dsimp only [W14, W13, W12, W11]
  after_results_simp
  rw [W10_arg8 m ρ c] <;> rfl

/-- Row 1 of the stacked second biases, as a one-row array. -/
theorem gap2_v45 (c : Dev nD) :
    V14 m ρ c main_v45
      = shapeCast S1x128
          (shapeCast S128 (extractStridedSlice S1x128 ![1, 0] (m ((c : Thread nD τ).loc main_arg9)) Gen.slices_S3x128_S1x128_1_0) Gen.shapeCasts_S1x128_S128)
          Gen.shapeCasts_S128_S1x128 := by
  show W14 m ρ c (Proc.devRef .tc main_v45) = _
  dsimp only [W14, W13, W12, W11]
  after_results_simp
  rw [W10_arg9 m ρ c] <;> rfl

end Cert.KernelIdeal.Gap

end
-- ==== Proof.Gap3.lean ====
/-
  What the fourth layer's per-edge kernel finds in its seven input arrays, in terms of the third layer's output array
  and the launched arguments.

  The node features entering the layer are the third layer's messages summed into their target nodes: a scatter-add into
  a zero array by the raw target row of the edge list. The two gathered feature arrays are those node features taken at
  the target row and at the source row (negative indices wrapped, out-of-range rows replaced by the not-a-number word). The
  weights are slice 2 of the stacked per-layer arrays: the first matrix's upper and lower 128 rows, the second matrix, and
  the two biases as one-row arrays (sliced to one row, flattened, and given their row axis back).
-/
import proofs.«428389_j4277787426824_1_alg».proof.Proof.Gen.KernelIdeal.Frame
import proofs.«428389_j4277787426824_1_alg».proof.Proof.KernelHost
import Idealize.ShloMosaic.Lib.StableHlo.Run
import proofs.«428389_j4277787426824_1_alg».proof.Proof.GapBase

set_option maxRecDepth 16384

noncomputable section

namespace Cert.KernelIdeal.Gap

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The node features gathered at the TARGET row of the edge list. -/
theorem gap3_v58 (c : Dev nD) :
    V19 m ρ c main_v58
      = take128 (segSum (dstIdx (m ((c : Thread nD τ).loc main_arg1))) (W15 m ρ c (Proc.devRef .tc main_v46))) (dstIdx (m ((c : Thread nD τ).loc main_arg1))) := by
  show W19 m ρ c (Proc.devRef .tc main_v58) = _
  unfold take128 inRange idxCol segSum
  dsimp only [W19, W18, W17, W16]
  simp only [hostOps3_1, TRef.unary, TRef.binary, TRef.ternary, TRef.nullary, TRef.ofBuf, TRef.toBuf, cast_eq]
  after_results_simp
  rw [W15_v3 m ρ c] <;> rfl

/-- The node features gathered at the SOURCE row of the edge list. -/
theorem gap3_v59 (c : Dev nD) :
    V19 m ρ c main_v59
      = take128 (segSum (dstIdx (m ((c : Thread nD τ).loc main_arg1))) (W15 m ρ c (Proc.devRef .tc main_v46))) (srcIdx (m ((c : Thread nD τ).loc main_arg1))) := by
  show W19 m ρ c (Proc.devRef .tc main_v59) = _
  unfold take128 inRange idxCol segSum
  dsimp only [W19, W18, W17, W16]
  simp only [hostOps3_2, TRef.unary, TRef.binary, TRef.ternary, TRef.nullary, TRef.ofBuf, TRef.toBuf, cast_eq]
  after_results_simp
  rw [W15_v3 m ρ c, W15_v1 m ρ c] <;> rfl

/-- Rows 0 … 127 of slice 2 of the stacked first weight matrices. -/
theorem gap3_v60 (c : Dev nD) :
    V19 m ρ c main_v60
      = extractStridedSlice S128x128 ![0, 0]
          (shapeCast S256x128 (extractStridedSlice S1x256x128 ![2, 0, 0] (m ((c : Thread nD τ).loc main_arg6)) Gen.slices_S3x256x128_S1x256x128_2_0_0)
            Gen.shapeCasts_S1x256x128_S256x128)
          Gen.slices_S256x128_S128x128_0_0 := by
  show W19 m ρ c (Proc.devRef .tc main_v60) = _
  dsimp only [W19, W18, W17, W16]
  after_results_simp
  rw [W15_arg6 m ρ c] <;> rfl

/-- Rows 128 … 255 of slice 2 of the stacked first weight matrices. -/
theorem gap3_v61 (c : Dev nD) :
    V19 m ρ c main_v61
      = extractStridedSlice S128x128 ![128, 0]
          (shapeCast S256x128 (extractStridedSlice S1x256x128 ![2, 0, 0] (m ((c : Thread nD τ).loc main_arg6)) Gen.slices_S3x256x128_S1x256x128_2_0_0)
            Gen.shapeCasts_S1x256x128_S256x128)
          Gen.slices_S256x128_S128x128_128_0 := by
  show W19 m ρ c (Proc.devRef .tc main_v61) = _
  dsimp only [W19, W18, W17, W16]
  after_results_simp
  rw [W15_arg6 m ρ c] <;> rfl

/-- Row 2 of the stacked first biases, as a one-row array. -/
theorem gap3_v62 (c : Dev nD) :
    V19 m ρ c main_v62
      = shapeCast S1x128
          (shapeCast S128 (extractStridedSlice S1x128 ![2, 0] (m ((c : Thread nD τ).loc main_arg7)) Gen.slices_S3x128_S1x128_2_0) Gen.shapeCasts_S1x128_S128)
          Gen.shapeCasts_S128_S1x128 := by
  show W19 m ρ c (Proc.devRef .tc main_v62) = _
  dsimp only [W19, W18, W17, W16]
  after_results_simp
  rw [W15_arg7 m ρ c] <;> rfl

/-- Slice 2 of the stacked second weight matrices. -/
theorem gap3_v55 (c : Dev nD) :
    V19 m ρ c main_v55
      = shapeCast S128x128 (extractStridedSlice S1x128x128 ![2, 0, 0] (m ((c : Thread nD τ).loc main_arg8)) Gen.slices_S3x128x128_S1x128x128_2_0_0)
          Gen.shapeCasts_S1x128x128_S128x128 := by
  show W19 m ρ c (Proc.devRef .tc main_v55) = _
  dsimp only [W19, W18, W17, W16]
  after_results_simp
  rw [W15_arg8 m ρ c] <;> rfl

/-- Row 2 of the stacked second biases, as a one-row array. -/
theorem gap3_v63 (c : Dev nD) :
    V19 m ρ c main_v63
      = shapeCast S1x128
          (shapeCast S128 (extractStridedSlice S1x128 ![2, 0] (m ((c : Thread nD τ).loc main_arg9)) Gen.slices_S3x128_S1x128_2_0) Gen.shapeCasts_S1x128_S128)
          Gen.shapeCasts_S128_S1x128 := by
  show W19 m ρ c (Proc.devRef .tc main_v63) = _
  dsimp only [W19, W18, W17, W16]
  after_results_simp
  rw [W15_arg9 m ρ c] <;> rfl

end Cert.KernelIdeal.Gap

end
-- ==== Proof.Gap4.lean ====
/-
  What the output head's kernel finds in its three input arrays, in terms of the fourth layer's output array and the
  launched arguments.

  The node features are the fourth layer's messages summed into their target nodes: a scatter-add into a zero array by
  the raw target row of the edge list. The output weight matrix is passed as launched, and the output bias becomes a
  one-row array.
-/
import proofs.«428389_j4277787426824_1_alg».proof.Proof.Gen.KernelIdeal.Frame
import proofs.«428389_j4277787426824_1_alg».proof.Proof.KernelHost
import Idealize.ShloMosaic.Lib.StableHlo.Run
import proofs.«428389_j4277787426824_1_alg».proof.Proof.GapBase

set_option maxRecDepth 16384

noncomputable section

namespace Cert.KernelIdeal.Gap

open Cert.KernelIdeal Cert.KernelIdeal.Gen Cert.KernelIdeal.HostFns
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The node features entering the output head. -/
theorem gap4_v67 (c : Dev nD) :
    V21 m ρ c main_v67 = segSum (dstIdx (m ((c : Thread nD τ).loc main_arg1))) (W20 m ρ c (Proc.devRef .tc main_v64)) := by
  show W21 m ρ c (Proc.devRef .tc main_v67) = _
  unfold segSum
  dsimp only [W21]
  after_results_simp
  rw [W20_v3 m ρ c] <;> rfl

/-- The output weight matrix, as launched. -/
theorem gap4_arg10 (c : Dev nD) : V21 m ρ c main_arg10 = m ((c : Thread nD τ).loc main_arg10) := by
  show W21 m ρ c (Proc.devRef .tc main_arg10) = _
  dsimp only [W21]
  after_results_simp
  exact W20_arg10 m ρ c

/-- The output bias as a one-row array. -/
theorem gap4_v68 (c : Dev nD) :
    V21 m ρ c main_v68 = shapeCast S1x3 (m ((c : Thread nD τ).loc main_arg11)) Gen.shapeCasts_S3_S1x3 := by
  show W21 m ρ c (Proc.devRef .tc main_v68) = _
  dsimp only [W21]
  after_results_simp
  rw [W20_arg11 m ρ c] <;> rfl

end Cert.KernelIdeal.Gap

end
-- ==== Proof.KernelChain.lean ====
/-
  The kernel program's whole computation as a composition of layers, with each pallas_call's result array spelled by the
  shared specification: `edgeArr` for the four per-edge MLP calls, `headArr` for the output head.

  One layer: gather the node features at the target and at the source of every edge (`take`), cut the layer's first weight
  matrix into its two halves, make the two bias vectors one-row arrays, run the per-edge MLP call (its result array is
  `edgeArr` of those seven arrays), and add the messages into a zero array at their target rows (`segSum`).
-/
import proofs.«428389_j4277787426824_1_alg».proof.Proof.KernelHost
import proofs.«428389_j4277787426824_1_alg».proof.Proof.Spec

noncomputable section

namespace Cert.KernelIdeal.Chain

open Idealize.ShloMosaic Cert.KernelIdeal Cert.KernelIdeal.HostFns Cert.EdgeConv
open Cert.KernelIdeal.Facts₀

variable [Cert.KernelIdeal.Facts₀]

/-- The first layer: features of width 7 in, node features of width 128 out. -/
def layer7 (x : FVec Ideal S50000x7 .f32) (ei : IVec S2x600000 32) (W1 : FVec Ideal S14x128 .f32) (b1 : FVec Ideal S128 .f32)
    (W2 : FVec Ideal S128x128 .f32) (b2 : FVec Ideal S128 .f32) : FVec Ideal S50000x128 .f32 :=
  segSum (dstIdx ei) (edgeArr (take7 x (dstIdx ei)) (take7 x (srcIdx ei))
    (extractStridedSlice S7x128 ![0, 0] W1 slices_S14x128_S7x128_0_0) (extractStridedSlice S7x128 ![7, 0] W1 slices_S14x128_S7x128_7_0)
    (shapeCast S1x128 b1 shapeCasts_S128_S1x128) W2 (shapeCast S1x128 b2 shapeCasts_S128_S1x128))

/-- A later layer: node features of width 128 in and out. -/
def layer128 (h : FVec Ideal S50000x128 .f32) (ei : IVec S2x600000 32) (W1 : FVec Ideal S256x128 .f32) (b1 : FVec Ideal S128 .f32)
    (W2 : FVec Ideal S128x128 .f32) (b2 : FVec Ideal S128 .f32) : FVec Ideal S50000x128 .f32 :=
  segSum (dstIdx ei) (edgeArr (take128 h (dstIdx ei)) (take128 h (srcIdx ei))
    (extractStridedSlice S128x128 ![0, 0] W1 slices_S256x128_S128x128_0_0) (extractStridedSlice S128x128 ![128, 0] W1 slices_S256x128_S128x128_128_0)
    (shapeCast S1x128 b1 shapeCasts_S128_S1x128) W2 (shapeCast S1x128 b2 shapeCasts_S128_S1x128))

/-- Layer `l`'s weights out of the stacked arrays. -/
def w1s0 (W : FVec Ideal S3x256x128 .f32) : FVec Ideal S256x128 .f32 := shapeCast S256x128 (extractStridedSlice S1x256x128 ![0, 0, 0] W slices_S3x256x128_S1x256x128_0_0_0) shapeCasts_S1x256x128_S256x128
def w1s1 (W : FVec Ideal S3x256x128 .f32) : FVec Ideal S256x128 .f32 := shapeCast S256x128 (extractStridedSlice S1x256x128 ![1, 0, 0] W slices_S3x256x128_S1x256x128_1_0_0) shapeCasts_S1x256x128_S256x128
def w1s2 (W : FVec Ideal S3x256x128 .f32) : FVec Ideal S256x128 .f32 := shapeCast S256x128 (extractStridedSlice S1x256x128 ![2, 0, 0] W slices_S3x256x128_S1x256x128_2_0_0) shapeCasts_S1x256x128_S256x128
def bs0 (b : FVec Ideal S3x128 .f32) : FVec Ideal S128 .f32 := shapeCast S128 (extractStridedSlice S1x128 ![0, 0] b slices_S3x128_S1x128_0_0) shapeCasts_S1x128_S128
def bs1 (b : FVec Ideal S3x128 .f32) : FVec Ideal S128 .f32 := shapeCast S128 (extractStridedSlice S1x128 ![1, 0] b slices_S3x128_S1x128_1_0) shapeCasts_S1x128_S128
def bs2 (b : FVec Ideal S3x128 .f32) : FVec Ideal S128 .f32 := shapeCast S128 (extractStridedSlice S1x128 ![2, 0] b slices_S3x128_S1x128_2_0) shapeCasts_S1x128_S128
def w2s0 (W : FVec Ideal S3x128x128 .f32) : FVec Ideal S128x128 .f32 := shapeCast S128x128 (extractStridedSlice S1x128x128 ![0, 0, 0] W slices_S3x128x128_S1x128x128_0_0_0) shapeCasts_S1x128x128_S128x128
def w2s1 (W : FVec Ideal S3x128x128 .f32) : FVec Ideal S128x128 .f32 := shapeCast S128x128 (extractStridedSlice S1x128x128 ![1, 0, 0] W slices_S3x128x128_S1x128x128_1_0_0) shapeCasts_S1x128x128_S128x128
def w2s2 (W : FVec Ideal S3x128x128 .f32) : FVec Ideal S128x128 .f32 := shapeCast S128x128 (extractStridedSlice S1x128x128 ![2, 0, 0] W slices_S3x128x128_S1x128x128_2_0_0) shapeCasts_S1x128x128_S128x128

/-- The kernel program's whole computation. -/
def out (x : FVec Ideal S50000x7 .f32) (ei : IVec S2x600000 32) (W1_0 : FVec Ideal S14x128 .f32) (b1_0 : FVec Ideal S128 .f32)
    (W2_0 : FVec Ideal S128x128 .f32) (b2_0 : FVec Ideal S128 .f32) (W1s : FVec Ideal S3x256x128 .f32) (b1s : FVec Ideal S3x128 .f32)
    (W2s : FVec Ideal S3x128x128 .f32) (b2s : FVec Ideal S3x128 .f32) (Wo : FVec Ideal S128x3 .f32) (bo : FVec Ideal S3 .f32) :
    FVec Ideal S50000x3 .f32 :=
  headArr (layer128 (layer128 (layer128 (layer7 x ei W1_0 b1_0 W2_0 b2_0)
      ei (w1s0 W1s) (bs0 b1s) (w2s0 W2s) (bs0 b2s))
      ei (w1s1 W1s) (bs1 b1s) (w2s1 W2s) (bs1 b2s))
      ei (w1s2 W1s) (bs2 b1s) (w2s2 W2s) (bs2 b2s)) Wo (shapeCast S1x3 bo shapeCasts_S3_S1x3)

end Cert.KernelIdeal.Chain

end
-- ==== Proof.ChainValue.lean ====
/-
  The kernel program's result buffer at the end of its run is `Chain.out` of the twelve argument arrays.

  The buffer contents at the run's last boundary are read back boundary by boundary. At a pallas_call's exit its output
  array holds `edgeArr` (or, for the head, `headArr`) of the seven (three) input arrays the call found; what it found are the
  host operations before it — the gathers, the weight slices, the bias rows, the scatter-add of the call before — applied to
  the previous call's output array and to the argument arrays, which nothing writes. Four times down the layers, this is
  `Chain.layer128 (… (Chain.layer7 x …))`, and the head on top.
-/
import proofs.«428389_j4277787426824_1_alg».proof.Proof.Gen.KernelIdeal.Frame
import proofs.«428389_j4277787426824_1_alg».proof.Proof.Region0
import proofs.«428389_j4277787426824_1_alg».proof.Proof.Region1
import proofs.«428389_j4277787426824_1_alg».proof.Proof.Region2
import proofs.«428389_j4277787426824_1_alg».proof.Proof.Region3
import proofs.«428389_j4277787426824_1_alg».proof.Proof.Region4
import proofs.«428389_j4277787426824_1_alg».proof.Proof.Gap0
import proofs.«428389_j4277787426824_1_alg».proof.Proof.Gap1
import proofs.«428389_j4277787426824_1_alg».proof.Proof.Gap2
import proofs.«428389_j4277787426824_1_alg».proof.Proof.Gap3
import proofs.«428389_j4277787426824_1_alg».proof.Proof.Gap4
import proofs.«428389_j4277787426824_1_alg».proof.Proof.KernelChain

set_option maxRecDepth 16384

noncomputable section

namespace Cert.KernelIdeal.ChainValue

open Idealize.ShloMosaic Idealize.ShloMosaic.TcCoe Idealize.SL.Sem
open Cert.KernelIdeal Cert.KernelIdeal.Gen Cert.KernelIdeal.HostFns Cert.KernelIdeal.Chain Cert.KernelIdeal.Gap Cert.EdgeConv

variable (m : (ℓ : Loc nD τ sig) → Buf (Elt Ideal) ℓ) (ρ : Dev nD → PrngReg)

/-- The node features after the first layer: the scatter-add of region 0's output array. -/
theorem h1_eq (c : Dev nD) :
    segSum (dstIdx (m ((c : Thread nD τ).loc main_arg1))) (W5 m ρ c (Proc.devRef .tc main_v10))
      = layer7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [show W5 m ρ c (Proc.devRef .tc main_v10) = (dat0 (V4 m ρ) c).arrAt 7 cfg0.N from W5_arr m ρ c 7, Region0.final (V4 m ρ) c]
  unfold Region0.result
  rw [gap0_v4 m ρ c, gap0_v5 m ρ c, gap0_v6 m ρ c, gap0_v7 m ρ c, gap0_v8 m ρ c, gap0_arg4 m ρ c, gap0_v9 m ρ c]
  rfl

/-- After the second layer: the scatter-add of region 1's output array. -/
theorem h2_eq (c : Dev nD) :
    segSum (dstIdx (m ((c : Thread nD τ).loc main_arg1))) (W10 m ρ c (Proc.devRef .tc main_v28))
      = layer128 (layer7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1))
          (w1s0 (m ((c : Thread nD τ).loc main_arg6))) (bs0 (m ((c : Thread nD τ).loc main_arg7))) (w2s0 (m ((c : Thread nD τ).loc main_arg8))) (bs0 (m ((c : Thread nD τ).loc main_arg9))) := by
  rw [show W10 m ρ c (Proc.devRef .tc main_v28) = (dat1 (V9 m ρ) c).arrAt 7 cfg1.N from W10_arr m ρ c 7, Region1.final (V9 m ρ) c]
  unfold Region1.result
  rw [gap1_v22 m ρ c, gap1_v23 m ρ c, gap1_v24 m ρ c, gap1_v25 m ρ c, gap1_v26 m ρ c, gap1_v19 m ρ c, gap1_v27 m ρ c, h1_eq m ρ c]
  rfl

/-- After the third layer. -/
theorem h3_eq (c : Dev nD) :
    segSum (dstIdx (m ((c : Thread nD τ).loc main_arg1))) (W15 m ρ c (Proc.devRef .tc main_v46))
      = layer128 (layer128 (layer7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1))
          (w1s0 (m ((c : Thread nD τ).loc main_arg6))) (bs0 (m ((c : Thread nD τ).loc main_arg7))) (w2s0 (m ((c : Thread nD τ).loc main_arg8))) (bs0 (m ((c : Thread nD τ).loc main_arg9)))) (m ((c : Thread nD τ).loc main_arg1))
          (w1s1 (m ((c : Thread nD τ).loc main_arg6))) (bs1 (m ((c : Thread nD τ).loc main_arg7))) (w2s1 (m ((c : Thread nD τ).loc main_arg8))) (bs1 (m ((c : Thread nD τ).loc main_arg9))) := by
  rw [show W15 m ρ c (Proc.devRef .tc main_v46) = (dat2 (V14 m ρ) c).arrAt 7 cfg2.N from W15_arr m ρ c 7, Region2.final (V14 m ρ) c]
  unfold Region2.result
  rw [gap2_v40 m ρ c, gap2_v41 m ρ c, gap2_v42 m ρ c, gap2_v43 m ρ c, gap2_v44 m ρ c, gap2_v37 m ρ c, gap2_v45 m ρ c, h2_eq m ρ c]
  rfl

/-- After the fourth layer. -/
theorem h4_eq (c : Dev nD) :
    segSum (dstIdx (m ((c : Thread nD τ).loc main_arg1))) (W20 m ρ c (Proc.devRef .tc main_v64))
      = layer128 (layer128 (layer128 (layer7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1))
          (w1s0 (m ((c : Thread nD τ).loc main_arg6))) (bs0 (m ((c : Thread nD τ).loc main_arg7))) (w2s0 (m ((c : Thread nD τ).loc main_arg8))) (bs0 (m ((c : Thread nD τ).loc main_arg9)))) (m ((c : Thread nD τ).loc main_arg1))
          (w1s1 (m ((c : Thread nD τ).loc main_arg6))) (bs1 (m ((c : Thread nD τ).loc main_arg7))) (w2s1 (m ((c : Thread nD τ).loc main_arg8))) (bs1 (m ((c : Thread nD τ).loc main_arg9)))) (m ((c : Thread nD τ).loc main_arg1))
          (w1s2 (m ((c : Thread nD τ).loc main_arg6))) (bs2 (m ((c : Thread nD τ).loc main_arg7))) (w2s2 (m ((c : Thread nD τ).loc main_arg8))) (bs2 (m ((c : Thread nD τ).loc main_arg9))) := by
  rw [show W20 m ρ c (Proc.devRef .tc main_v64) = (dat3 (V19 m ρ) c).arrAt 7 cfg3.N from W20_arr m ρ c 7, Region3.final (V19 m ρ) c]
  unfold Region3.result
  rw [gap3_v58 m ρ c, gap3_v59 m ρ c, gap3_v60 m ρ c, gap3_v61 m ρ c, gap3_v62 m ρ c, gap3_v55 m ρ c, gap3_v63 m ρ c, h3_eq m ρ c]
  rfl

/-- THE RESULT: the output head over the fourth layer's node features. -/
theorem result_eq (c : Dev nD) :
    W22 m ρ c (Proc.devRef .tc main_v69)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show W22 m ρ c (Proc.devRef .tc main_v69) = (dat4 (V21 m ρ) c).arrAt 3 cfg4.N from W22_arr m ρ c 3, Region4.final (V21 m ρ) c]
  unfold Region4.result
  rw [gap4_v67 m ρ c, gap4_arg10 m ρ c, gap4_v68 m ρ c, h4_eq m ρ c]
  rfl

end Cert.KernelIdeal.ChainValue

end
-- ==== Proof.IndexRange.lean ====
/-
  The index range. Every entry of the edge list is a node number, at least 0 and below 50000. Under that
  fact the gather the kernel's program performs is the plain gather: an index is not negative, so wrapping it by the
  node count leaves it as it is; the wrapped index then passes the test 0 ≤ · ≤ 49999, so the mask over the edges is
  all ones and no row is replaced by the not-a-number word.

  The word facts: a signed comparison reads its operands as integers. "Not below 0" excludes "below 0"; "below 50000"
  is "at most 49999". A conjunction of bits over a list of ones, started at one, is one.
-/
import proofs.«428389_j4277787426824_1_alg».proof.Proof.KernelHost
import Idealize.ShloMosaic.Lib.ValueIdx
import Idealize.ShloMosaic.Lib.ValueLayout
import Idealize.ShloMosaic.Lib.ReduceAll

noncomputable section

namespace Cert.KernelIdeal.IndexRange

open Idealize.ShloMosaic Idealize.ShloMosaic.ValueIdx Cert.KernelIdeal Cert.KernelIdeal.HostFns
open Cert.KernelIdeal.Facts₀

variable [Cert.KernelIdeal.Facts₀]

/-! ## Words -/

/-- The word 50000 read as a signed integer. -/
theorem toInt_50000 : (50000#32 : BitVec 32).toInt = 50000 := by decide

/-- The word 49999 read as a signed integer. -/
theorem toInt_49999 : (49999#32 : BitVec 32).toInt = 49999 := by decide

/-- The word 0 read as a signed integer. -/
theorem toInt_0 : (0#32 : BitVec 32).toInt = 0 := by decide

/-- A word that is not below 0 fails the test "below 0". -/
theorem not_slt_zero {x : BitVec 32} (h0 : IntOp.cmpi .sge x 0#32 = 1#1) : ¬ IntOp.cmpi .slt x 0#32 = 1#1 := by
  rw [IntOp.cmpi_sge, toInt_0] at h0
  rw [IntOp.cmpi_slt, toInt_0]
  omega

/-- A word below 50000 is at most 49999. -/
theorem sle_of_slt {x : BitVec 32} (h1 : IntOp.cmpi .slt x 50000#32 = 1#1) : IntOp.cmpi .sle x 49999#32 = 1#1 := by
  rw [IntOp.cmpi_slt, toInt_50000] at h1
  rw [IntOp.cmpi_sle, toInt_49999]
  omega

/-- A conjunction of bits, started at one, over a list whose every bit is one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    show l.foldl (fun r n => IntOp.andi r (f n)) (IntOp.andi 1#1 (f a)) = 1#1
    rw [hf a, show IntOp.andi (1#1 : BitVec 1) 1#1 = 1#1 from by decide]
    exact foldl_andi_ones f hf l

/-- A reduction by conjunction, started at one, of an array of ones is one at every index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x hx _

/-! ## The two rows of the edge list -/

/-- The source row: entry e of row 0. -/
theorem srcIdx_apply (ei : IVec S2x600000 32) (e : Fin 600000) : srcIdx ei (ix1 e) = ei (ix2 (0 : Fin 2) e) := by
  unfold srcIdx
  refine (shapeCast_1a_a_apply _ shapeCasts_S1x600000_S600000 e).trans ?_
  exact slice2_axis0_apply 0 ei slices_S2x600000_S1x600000_0_0 (0 : Fin 1) e (0 : Fin 2) rfl

/-- The target row: entry e of row 1. -/
theorem dstIdx_apply (ei : IVec S2x600000 32) (e : Fin 600000) : dstIdx ei (ix1 e) = ei (ix2 (1 : Fin 2) e) := by
  unfold dstIdx
  refine (shapeCast_1a_a_apply _ shapeCasts_S1x600000_S600000 e).trans ?_
  exact slice2_axis0_apply 1 ei slices_S2x600000_S1x600000_1_0 (0 : Fin 1) e (1 : Fin 2) rfl

/-! ## The wrapped index and the range test -/

/-- The wrapped index column reads, at each of its positions, an entry of the index vector: nothing is wrapped, since no
    entry is negative. -/
theorem idxCol_eq (idx : IVec S600000 32) (h0 : ∀ e, IntOp.cmpi .sge (idx e) 0#32 = 1#1) (i : S600000x1.Idx) :
    ∃ e, idxCol idx i = idx e := by
  refine ⟨fun a => if h1 : S600000.size a = 1 then ⟨0, by omega⟩ else ⟨(i ((![0] : Fin 1 → Fin 2) a)).val, by
      rcases bcast_S600000_S600000x1_0.2 a with h2 | h2
      · exact absurd h2 h1
      · rw [h2]; exact (i _).isLt⟩, ?_⟩
  show Scalar.select (IntOp.cmpi .slt (idx _) 0#32) (IntOp.addi (idx _) 50000#32) (idx _) = idx _
  exact if_neg (not_slt_zero (h0 _))

/-- The wrapped index column at row e is entry e of the index vector. -/
theorem idxCol_apply (idx : IVec S600000 32) (h0 : ∀ e, IntOp.cmpi .sge (idx e) 0#32 = 1#1) (e : Fin 600000) :
    idxCol idx (ix2 e (0 : Fin 1)) = idx (ix1 e) := by
  have hk : (fun a : Fin 1 => if h1 : S600000.size a = 1 then (⟨0, by omega⟩ : Fin (S600000.size a)) else ⟨((ix2 e (0 : Fin 1) : S600000x1.Idx) ((![0] : Fin 1 → Fin 2) a)).val, by
      rcases bcast_S600000_S600000x1_0.2 a with h2 | h2
      · exact absurd h2 h1
      · rw [h2]; exact (ix2 e (0 : Fin 1) _).isLt⟩) = ix1 e := by
    funext a
    match a with
    | ⟨0, _⟩ => rfl
  show Scalar.select (IntOp.cmpi .slt (idx _) 0#32) (IntOp.addi (idx _) 50000#32) (idx _) = idx _
  rw [hk]
  exact if_neg (not_slt_zero (h0 _))

/-- Under the range facts every edge passes the test: the mask is all ones. -/
theorem inRange_all (idx : IVec S600000 32) (h0 : ∀ e, IntOp.cmpi .sge (idx e) 0#32 = 1#1)
    (h1 : ∀ e, IntOp.cmpi .slt (idx e) 50000#32 = 1#1) : inRange idx = fun _ => 1#1 := by
  funext j
  unfold inRange
  refine reduce_andi_ones _ _ _ _ rfl (fun i => ?_) j
  obtain ⟨e, he⟩ := idxCol_eq idx h0 i
  show IntOp.andi (IntOp.cmpi .sge (idxCol idx i) 0#32) (IntOp.cmpi .sle (idxCol idx i) 49999#32) = 1#1
  rw [he]
  exact IntOp.andi_eq_one.2 ⟨h0 e, sle_of_slt (h1 e)⟩

/-! ## The gathers -/

variable {F : FTy → Type} [FloatOps F]

/-- Under the range facts the gather of the width-7 features replaces no row: it is the plain gather at the wrapped indices. -/
theorem take7_eq (x : FVec F S50000x7 .f32) (idx : IVec S600000 32) (h0 : ∀ e, IntOp.cmpi .sge (idx e) 0#32 = 1#1)
    (h1 : ∀ e, IntOp.cmpi .slt (idx e) 50000#32 = 1#1) :
    take7 x idx = Host.gather gather_S50000x7_S600000x1_S600000x7_1_0_n_n_0_1_17 x (idxCol idx) := by
  unfold take7
  rw [inRange_all idx h0 h1]
  funext j
  exact select_one _ _

/-- The same for the width-128 features. -/
theorem take128_eq (h : FVec F S50000x128 .f32) (idx : IVec S600000 32) (h0 : ∀ e, IntOp.cmpi .sge (idx e) 0#32 = 1#1)
    (h1 : ∀ e, IntOp.cmpi .slt (idx e) 50000#32 = 1#1) :
    take128 h idx = Host.gather gather_S50000x128_S600000x1_S600000x128_1_0_n_n_0_1_1128 h (idxCol idx) := by
  unfold take128
  rw [inRange_all idx h0 h1]
  funext j
  exact select_one _ _

end Cert.KernelIdeal.IndexRange

end
-- ==== Proof.PreRange.lean ====
/-
  The index range, read out of the precondition. The precondition's last two conjuncts are
  "every entry of the edge list is at least 0" and "every entry of the edge list is below 50000", each a conjunction
  over all 2 × 600000 entries of a signed comparison with a broadcast constant. The precondition is a conjunction of
  bits whose value is one, so each of its conjuncts is one; a conjunction over all entries that is one has a one at
  every entry; and the broadcast constant reads its word at every entry.
-/
import proofs.«428389_j4277787426824_1_alg».proof.Defs
import proofs.«428389_j4277787426824_1_alg».proof.Proof.IndexRange
import Idealize.ShloMosaic.Lib.ValueIdx
import Idealize.ShloMosaic.Lib.ReduceAll

noncomputable section

namespace Cert.KernelIdeal.IndexRange

open Idealize.ShloMosaic Idealize.ShloMosaic.ValueIdx

section Part3

open Cert.Pre_finite_inputs Cert.Pre_finite_inputs.Facts

variable [Cert.Pre_finite_inputs.Facts]
variable {F : FTy → Type} [FloatOps F]

/-- The last part of the precondition being one gives, at every entry of the edge list, "at least 0" and "below 50000":
    its value is the conjunction of the earlier conjuncts with the two conjunctions over all entries. -/
theorem part3_range (ei : IVec Cert.Pre_finite_inputs.S2x600000 32) (v48 : IVec Cert.Pre_finite_inputs.S_ 1)
    (v49 v50 : FVec F Cert.Pre_finite_inputs.S3 .f32) (h : fn_part3 (F := F) ei v48 v49 v50 ix0 = 1#1)
    (i : Cert.Pre_finite_inputs.S2x600000.Idx) :
    IntOp.cmpi .sge (ei i) 0#32 = 1#1 ∧ IntOp.cmpi .slt (ei i) 50000#32 = 1#1 := by
  -- the rank-0 shape has one index
  haveI : Subsingleton Cert.Pre_finite_inputs.S_.Idx := ⟨fun _ _ => funext fun d => d.elim0⟩
  unfold fn_part3 at h
  obtain ⟨h12, h3⟩ := IntOp.andi_eq_one.1 h
  obtain ⟨-, h2⟩ := IntOp.andi_eq_one.1 h12
  exact ⟨Host.reduce_andi_all _ _ _ _ _ h2 i, Host.reduce_andi_all _ _ _ _ _ h3 i⟩

end Part3

open Cert.KernelIdeal

variable [Cert.KernelIdeal.Facts₀] [Cert.Pre_finite_inputs.Facts]

/-- Under the precondition every entry of the edge list is at least 0 and below 50000, on every device. -/
theorem range_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : S2x600000.Idx,
      IntOp.cmpi .sge ((m ((c.tc : Thread nD τ).loc main_arg1) : IVec S2x600000 32) i) 0#32 = 1#1
      ∧ IntOp.cmpi .slt ((m ((c.tc : Thread nD τ).loc main_arg1) : IVec S2x600000 32) i) 50000#32 = 1#1 := by
  intro i
  have h := congrFun (hpre c) ix0
  exact part3_range _ _ _ _ h i

/-! ## The two rows, in range

Each entry of the source row and of the target row is an entry of the edge list, so it inherits the edge list's range. -/

open Cert.KernelIdeal.HostFns

/-- Every source index is at least 0. -/
theorem src_ge (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ e : S600000.Idx, IntOp.cmpi .sge (srcIdx (m ((c.tc : Thread nD τ).loc main_arg1) : IVec S2x600000 32) e) 0#32 = 1#1 := by
  intro e
  obtain ⟨p, rfl⟩ : ∃ p : Fin 600000, e = ix1 p := ⟨e 0, eq_ix1 e⟩
  rw [srcIdx_apply]
  exact (range_of_pre m hpre c _).1

/-- Every source index is below 50000. -/
theorem src_lt (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ e : S600000.Idx, IntOp.cmpi .slt (srcIdx (m ((c.tc : Thread nD τ).loc main_arg1) : IVec S2x600000 32) e) 50000#32 = 1#1 := by
  intro e
  obtain ⟨p, rfl⟩ : ∃ p : Fin 600000, e = ix1 p := ⟨e 0, eq_ix1 e⟩
  rw [srcIdx_apply]
  exact (range_of_pre m hpre c _).2

/-- Every target index is at least 0. -/
theorem dst_ge (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ e : S600000.Idx, IntOp.cmpi .sge (dstIdx (m ((c.tc : Thread nD τ).loc main_arg1) : IVec S2x600000 32) e) 0#32 = 1#1 := by
  intro e
  obtain ⟨p, rfl⟩ : ∃ p : Fin 600000, e = ix1 p := ⟨e 0, eq_ix1 e⟩
  rw [dstIdx_apply]
  exact (range_of_pre m hpre c _).1

/-- Every target index is below 50000. -/
theorem dst_lt (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ e : S600000.Idx, IntOp.cmpi .slt (dstIdx (m ((c.tc : Thread nD τ).loc main_arg1) : IVec S2x600000 32) e) 50000#32 = 1#1 := by
  intro e
  obtain ⟨p, rfl⟩ : ∃ p : Fin 600000, e = ix1 p := ⟨e 0, eq_ix1 e⟩
  rw [dstIdx_apply]
  exact (range_of_pre m hpre c _).2

end Cert.KernelIdeal.IndexRange

end
-- ==== Proof.RefMlp.lean ====
/-
  The reference's per-edge MLP and its output head, as the reference program spells them, are `edgeArr` and `headArr`.

  The reference concatenates the target features with the difference `hj - hi` along the feature axis and contracts the
  `2d`-wide row with the whole first weight matrix. Read at an entry, the contraction over `Fin (d + d)` splits into its
  first `d` terms — the target features against the top `d` rows of the matrix — and its last `d` terms — the difference
  against the bottom `d` rows: the two half products the kernel computes separately. The host's `tanh` is the kernel's
  `tanh`; each bias, a vector made a one-row array and broadcast down the rows, is read at its column.
-/
import proofs.«428389_j4277787426824_1_alg».proof.ReferenceIdeal
import proofs.«428389_j4277787426824_1_alg».proof.Proof.LibPlainDot
import proofs.«428389_j4277787426824_1_alg».proof.Proof.Spec
import Idealize.ShloMosaic.Lib.ValueIdx
import Idealize.ShloMosaic.Lib.ValueLayout
import Idealize.ShloMosaic.Lib.Pipeline.Value

noncomputable section

namespace Cert.ReferenceIdeal.RefSide

open Idealize.ShloMosaic Idealize.ShloMosaic.ValueIdx Cert.ReferenceIdeal Cert.EdgeConv
open Cert.ReferenceIdeal.Facts₀

variable [Cert.ReferenceIdeal.Facts₀]

section Generic
variable {F : FTy → Type} [FloatOps F]

/-- The first layer's per-edge MLP as the reference spells it; `b1r`, `b2r` are the biases already made one-row arrays. -/
def mlp7 (hi hj : FVec F S600000x7 .f32) (W1 : FVec F S14x128 .f32) (b1r : FVec F S1x128 .f32) (W2 : FVec F S128x128 .f32)
    (b2r : FVec F S1x128 .f32) : FVec F S600000x128 .f32 :=
  addf (Host.dotGeneral dot_S600000x128_S128x128_S600000x128_1_0_0_1_n_n none
      (Host.tanh (addf (Host.dotGeneral dot_S600000x14_S14x128_S600000x128_1_0_0_1_n_n none
        (concatenate S600000x14 1 [⟨S600000x7, hi⟩, ⟨S600000x7, subf hj hi⟩] concatenates_S600000x7_S600000x7_S600000x14_d1) W1)
        (broadcastInDim S600000x128 ![0, 1] bcast_S1x128_S600000x128_0_1 b1r))) W2)
    (broadcastInDim S600000x128 ![0, 1] bcast_S1x128_S600000x128_0_1 b2r)

/-- A later layer's per-edge MLP as the reference spells it. -/
def mlp128 (hi hj : FVec F S600000x128 .f32) (W1 : FVec F S256x128 .f32) (b1r : FVec F S1x128 .f32) (W2 : FVec F S128x128 .f32)
    (b2r : FVec F S1x128 .f32) : FVec F S600000x128 .f32 :=
  addf (Host.dotGeneral dot_S600000x128_S128x128_S600000x128_1_0_0_1_n_n none
      (Host.tanh (addf (Host.dotGeneral dot_S600000x256_S256x128_S600000x128_1_0_0_1_n_n none
        (concatenate S600000x256 1 [⟨S600000x128, hi⟩, ⟨S600000x128, subf hj hi⟩] concatenates_S600000x128_S600000x128_S600000x256_d1) W1)
        (broadcastInDim S600000x128 ![0, 1] bcast_S1x128_S600000x128_0_1 b1r))) W2)
    (broadcastInDim S600000x128 ![0, 1] bcast_S1x128_S600000x128_0_1 b2r)

/-- The output head as the reference spells it. -/
def head (h : FVec F S50000x128 .f32) (Wo : FVec F S128x3 .f32) (bor : FVec F S1x3 .f32) : FVec F S50000x3 .f32 :=
  addf (Host.dotGeneral dot_S50000x128_S128x3_S50000x3_1_0_0_1_n_n none h Wo)
    (broadcastInDim S50000x3 ![0, 1] bcast_S1x3_S50000x3_0_1 bor)

end Generic

/-- The printed dimension numbers are the plain ones. -/
theorem dot14 : dot_S600000x14_S14x128_S600000x128_1_0_0_1_n_n = DotDims.plain 600000 14 128 := rfl
theorem dot256 : dot_S600000x256_S256x128_S600000x128_1_0_0_1_n_n = DotDims.plain 600000 256 128 := rfl
theorem dot128 : dot_S600000x128_S128x128_S600000x128_1_0_0_1_n_n = DotDims.plain 600000 128 128 := rfl
theorem dotHead : dot_S50000x128_S128x3_S50000x3_1_0_0_1_n_n = DotDims.plain 50000 128 3 := rfl

/-- A one-row array broadcast down `n` rows, read at `(r, q)`, is the row at `q`. -/
theorem rows_apply {n b : Nat} (v : (⟨2, ![1, b]⟩ : Shape).Idx → EReal)
    (h : (⟨2, ![1, b]⟩ : Shape).BroadcastsInDim ⟨2, ![n, b]⟩ (![0, 1] : Fin 2 → Fin 2)) (r : Fin n) (q : Fin b) :
    broadcastInDim ⟨2, ![n, b]⟩ ![0, 1] h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if b = 1 then 0 else q.val
    split
    · have := q.isLt; omega
    · rfl

/-- The top and the bottom `d` rows of a `(d + d) × 128` matrix, read at an entry. -/
theorem topRows_apply {d : Nat} (W : (⟨2, ![d + d, 128]⟩ : Shape).Idx → EReal) (a : Fin d) (k : Fin 128) :
    topRows W (ix2 a k) = W (ix2 (Fin.castAdd d a) k) := rfl
theorem botRows_apply {d : Nat} (W : (⟨2, ![d + d, 128]⟩ : Shape).Idx → EReal) (a : Fin d) (k : Fin 128) :
    botRows W (ix2 a k) = W (ix2 (Fin.natAdd d a) k) := rfl

/-- Two `E × d` arrays concatenated along the feature axis, read at a column of the first half, give the first array's entry. -/
theorem concat_left {E d : Nat} (x y : (⟨2, ![E, d]⟩ : Shape).Idx → EReal)
    (h : Shape.Concatenates [(⟨2, ![E, d]⟩ : Shape), ⟨2, ![E, d]⟩] ⟨2, ![E, d + d]⟩ (1 : Fin 2)) (r : Fin E) (a : Fin d) :
    concatenate ⟨2, ![E, d + d]⟩ (1 : Fin 2) [⟨⟨2, ![E, d]⟩, x⟩, ⟨⟨2, ![E, d]⟩, y⟩] h (ix2 r (Fin.castAdd d a)) = x (ix2 r a) :=
  concatenate_pair_apply_left (t := ⟨2, ![E, d + d]⟩) (s₁ := ⟨2, ![E, d]⟩) (s₂ := ⟨2, ![E, d]⟩) (1 : Fin 2) x y h _ rfl (ix2 r a)
    (fun b => by
      match b with
      | ⟨0, _⟩ => rfl
      | ⟨1, _⟩ => rfl)

/-- … and read at a column of the second half, the second array's entry, the column `d` less. -/
theorem concat_right {E d : Nat} (x y : (⟨2, ![E, d]⟩ : Shape).Idx → EReal)
    (h : Shape.Concatenates [(⟨2, ![E, d]⟩ : Shape), ⟨2, ![E, d]⟩] ⟨2, ![E, d + d]⟩ (1 : Fin 2)) (r : Fin E) (a : Fin d) :
    concatenate ⟨2, ![E, d + d]⟩ (1 : Fin 2) [⟨⟨2, ![E, d]⟩, x⟩, ⟨⟨2, ![E, d]⟩, y⟩] h (ix2 r (Fin.natAdd d a)) = y (ix2 r a) :=
  concatenate_pair_apply_right (t := ⟨2, ![E, d + d]⟩) (s₁ := ⟨2, ![E, d]⟩) (s₂ := ⟨2, ![E, d]⟩) (1 : Fin 2) x y h _ rfl rfl (ix2 r a)
    (fun b hb => by
      match b with
      | ⟨0, _⟩ => rfl
      | ⟨1, _⟩ => exact absurd rfl hb)
    (show a.val + d = d + a.val from Nat.add_comm _ _)

/-- The per-edge MLP over `E` edges with features of width `d`, spelt with the plain dimension numbers, is `edgeArr`:
    entry `(r, q)` is the second contraction of the `tanh` of the first, each plus its bias at the column; the first
    contraction over the `d + d` columns of the concatenated row splits into the target features against the top rows of
    `W1` and the difference against its bottom rows. -/
theorem edge_eq {E d : Nat}
    (hcat : Shape.Concatenates [(⟨2, ![E, d]⟩ : Shape), ⟨2, ![E, d]⟩] ⟨2, ![E, d + d]⟩ (1 : Fin 2))
    (hb : (⟨2, ![1, 128]⟩ : Shape).BroadcastsInDim ⟨2, ![E, 128]⟩ (![0, 1] : Fin 2 → Fin 2))
    (hi hj : FVec Ideal ⟨2, ![E, d]⟩ .f32) (W1 : FVec Ideal ⟨2, ![d + d, 128]⟩ .f32) (b1r : FVec Ideal ⟨2, ![1, 128]⟩ .f32)
    (W2 : FVec Ideal ⟨2, ![128, 128]⟩ .f32) (b2r : FVec Ideal ⟨2, ![1, 128]⟩ .f32) :
    addf (Host.dotGeneral (F := Ideal) (DotDims.plain E 128 128) none
        (Host.tanh (addf (Host.dotGeneral (F := Ideal) (DotDims.plain E (d + d) 128) none
          (concatenate ⟨2, ![E, d + d]⟩ (1 : Fin 2) [⟨⟨2, ![E, d]⟩, hi⟩, ⟨⟨2, ![E, d]⟩, subf hj hi⟩] hcat) W1)
          (broadcastInDim ⟨2, ![E, 128]⟩ ![0, 1] hb b1r))) W2)
      (broadcastInDim ⟨2, ![E, 128]⟩ ![0, 1] hb b2r)
      = edgeArr hi hj (topRows W1) (botRows W1) b1r W2 b2r := by
  funext i
  obtain ⟨r, q, rfl⟩ : ∃ (r : Fin E) (q : Fin 128), i = ix2 r q := ⟨i 0, i 1, eq_ix2 i⟩
  rw [edgeArr_apply, addf_apply, rows_apply]
  unfold rowMlp
  refine congrArg (· + b2r (ix2 (0 : Fin 1) q)) ?_
  refine (PlainDot.dotGeneral_apply none .single _ W2 r q).trans ?_
  refine Finset.sum_congr rfl fun k _ => ?_
  refine congrArg (· * W2 (ix2 k q)) ?_
  show Ideal.tanh _ = Ideal.tanh _
  refine congrArg Ideal.tanh ?_
  rw [addf_apply, rows_apply]
  refine congrArg (· + b1r (ix2 (0 : Fin 1) k)) ?_
  refine (PlainDot.dotGeneral_apply none .single _ W1 r k).trans ?_
  refine sum_concat (d := d) _ _ _ (fun a => ?_) (fun a => ?_)
  · show _ * W1 (ix2 (Fin.castAdd d a) k) = hi (ix2 r a) * topRows W1 (ix2 a k)
    rw [concat_left, topRows_apply]
  · show _ * W1 (ix2 (Fin.natAdd d a) k) = (hj (ix2 r a) - hi (ix2 r a)) * botRows W1 (ix2 a k)
    rw [concat_right, botRows_apply, subf_apply]

theorem mlp7_eq (hi hj : FVec Ideal S600000x7 .f32) (W1 : FVec Ideal S14x128 .f32) (b1r : FVec Ideal S1x128 .f32)
    (W2 : FVec Ideal S128x128 .f32) (b2r : FVec Ideal S1x128 .f32) :
    mlp7 (F := Ideal) hi hj W1 b1r W2 b2r = edgeArr hi hj (topRows (d := 7) W1) (botRows (d := 7) W1) b1r W2 b2r := by
  unfold mlp7
  rw [dot14, dot128]
  exact edge_eq (E := 600000) (d := 7) concatenates_S600000x7_S600000x7_S600000x14_d1 bcast_S1x128_S600000x128_0_1 hi hj W1 b1r W2 b2r

theorem mlp128_eq (hi hj : FVec Ideal S600000x128 .f32) (W1 : FVec Ideal S256x128 .f32) (b1r : FVec Ideal S1x128 .f32)
    (W2 : FVec Ideal S128x128 .f32) (b2r : FVec Ideal S1x128 .f32) :
    mlp128 (F := Ideal) hi hj W1 b1r W2 b2r = edgeArr hi hj (topRows (d := 128) W1) (botRows (d := 128) W1) b1r W2 b2r := by
  unfold mlp128
  rw [dot256, dot128]
  exact edge_eq (E := 600000) (d := 128) concatenates_S600000x128_S600000x128_S600000x256_d1 bcast_S1x128_S600000x128_0_1 hi hj W1 b1r W2 b2r

/-- The output head: entry `(r, q)` is the contraction of row `r` of the node features with column `q` of `Wo`, plus the bias at `q`. -/
theorem head_eq (h : FVec Ideal S50000x128 .f32) (Wo : FVec Ideal S128x3 .f32) (bor : FVec Ideal S1x3 .f32) :
    head (F := Ideal) h Wo bor = headArr h Wo bor := by
  funext i
  obtain ⟨r, q, rfl⟩ : ∃ (r : Fin 50000) (q : Fin 3), i = ix2 r q := ⟨i 0, i 1, eq_ix2 i⟩
  rw [headArr_apply]
  unfold head rowHead
  rw [addf_apply, rows_apply]
  refine congrArg (· + bor (ix2 (0 : Fin 1) q)) ?_
  rw [dotHead]
  exact PlainDot.dotGeneral_apply none .single h Wo r q

end Cert.ReferenceIdeal.RefSide

end
-- ==== Proof.RefHost.lean ====
/-
  The reference program's host operations, named, and its whole computation as a composition of layers.

  `srcIdx` / `dstIdx`: the two rows of the edge list. `idxCol`: an index vector with its negative entries wrapped by the node
  count, as a column. `gather7` / `gather128`: `h[idx]`, the rows of the node features at the wrapped indices (a plain
  gather: no replacement of out-of-range rows). `segSum`: the scatter-add of the per-edge messages into a zero array of node
  rows. `row128` / `row3`: a bias vector as a one-row array. `layer7` / `layer128`: one EdgeConv layer, node features in, node
  features out. `out`: four layers and the output head.
-/
import proofs.«428389_j4277787426824_1_alg».proof.Proof.RefMlp

noncomputable section

namespace Cert.ReferenceIdeal.RefSide

open Idealize.ShloMosaic Cert.ReferenceIdeal
open Cert.ReferenceIdeal.Facts₀

variable [Cert.ReferenceIdeal.Facts₀]
variable {F : FTy → Type} [FloatOps F]

def srcIdx (ei : IVec S2x600000 32) : IVec S600000 32 :=
  shapeCast S600000 (extractStridedSlice S1x600000 ![0, 0] ei slices_S2x600000_S1x600000_0_0) shapeCasts_S1x600000_S600000

def dstIdx (ei : IVec S2x600000 32) : IVec S600000 32 :=
  shapeCast S600000 (extractStridedSlice S1x600000 ![1, 0] ei slices_S2x600000_S1x600000_1_0) shapeCasts_S1x600000_S600000

def idxCol (idx : IVec S600000 32) : IVec S600000x1 32 :=
  broadcastInDim S600000x1 ![0] bcast_S600000_S600000x1_0
    (select (cmpi .slt idx (broadcastInDim S600000 ![] bcast_S_S600000 (constantI S_ 32 0#32)))
      (addi idx (broadcastInDim S600000 ![] bcast_S_S600000 (constantI S_ 32 50000#32))) idx)

def gather7 (x : FVec F S50000x7 .f32) (idx : IVec S600000 32) : FVec F S600000x7 .f32 :=
  Host.gather gather_S50000x7_S600000x1_S600000x7_1_0_n_n_0_1_17 x (idxCol idx)

def gather128 (h : FVec F S50000x128 .f32) (idx : IVec S600000 32) : FVec F S600000x128 .f32 :=
  Host.gather gather_S50000x128_S600000x1_S600000x128_1_0_n_n_0_1_1128 h (idxCol idx)

def segSum (dst : IVec S600000 32) (msg : FVec F S600000x128 .f32) : FVec F S50000x128 .f32 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 dst) msg

def row128 (b : FVec F S128 .f32) : FVec F S1x128 .f32 := broadcastInDim S1x128 ![1] bcast_S128_S1x128_1 b
def row3 (b : FVec F S3 .f32) : FVec F S1x3 .f32 := broadcastInDim S1x3 ![1] bcast_S3_S1x3_1 b

/-- The first layer: features of width 7 in, node features of width 128 out. -/
def layer7 (x : FVec F S50000x7 .f32) (ei : IVec S2x600000 32) (W1 : FVec F S14x128 .f32) (b1 : FVec F S128 .f32)
    (W2 : FVec F S128x128 .f32) (b2 : FVec F S128 .f32) : FVec F S50000x128 .f32 :=
  segSum (dstIdx ei) (mlp7 (gather7 x (dstIdx ei)) (gather7 x (srcIdx ei)) W1 (row128 b1) W2 (row128 b2))

/-- A later layer: node features of width 128 in and out. -/
def layer128 (h : FVec F S50000x128 .f32) (ei : IVec S2x600000 32) (W1 : FVec F S256x128 .f32) (b1 : FVec F S128 .f32)
    (W2 : FVec F S128x128 .f32) (b2 : FVec F S128 .f32) : FVec F S50000x128 .f32 :=
  segSum (dstIdx ei) (mlp128 (gather128 h (dstIdx ei)) (gather128 h (srcIdx ei)) W1 (row128 b1) W2 (row128 b2))

/-- Layer `l`'s weights out of the stacked arrays. -/
def w1s0 (W : FVec F S3x256x128 .f32) : FVec F S256x128 .f32 := shapeCast S256x128 (extractStridedSlice S1x256x128 ![0, 0, 0] W slices_S3x256x128_S1x256x128_0_0_0) shapeCasts_S1x256x128_S256x128
def w1s1 (W : FVec F S3x256x128 .f32) : FVec F S256x128 .f32 := shapeCast S256x128 (extractStridedSlice S1x256x128 ![1, 0, 0] W slices_S3x256x128_S1x256x128_1_0_0) shapeCasts_S1x256x128_S256x128
def w1s2 (W : FVec F S3x256x128 .f32) : FVec F S256x128 .f32 := shapeCast S256x128 (extractStridedSlice S1x256x128 ![2, 0, 0] W slices_S3x256x128_S1x256x128_2_0_0) shapeCasts_S1x256x128_S256x128
def bs0 (b : FVec F S3x128 .f32) : FVec F S128 .f32 := shapeCast S128 (extractStridedSlice S1x128 ![0, 0] b slices_S3x128_S1x128_0_0) shapeCasts_S1x128_S128
def bs1 (b : FVec F S3x128 .f32) : FVec F S128 .f32 := shapeCast S128 (extractStridedSlice S1x128 ![1, 0] b slices_S3x128_S1x128_1_0) shapeCasts_S1x128_S128
def bs2 (b : FVec F S3x128 .f32) : FVec F S128 .f32 := shapeCast S128 (extractStridedSlice S1x128 ![2, 0] b slices_S3x128_S1x128_2_0) shapeCasts_S1x128_S128
def w2s0 (W : FVec F S3x128x128 .f32) : FVec F S128x128 .f32 := shapeCast S128x128 (extractStridedSlice S1x128x128 ![0, 0, 0] W slices_S3x128x128_S1x128x128_0_0_0) shapeCasts_S1x128x128_S128x128
def w2s1 (W : FVec F S3x128x128 .f32) : FVec F S128x128 .f32 := shapeCast S128x128 (extractStridedSlice S1x128x128 ![1, 0, 0] W slices_S3x128x128_S1x128x128_1_0_0) shapeCasts_S1x128x128_S128x128
def w2s2 (W : FVec F S3x128x128 .f32) : FVec F S128x128 .f32 := shapeCast S128x128 (extractStridedSlice S1x128x128 ![2, 0, 0] W slices_S3x128x128_S1x128x128_2_0_0) shapeCasts_S1x128x128_S128x128

/-- The reference's whole computation. -/
def out (x : FVec F S50000x7 .f32) (ei : IVec S2x600000 32) (W1_0 : FVec F S14x128 .f32) (b1_0 : FVec F S128 .f32)
    (W2_0 : FVec F S128x128 .f32) (b2_0 : FVec F S128 .f32) (W1s : FVec F S3x256x128 .f32) (b1s : FVec F S3x128 .f32)
    (W2s : FVec F S3x128x128 .f32) (b2s : FVec F S3x128 .f32) (Wo : FVec F S128x3 .f32) (bo : FVec F S3 .f32) : FVec F S50000x3 .f32 :=
  head (layer128 (layer128 (layer128 (layer7 x ei W1_0 b1_0 W2_0 b2_0)
      ei (w1s0 W1s) (bs0 b1s) (w2s0 W2s) (bs0 b2s))
      ei (w1s1 W1s) (bs1 b1s) (w2s1 W2s) (bs1 b2s))
      ei (w1s2 W1s) (bs2 b1s) (w2s2 W2s) (bs2 b2s)) Wo (row3 bo)

end Cert.ReferenceIdeal.RefSide

end
-- ==== Proof.Layout.lean ====
/-
  Three small facts about how the two programs lay out the same weights.

  The kernel's program cuts a layer's first weight matrix `[d + d, 128]` into its top and bottom halves with two slices; read
  at `(a, k)` a slice from row offset `o` is the matrix at `(o + a, k)`, so the halves are `topRows` and `botRows`.
  A bias vector `[n]` is made a one-row array `[1, n]` by a reshape in the kernel's program and by a broadcast along a new
  leading axis in the reference's; both read, at `(0, k)`, the vector at `k`.
-/
import proofs.«428389_j4277787426824_1_alg».proof.Proof.Spec
import Idealize.ShloMosaic.Lib.ValueIdx
import Idealize.ShloMosaic.Lib.ValueLayout
import Idealize.ShloMosaic.Lib.Pipeline.Value

noncomputable section

namespace Cert.EdgeConv

open Idealize.ShloMosaic Idealize.ShloMosaic.ValueIdx

/-- The slice of the first `d` rows of a `(d + d) × 128` matrix is its top half. -/
theorem slice_top {d : Nat} (W : (⟨2, ![d + d, 128]⟩ : Shape).Idx → EReal)
    (h : (⟨2, ![d + d, 128]⟩ : Shape).Slices ![0, 0] ⟨2, ![d, 128]⟩) :
    extractStridedSlice ⟨2, ![d, 128]⟩ ![0, 0] W h = topRows W := by
  funext i
  obtain ⟨a, k, rfl⟩ : ∃ (a : Fin d) (k : Fin 128), i = ix2 a k := ⟨i 0, i 1, eq_ix2 i⟩
  exact slice2_axis0_apply 0 W h a k (Fin.castAdd d a) (by simp)

/-- The slice of the last `d` rows of a `(d + d) × 128` matrix is its bottom half. -/
theorem slice_bot {d : Nat} (W : (⟨2, ![d + d, 128]⟩ : Shape).Idx → EReal)
    (h : (⟨2, ![d + d, 128]⟩ : Shape).Slices ![d, 0] ⟨2, ![d, 128]⟩) :
    extractStridedSlice ⟨2, ![d, 128]⟩ ![d, 0] W h = botRows W := by
  funext i
  obtain ⟨a, k, rfl⟩ : ∃ (a : Fin d) (k : Fin 128), i = ix2 a k := ⟨i 0, i 1, eq_ix2 i⟩
  exact slice2_axis0_apply d W h a k (Fin.natAdd d a) (Fin.coe_natAdd d a)

/-- A vector made a one-row array by a reshape is the vector made a one-row array by a broadcast along a new leading axis. -/
theorem row_reshape_eq_bcast {n : Nat} (b : (⟨1, ![n]⟩ : Shape).Idx → EReal)
    (h1 : (⟨1, ![n]⟩ : Shape).ShapeCasts ⟨2, ![1, n]⟩)
    (h2 : (⟨1, ![n]⟩ : Shape).BroadcastsInDim ⟨2, ![1, n]⟩ (![1] : Fin 1 → Fin 2)) :
    shapeCast ⟨2, ![1, n]⟩ b h1 = broadcastInDim ⟨2, ![1, n]⟩ ![1] h2 b := by
  funext j
  rw [shapeCast_addUnit_apply (![n]) b h1 j]
  refine (broadcastInDim_apply _ h2 b j (fun a => j a.succ) fun a => ?_).symm
  match a with
  | ⟨0, _⟩ =>
    show (j 1).val = if n = 1 then 0 else (j 1).val
    split
    · have := (j 1).isLt; simp at this; omega
    · rfl

end Cert.EdgeConv

end
-- ==== Proof.Bridge.lean ====
/-
  One layer of the kernel's program equals one layer of the reference, and so do the whole computations.

  Both programs gather the node features at the two ends of every edge, run the per-edge MLP, and add the messages
  into the node rows. They differ in three spellings. The kernel's gather replaces out-of-range rows by the not-a-number
  word; under the range facts on the edge list no row is replaced, and it is the reference's plain gather. The kernel's
  program cuts the first weight matrix into its top and bottom halves by two slices and feeds the halves to two products;
  the reference contracts the concatenated row with the whole matrix, which is the sum of the two half products. The
  kernel's program makes a bias vector a one-row array by a reshape, the reference by a broadcast along a new leading
  axis; both read the vector at the column. Everything else is the same host operation named once in each program.
-/
import proofs.«428389_j4277787426824_1_alg».proof.Proof.KernelChain
import proofs.«428389_j4277787426824_1_alg».proof.Proof.RefHost
import proofs.«428389_j4277787426824_1_alg».proof.Proof.Layout
import proofs.«428389_j4277787426824_1_alg».proof.Proof.IndexRange

noncomputable section

namespace Cert.Bridge

open Idealize.ShloMosaic Cert.EdgeConv
open Cert.KernelIdeal.IndexRange

variable [Cert.KernelIdeal.Facts₀] [Cert.ReferenceIdeal.Facts₀]

/-! ## The same host operation under its two names

The two programs print the same host operations with the same shapes and dimension numbers; each program names them in
its own namespace. Unfolded, the two names of an operation are one term. -/

section Cross
variable {F : FTy → Type} [FloatOps F]

theorem srcIdx_eq (ei : IVec Cert.KernelIdeal.S2x600000 32) :
    Cert.KernelIdeal.HostFns.srcIdx ei = Cert.ReferenceIdeal.RefSide.srcIdx ei := rfl

theorem dstIdx_eq (ei : IVec Cert.KernelIdeal.S2x600000 32) :
    Cert.KernelIdeal.HostFns.dstIdx ei = Cert.ReferenceIdeal.RefSide.dstIdx ei := rfl

theorem idxCol_eq (idx : IVec Cert.KernelIdeal.S600000 32) :
    Cert.KernelIdeal.HostFns.idxCol idx = Cert.ReferenceIdeal.RefSide.idxCol idx := rfl

theorem gather7_eq (x : FVec F Cert.KernelIdeal.S50000x7 .f32) (idx : IVec Cert.KernelIdeal.S600000 32) :
    Host.gather Cert.KernelIdeal.gather_S50000x7_S600000x1_S600000x7_1_0_n_n_0_1_17 x (Cert.KernelIdeal.HostFns.idxCol idx)
      = Cert.ReferenceIdeal.RefSide.gather7 x idx := rfl

theorem gather128_eq (h : FVec F Cert.KernelIdeal.S50000x128 .f32) (idx : IVec Cert.KernelIdeal.S600000 32) :
    Host.gather Cert.KernelIdeal.gather_S50000x128_S600000x1_S600000x128_1_0_n_n_0_1_1128 h (Cert.KernelIdeal.HostFns.idxCol idx)
      = Cert.ReferenceIdeal.RefSide.gather128 h idx := rfl

theorem segSum_eq (d : IVec Cert.KernelIdeal.S600000 32) (msg : FVec F Cert.KernelIdeal.S600000x128 .f32) :
    Cert.KernelIdeal.HostFns.segSum d msg = Cert.ReferenceIdeal.RefSide.segSum d msg := rfl

end Cross

theorem w1s0_eq (W : FVec Ideal Cert.KernelIdeal.S3x256x128 .f32) : Cert.KernelIdeal.Chain.w1s0 W = Cert.ReferenceIdeal.RefSide.w1s0 (F := Ideal) W := rfl
theorem w1s1_eq (W : FVec Ideal Cert.KernelIdeal.S3x256x128 .f32) : Cert.KernelIdeal.Chain.w1s1 W = Cert.ReferenceIdeal.RefSide.w1s1 (F := Ideal) W := rfl
theorem w1s2_eq (W : FVec Ideal Cert.KernelIdeal.S3x256x128 .f32) : Cert.KernelIdeal.Chain.w1s2 W = Cert.ReferenceIdeal.RefSide.w1s2 (F := Ideal) W := rfl
theorem bs0_eq (b : FVec Ideal Cert.KernelIdeal.S3x128 .f32) : Cert.KernelIdeal.Chain.bs0 b = Cert.ReferenceIdeal.RefSide.bs0 (F := Ideal) b := rfl
theorem bs1_eq (b : FVec Ideal Cert.KernelIdeal.S3x128 .f32) : Cert.KernelIdeal.Chain.bs1 b = Cert.ReferenceIdeal.RefSide.bs1 (F := Ideal) b := rfl
theorem bs2_eq (b : FVec Ideal Cert.KernelIdeal.S3x128 .f32) : Cert.KernelIdeal.Chain.bs2 b = Cert.ReferenceIdeal.RefSide.bs2 (F := Ideal) b := rfl
theorem w2s0_eq (W : FVec Ideal Cert.KernelIdeal.S3x128x128 .f32) : Cert.KernelIdeal.Chain.w2s0 W = Cert.ReferenceIdeal.RefSide.w2s0 (F := Ideal) W := rfl
theorem w2s1_eq (W : FVec Ideal Cert.KernelIdeal.S3x128x128 .f32) : Cert.KernelIdeal.Chain.w2s1 W = Cert.ReferenceIdeal.RefSide.w2s1 (F := Ideal) W := rfl
theorem w2s2_eq (W : FVec Ideal Cert.KernelIdeal.S3x128x128 .f32) : Cert.KernelIdeal.Chain.w2s2 W = Cert.ReferenceIdeal.RefSide.w2s2 (F := Ideal) W := rfl

/-! ## One layer -/

/-- A bias vector made a one-row array by the kernel program's reshape is the reference's broadcast of it. -/
theorem row128_eq (b : FVec Ideal Cert.KernelIdeal.S128 .f32) :
    shapeCast Cert.KernelIdeal.S1x128 b Cert.KernelIdeal.Facts₀.shapeCasts_S128_S1x128 = Cert.ReferenceIdeal.RefSide.row128 (F := Ideal) b :=
  row_reshape_eq_bcast (n := 128) b _ Cert.ReferenceIdeal.Facts₀.bcast_S128_S1x128_1

theorem row3_eq (b : FVec Ideal Cert.KernelIdeal.S3 .f32) :
    shapeCast Cert.KernelIdeal.S1x3 b Cert.KernelIdeal.Facts₀.shapeCasts_S3_S1x3 = Cert.ReferenceIdeal.RefSide.row3 (F := Ideal) b :=
  row_reshape_eq_bcast (n := 3) b _ Cert.ReferenceIdeal.Facts₀.bcast_S3_S1x3_1

/-- The first layer of the kernel's program is the first layer of the reference: under the range facts the gathers are the
    plain gathers, the two slices of the first weight matrix are its top and bottom halves, the bias rows agree, and the
    reference's per-edge MLP is the shared message array. -/
theorem layer7_eq (x : FVec Ideal Cert.KernelIdeal.S50000x7 .f32) (ei : IVec Cert.KernelIdeal.S2x600000 32)
    (W1 : FVec Ideal Cert.KernelIdeal.S14x128 .f32) (b1 : FVec Ideal Cert.KernelIdeal.S128 .f32)
    (W2 : FVec Ideal Cert.KernelIdeal.S128x128 .f32) (b2 : FVec Ideal Cert.KernelIdeal.S128 .f32)
    (hsg : ∀ e, IntOp.cmpi .sge (Cert.KernelIdeal.HostFns.srcIdx ei e) 0#32 = 1#1)
    (hsl : ∀ e, IntOp.cmpi .slt (Cert.KernelIdeal.HostFns.srcIdx ei e) 50000#32 = 1#1)
    (hdg : ∀ e, IntOp.cmpi .sge (Cert.KernelIdeal.HostFns.dstIdx ei e) 0#32 = 1#1)
    (hdl : ∀ e, IntOp.cmpi .slt (Cert.KernelIdeal.HostFns.dstIdx ei e) 50000#32 = 1#1) :
    Cert.KernelIdeal.Chain.layer7 x ei W1 b1 W2 b2 = Cert.ReferenceIdeal.RefSide.layer7 (F := Ideal) x ei W1 b1 W2 b2 := by
  have e1 : extractStridedSlice Cert.KernelIdeal.S7x128 ![0, 0] W1 Cert.KernelIdeal.Facts₀.slices_S14x128_S7x128_0_0
      = topRows (d := 7) W1 := slice_top (d := 7) W1 _
  have e2 : extractStridedSlice Cert.KernelIdeal.S7x128 ![7, 0] W1 Cert.KernelIdeal.Facts₀.slices_S14x128_S7x128_7_0
      = botRows (d := 7) W1 := slice_bot (d := 7) W1 _
  unfold Cert.KernelIdeal.Chain.layer7 Cert.ReferenceIdeal.RefSide.layer7
  rw [take7_eq x _ hdg hdl, take7_eq x _ hsg hsl, gather7_eq, gather7_eq, segSum_eq, dstIdx_eq, srcIdx_eq, e1, e2,
    row128_eq, row128_eq, Cert.ReferenceIdeal.RefSide.mlp7_eq]

/-- A later layer, the same way at width 128. -/
theorem layer128_eq (h : FVec Ideal Cert.KernelIdeal.S50000x128 .f32) (ei : IVec Cert.KernelIdeal.S2x600000 32)
    (W1 : FVec Ideal Cert.KernelIdeal.S256x128 .f32) (b1 : FVec Ideal Cert.KernelIdeal.S128 .f32)
    (W2 : FVec Ideal Cert.KernelIdeal.S128x128 .f32) (b2 : FVec Ideal Cert.KernelIdeal.S128 .f32)
    (hsg : ∀ e, IntOp.cmpi .sge (Cert.KernelIdeal.HostFns.srcIdx ei e) 0#32 = 1#1)
    (hsl : ∀ e, IntOp.cmpi .slt (Cert.KernelIdeal.HostFns.srcIdx ei e) 50000#32 = 1#1)
    (hdg : ∀ e, IntOp.cmpi .sge (Cert.KernelIdeal.HostFns.dstIdx ei e) 0#32 = 1#1)
    (hdl : ∀ e, IntOp.cmpi .slt (Cert.KernelIdeal.HostFns.dstIdx ei e) 50000#32 = 1#1) :
    Cert.KernelIdeal.Chain.layer128 h ei W1 b1 W2 b2 = Cert.ReferenceIdeal.RefSide.layer128 (F := Ideal) h ei W1 b1 W2 b2 := by
  have e1 : extractStridedSlice Cert.KernelIdeal.S128x128 ![0, 0] W1 Cert.KernelIdeal.Facts₀.slices_S256x128_S128x128_0_0
      = topRows (d := 128) W1 := slice_top (d := 128) W1 _
  have e2 : extractStridedSlice Cert.KernelIdeal.S128x128 ![128, 0] W1 Cert.KernelIdeal.Facts₀.slices_S256x128_S128x128_128_0
      = botRows (d := 128) W1 := slice_bot (d := 128) W1 _
  unfold Cert.KernelIdeal.Chain.layer128 Cert.ReferenceIdeal.RefSide.layer128
  rw [take128_eq h _ hdg hdl, take128_eq h _ hsg hsl, gather128_eq, gather128_eq, segSum_eq, dstIdx_eq, srcIdx_eq, e1, e2,
    row128_eq, row128_eq, Cert.ReferenceIdeal.RefSide.mlp128_eq]

/-! ## The whole computation -/

/-- The kernel program's whole computation is the reference's: layer by layer, then the output head. -/
theorem out_eq (x : FVec Ideal Cert.KernelIdeal.S50000x7 .f32) (ei : IVec Cert.KernelIdeal.S2x600000 32)
    (W1_0 : FVec Ideal Cert.KernelIdeal.S14x128 .f32) (b1_0 : FVec Ideal Cert.KernelIdeal.S128 .f32)
    (W2_0 : FVec Ideal Cert.KernelIdeal.S128x128 .f32) (b2_0 : FVec Ideal Cert.KernelIdeal.S128 .f32)
    (W1s : FVec Ideal Cert.KernelIdeal.S3x256x128 .f32) (b1s : FVec Ideal Cert.KernelIdeal.S3x128 .f32)
    (W2s : FVec Ideal Cert.KernelIdeal.S3x128x128 .f32) (b2s : FVec Ideal Cert.KernelIdeal.S3x128 .f32)
    (Wo : FVec Ideal Cert.KernelIdeal.S128x3 .f32) (bo : FVec Ideal Cert.KernelIdeal.S3 .f32)
    (hsg : ∀ e, IntOp.cmpi .sge (Cert.KernelIdeal.HostFns.srcIdx ei e) 0#32 = 1#1)
    (hsl : ∀ e, IntOp.cmpi .slt (Cert.KernelIdeal.HostFns.srcIdx ei e) 50000#32 = 1#1)
    (hdg : ∀ e, IntOp.cmpi .sge (Cert.KernelIdeal.HostFns.dstIdx ei e) 0#32 = 1#1)
    (hdl : ∀ e, IntOp.cmpi .slt (Cert.KernelIdeal.HostFns.dstIdx ei e) 50000#32 = 1#1) :
    Cert.KernelIdeal.Chain.out x ei W1_0 b1_0 W2_0 b2_0 W1s b1s W2s b2s Wo bo
      = Cert.ReferenceIdeal.RefSide.out (F := Ideal) x ei W1_0 b1_0 W2_0 b2_0 W1s b1s W2s b2s Wo bo := by
  unfold Cert.KernelIdeal.Chain.out Cert.ReferenceIdeal.RefSide.out
  rw [layer7_eq x ei W1_0 b1_0 W2_0 b2_0 hsg hsl hdg hdl,
    layer128_eq _ ei (Cert.KernelIdeal.Chain.w1s0 W1s) _ _ _ hsg hsl hdg hdl,
    layer128_eq _ ei (Cert.KernelIdeal.Chain.w1s1 W1s) _ _ _ hsg hsl hdg hdl,
    layer128_eq _ ei (Cert.KernelIdeal.Chain.w1s2 W1s) _ _ _ hsg hsl hdg hdl,
    w1s0_eq, w1s1_eq, w1s2_eq, bs0_eq, bs0_eq, bs1_eq, bs1_eq, bs2_eq, bs2_eq, w2s0_eq, w2s1_eq, w2s2_eq, row3_eq,
    Cert.ReferenceIdeal.RefSide.head_eq]

end Cert.Bridge

end
-- ==== Proof.lean ====
/-
  The certificate of the GraphModel message-passing kernel against its jnp reference, on the extended reals.

  THE PROGRAMS. Four EdgeConv layers and a linear head over 50000 nodes and 600000 edges. A layer gathers the node
  features at each edge's target (`hi`) and source (`hj`), computes the message `tanh ([hi ‖ hj - hi] · W1 + b1) · W2 + b2`
  per edge, and adds the messages into their target nodes. The kernel program runs the per-edge MLP as a pallas_call over
  150 blocks of 4000 edges, with the first weight matrix cut into its two halves (`hi · A + (hj - hi) · B`), and the head
  `h · Wo + bo` as a pallas_call over 10 blocks of 5000 nodes; gathers, scatter-adds and weight slices stay on the host.

  WHY THEY AGREE. Entry by entry a block's result is `rowMlp` of the edge's two feature rows (Payload), the blocks tile the
  edges, so each call's output array is `edgeArr` of its input arrays (Region0 … Region4); the reference's chain is the same
  `edgeArr`, because a contraction over the concatenated row splits into the two half contractions — a sum over `Fin (d + d)`
  in a commutative monoid, no finiteness needed (RefMlp). The host operations between the calls are the same operations in
  both programs, but for the gather: the kernel's `jnp.take` replaces a row whose index is out of range by not-a-number
  where the reference's `h[idx]` clamps. Under the precondition that every entry of the edge list is a node index,
  `0 ≤ edge_index < 50000`, the replacement never happens (IndexRange, PreRange) and the two gathers are one. So layer by
  layer the node features agree (Bridge), and so do the outputs.

  THE CLAIMS. The two kernel frames are the generated ones. The reference's frame is its run with the result
  dropped. The ideal pass rewrote nothing, so `preserves` is `True`. For `algebraic` the common result is the kernel's own
  final buffer: the kernel's run posts it (KernelRun), it is `Chain.out` of the arguments (ChainValue), the reference's run
  posts `RefSide.out` of its arguments (RefRunAlt), the arguments agree, and `Chain.out = RefSide.out` under the index range.
-/
import proofs.«428389_j4277787426824_1_alg».proof.Defs
import proofs.«428389_j4277787426824_1_alg».proof.Proof.Gen.Kernel
import proofs.«428389_j4277787426824_1_alg».proof.Proof.Gen.Kernel.Skeleton
import proofs.«428389_j4277787426824_1_alg».proof.Proof.Gen.Kernel.Launch
import proofs.«428389_j4277787426824_1_alg».proof.Proof.Gen.Kernel.Points
import proofs.«428389_j4277787426824_1_alg».proof.Proof.Gen.Kernel.Frame
import proofs.«428389_j4277787426824_1_alg».proof.Proof.Gen.KernelIdeal
import proofs.«428389_j4277787426824_1_alg».proof.Proof.Gen.KernelIdeal.Skeleton
import proofs.«428389_j4277787426824_1_alg».proof.Proof.Gen.KernelIdeal.Launch
import proofs.«428389_j4277787426824_1_alg».proof.Proof.Gen.KernelIdeal.Points
import proofs.«428389_j4277787426824_1_alg».proof.Proof.Gen.KernelIdeal.Frame
import proofs.«428389_j4277787426824_1_alg».proof.Proof.Gen.ReferenceIdeal
import proofs.«428389_j4277787426824_1_alg».proof.Proof.Gen.Pre_finite_inputs
import proofs.«428389_j4277787426824_1_alg».proof.Proof.KernelRun
import proofs.«428389_j4277787426824_1_alg».proof.Proof.ChainValue
import proofs.«428389_j4277787426824_1_alg».proof.Proof.PreRange
import proofs.«428389_j4277787426824_1_alg».proof.Proof.Bridge
import proofs.«428389_j4277787426824_1_alg».proof.Proof.RefRunAlt
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunAlt.run_out (F := Ideal) m ρ)

/-- Both programs end with the kernel's final result buffer: the reference's `RefSide.out` of its arguments is the kernel's
    `Chain.out` of the same arguments, because no edge index is out of range. -/
theorem algebraic : Cert.algebraic_KernelIdeal_ReferenceIdeal := by
  intro m ρ m' ρ' hpre hagree
  refine ⟨fun c => Cert.KernelIdeal.Gen.W22 m ρ c (Proc.devRef .tc Cert.KernelIdeal.main_v69),
    Cert.KernelIdeal.GenRun.run_main m ρ, ?_⟩
  refine (θ_run Cert.ReferenceIdeal.defs _ _).mono (fun r h c => ⟨(h c).1.trans ?_, (h c).2⟩)
    (Cert.ReferenceIdeal.RunAlt.run_out (F := Ideal) m' ρ')
  obtain ⟨e0, e1, e2, e3, e4, e5, e6, e7, e8, e9, e10, e11⟩ := hagree c
  rw [e0, e1, e2, e3, e4, e5, e6, e7, e8, e9, e10, e11]
  show _ = Cert.KernelIdeal.Gen.W22 m ρ c (Proc.devRef .tc Cert.KernelIdeal.main_v69)
  rw [Cert.KernelIdeal.ChainValue.result_eq m ρ c]
  exact (Cert.Bridge.out_eq _ _ _ _ _ _ _ _ _ _ _ _
    (Cert.KernelIdeal.IndexRange.src_ge m hpre c) (Cert.KernelIdeal.IndexRange.src_lt m hpre c)
    (Cert.KernelIdeal.IndexRange.dst_ge m hpre c) (Cert.KernelIdeal.IndexRange.dst_lt m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
